-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S2048x1024 : Shape := ⟨2, ![2048, 1024]⟩
abbrev S1x1024 : Shape := ⟨2, ![1, 1024]⟩
abbrev S8x1x1024 : Shape := ⟨3, ![8, 1, 1024]⟩
abbrev S7 : Shape := ⟨1, ![7]⟩
abbrev S8 : Shape := ⟨1, ![8]⟩
abbrev S_ : Shape := ⟨0, ![]⟩
abbrev S1024 : Shape := ⟨1, ![1024]⟩
abbrev S1x1x1024 : Shape := ⟨3, ![1, 1, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S8x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v81 : BitVec 32 := Scalar.muli v13 c1_i32_43
  let v82 : BitVec 32 := Scalar.addi c0_i32_44 v81
  v82.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v14 : BitVec 32 := Scalar.addi v2 c2_i32
  let c8_i32_6 : BitVec 32 := 8#32
  let c0_i32_7 : BitVec 32 := 0#32
  let v15 : BitVec 1 := Scalar.cmpi .eq c8_i32_6 c0_i32_7
  let c1_i32_8 : BitVec 32 := 1#32
  let v16 : BitVec 32 := Scalar.select v15 c1_i32_8 c8_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_46 : BitVec 32 := 1#32
  let v83 : BitVec 32 := Scalar.muli v24 c1_i32_46
  let v84 : BitVec 32 := Scalar.addi c0_i32_47 v83
  v84.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.addi v2 c3_i32
  let c8_i32_12 : BitVec 32 := 8#32
  let c0_i32_13 : BitVec 32 := 0#32
  let v26 : BitVec 1 := Scalar.cmpi .eq c8_i32_12 c0_i32_13
  let c1_i32_14 : BitVec 32 := 1#32
  let v27 : BitVec 32 := Scalar.select v26 c1_i32_14 c8_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_49 : BitVec 32 := 1#32
  let v85 : BitVec 32 := Scalar.muli v35 c1_i32_49
  let v86 : BitVec 32 := Scalar.addi c0_i32_50 v85
  v86.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v36 : BitVec 32 := Scalar.addi v2 c4_i32
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c1_i32_52 : BitVec 32 := 1#32
  let v87 : BitVec 32 := Scalar.muli v46 c1_i32_52
  let v88 : BitVec 32 := Scalar.addi c0_i32_53 v87
  v88.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v47 : BitVec 32 := Scalar.addi v2 c5_i32
  let c8_i32_24 : BitVec 32 := 8#32
  let c0_i32_25 : BitVec 32 := 0#32
  let v48 : BitVec 1 := Scalar.cmpi .eq c8_i32_24 c0_i32_25
  let c1_i32_26 : BitVec 32 := 1#32
  let v49 : BitVec 32 := Scalar.select v48 c1_i32_26 c8_i32_24
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c1_i32_55 : BitVec 32 := 1#32
  let v89 : BitVec 32 := Scalar.muli v57 c1_i32_55
  let v90 : BitVec 32 := Scalar.addi c0_i32_56 v89
  v90.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v58 : BitVec 32 := Scalar.addi v2 c6_i32
  let c8_i32_30 : BitVec 32 := 8#32
  let c0_i32_31 : BitVec 32 := 0#32
  let v59 : BitVec 1 := Scalar.cmpi .eq c8_i32_30 c0_i32_31
  let c1_i32_32 : BitVec 32 := 1#32
  let v60 : BitVec 32 := Scalar.select v59 c1_i32_32 c8_i32_30
  let v61 : BitVec 32 := Scalar.remsi v58 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c1_i32_58 : BitVec 32 := 1#32
  let v91 : BitVec 32 := Scalar.muli v68 c1_i32_58
  let v92 : BitVec 32 := Scalar.addi c0_i32_59 v91
  v92.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v69 : BitVec 32 := Scalar.addi v2 c7_i32
  let c8_i32_36 : BitVec 32 := 8#32
  let c0_i32_37 : BitVec 32 := 0#32
  let v70 : BitVec 1 := Scalar.cmpi .eq c8_i32_36 c0_i32_37
  let c1_i32_38 : BitVec 32 := 1#32
  let v71 : BitVec 32 := Scalar.select v70 c1_i32_38 c8_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c1_i32_61 : BitVec 32 := 1#32
  let v93 : BitVec 32 := Scalar.muli v79 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : Index := Scalar.indexCast v2
  let c0_64 : Index := 0#32
  let c0_65 : Index := 0#32
  ![v99.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_70 : BitVec 32 := 0#32
  let c0_i32_71 : BitVec 32 := 0#32
  ![v2.toNat, 0, 0]
def k0_dev8 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v103 : BitVec 32 := Scalar.muli v13 c1_i32_68
  let v104 : BitVec 32 := Scalar.addi c0_i32_69 v103
  v104.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v14 : BitVec 32 := Scalar.addi v2 c2_i32
  let c8_i32_6 : BitVec 32 := 8#32
  let c0_i32_7 : BitVec 32 := 0#32
  let v15 : BitVec 1 := Scalar.cmpi .eq c8_i32_6 c0_i32_7
  let c1_i32_8 : BitVec 32 := 1#32
  let v16 : BitVec 32 := Scalar.select v15 c1_i32_8 c8_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_75 : BitVec 32 := 1#32
  let v113 : BitVec 32 := Scalar.muli v24 c1_i32_75
  let v114 : BitVec 32 := Scalar.addi c0_i32_76 v113
  v114.toNat
def k0_dev10 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.addi v2 c3_i32
  let c8_i32_12 : BitVec 32 := 8#32
  let c0_i32_13 : BitVec 32 := 0#32
  let v26 : BitVec 1 := Scalar.cmpi .eq c8_i32_12 c0_i32_13
  let c1_i32_14 : BitVec 32 := 1#32
  let v27 : BitVec 32 := Scalar.select v26 c1_i32_14 c8_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_82 : BitVec 32 := 1#32
  let v123 : BitVec 32 := Scalar.muli v35 c1_i32_82
  let v124 : BitVec 32 := Scalar.addi c0_i32_83 v123
  v124.toNat
def k0_dev11 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v36 : BitVec 32 := Scalar.addi v2 c4_i32
  let c8_i32_18 : BitVec 32 := 8#32
  let c0_i32_19 : BitVec 32 := 0#32
  let v37 : BitVec 1 := Scalar.cmpi .eq c8_i32_18 c0_i32_19
  let c1_i32_20 : BitVec 32 := 1#32
  let v38 : BitVec 32 := Scalar.select v37 c1_i32_20 c8_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c1_i32_89 : BitVec 32 := 1#32
  let v133 : BitVec 32 := Scalar.muli v46 c1_i32_89
  let v134 : BitVec 32 := Scalar.addi c0_i32_90 v133
  v134.toNat
def k0_dev12 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v47 : BitVec 32 := Scalar.addi v2 c5_i32
  let c8_i32_24 : BitVec 32 := 8#32
  let c0_i32_25 : BitVec 32 := 0#32
  let v48 : BitVec 1 := Scalar.cmpi .eq c8_i32_24 c0_i32_25
  let c1_i32_26 : BitVec 32 := 1#32
  let v49 : BitVec 32 := Scalar.select v48 c1_i32_26 c8_i32_24
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c1_i32_96 : BitVec 32 := 1#32
  let v143 : BitVec 32 := Scalar.muli v57 c1_i32_96
  let v144 : BitVec 32 := Scalar.addi c0_i32_97 v143
  v144.toNat
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v58 : BitVec 32 := Scalar.addi v2 c6_i32
  let c8_i32_30 : BitVec 32 := 8#32
  let c0_i32_31 : BitVec 32 := 0#32
  let v59 : BitVec 1 := Scalar.cmpi .eq c8_i32_30 c0_i32_31
  let c1_i32_32 : BitVec 32 := 1#32
  let v60 : BitVec 32 := Scalar.select v59 c1_i32_32 c8_i32_30
  let v61 : BitVec 32 := Scalar.remsi v58 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c1_i32_103 : BitVec 32 := 1#32
  let v153 : BitVec 32 := Scalar.muli v68 c1_i32_103
  let v154 : BitVec 32 := Scalar.addi c0_i32_104 v153
  v154.toNat
def k0_dev14 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v69 : BitVec 32 := Scalar.addi v2 c7_i32
  let c8_i32_36 : BitVec 32 := 8#32
  let c0_i32_37 : BitVec 32 := 0#32
  let v70 : BitVec 1 := Scalar.cmpi .eq c8_i32_36 c0_i32_37
  let c1_i32_38 : BitVec 32 := 1#32
  let v71 : BitVec 32 := Scalar.select v70 c1_i32_38 c8_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c1_i32_110 : BitVec 32 := 1#32
  let v163 : BitVec 32 := Scalar.muli v79 c1_i32_110
  let v164 : BitVec 32 := Scalar.addi c0_i32_111 v163
  v164.toNat
def k0_off4 (d0 : Dev nD) (c1_i32_0 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off5 (d0 : Dev nD) (c1_i32_0 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_121 : BitVec 32 := 0#32
  let c0_i32_122 : BitVec 32 := 0#32
  ![v13.toNat, 0, 0]
def k0_off6 (d0 : Dev nD) (c1_i32_0 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v184 : Index := Scalar.indexCast v13
  let c0_125 : Index := 0#32
  let c0_126 : Index := 0#32
  ![v184.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  hamt_7 : (7#32 : BitVec 32).msb = false
  inb_S7_S1_0 : ∀ a, (![0] : Fin 1 → Nat) a + S1.size a ≤ S7.size a
  squeezes_S1_S_ : S1.Squeezes S_
  squeezes_S1x1x1024_S1x1024 : S1x1x1024.Squeezes S1x1024
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S1x1024_S1x1024_0_0 : ∀ a, (![0, 0] : Fin 2 → Nat) a + S1x1024.size a ≤ S1x1024.size a
  h_S1x1024 : 0 < S1x1024.numel
  hcc0_scratch1 : 2 + S7.numel ≤ 17
  hcc0_scratch2 : 9 + S8.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x1x1024.size a ≤ S8x1x1024.size a
  k0_off2_inb : ∀ d0 : Dev nD, ∀ a, (k0_off2 d0) a + S1.size a ≤ S8.size a
  k0_off3_inb : ∀ d0 : Dev nD, ∀ a, (k0_off3 d0) a + S1x1x1024.size a ≤ S8x1x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x1x1024.size a ≤ S8x1x1024.size a
  k0_off6_inb : ∀ d0 : Dev nD, ∀ (r : Fin 7), ∀ a, (k0_off6 d0 (BitVec.ofNat 32 (1 + r.val))) a + S1x1x1024.size a ≤ S8x1x1024.size a
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S8 := SemArray.consecutive 9 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Contents.lean ====
/-
  The pure contents of the eight-device column maximum.

  Device `c` holds rows [2048 c, 2048 c + 2048) of a 16384 x 1024 array. It takes the maximum of every column of its
  block (one row of 1024 numbers), every device sends its row to every other device, and each device folds the eight
  rows by `max`, its own first and then those of the devices 1, 2, …, 7 places after it on the ring of eight.
  Here: the ring's peers, a device's block as its staging buffer holds it, its row of column maxima, and the folded
  result — each a pure term of the launch memory, at any float instance.
-/
import proofs.«900918_g7700000000000919_dist_max_ax0_shard0_i_m2048_n1024_v7x_i8_bf16_1_alg».proof.Proof.Gen.KernelIdeal.Skeleton
import proofs.«900918_g7700000000000919_dist_max_ax0_shard0_i_m2048_n1024_v7x_i8_bf16_1_alg».proof.Proof.Gen.KernelIdeal.Launch
import Idealize.ShloMosaic.Lib.Pipeline.Kit

noncomputable section

namespace Cert.KernelIdealProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The `k`-th peer of device `c`: the device `k + 1` places after it on the ring of eight. -/
def peer (c : Dev nD) (k : Fin 7) : Dev nD := ⟨(c.val + k.val + 1) % 8, Nat.mod_lt _ (by decide)⟩

/-- The device whose `k`-th peer is `p`: `k + 1` places before it. -/
def rpeer (p : Dev nD) (k : Fin 7) : Dev nD := ⟨(p.val + (7 - k.val)) % 8, Nat.mod_lt _ (by decide)⟩

theorem peer_rpeer (p : Dev nD) (k : Fin 7) : peer (rpeer p k) k = p := by revert p k; decide
theorem rpeer_peer (c : Dev nD) (k : Fin 7) : rpeer (peer c k) k = c := by revert c k; decide
theorem peer_ne (c : Dev nD) (k : Fin 7) : peer c k ≠ c := by revert c k; decide
theorem rpeer_ne (c : Dev nD) (k : Fin 7) : rpeer c k ≠ c := by revert c k; decide
theorem peer_inj (c : Dev nD) : Function.Injective (peer c) := by revert c; decide

/-- Device `c`'s block of the input, as its staging buffer holds it during the kernel: the whole of its argument array. -/
def xstg (c : Dev nD) : (cc0_stg0_0 : Ref sig .tc).ty.Contents (Elt F) :=
  (win0_0.blk t0_0).view.read (Elt F) (m ((c : Thread nD τ).loc main_arg0))

/-- The column maxima of device `p`'s block, as the one row the kernel stores in slot `p` of the exchange buffer. -/
def row (p : Dev nD) : FVec F S1x1x1024 .f32 := k0_pay2 (k0_pay1 (xstg m p))

/-- The kernel's result on device `c`: its own row folded by `max` with the rows of its seven peers, in ring order. -/
def outAt (c : Dev nD) : (cc0_stg1_0 : Ref sig .tc).ty.Contents (Elt F) :=
  k0_pay5 (k0_pay4 (k0_pay3 (row m c) (row m (peer c 0))) (row m (peer c 1)) (row m (peer c 2)) (row m (peer c 3)))
    (row m (peer c 4)) (row m (peer c 5)) (row m (peer c 6))

end Cert.KernelIdealProof

end
-- ==== Proof.Protocol.lean ====
/-
  The protocol of the eight-device column maximum, under the rounds discipline.

  Every device `c` has one barrier cell, seven send cells and eight receive cells. Round 0 is the only round.
  * Barrier cell of `p`: seven duties, one per offset `k`; duty `k` is one unit, signalled by the device `rpeer p k`
    (the one whose `k`-th peer is `p`), and hands `p` that device's slot `p` of the exchange buffer (at any contents)
    together with the fact that its receive cell `p` has reached round 0: what `p`'s copy into it needs.
  * Send cell `k` of `c`: one duty, the copy's credit; it hands back the share of `c`'s own slot the copy read from.
  * Receive cell `j` of `c` (`j ≠ c`): one duty, the credit of `j`'s copy; it hands `c` its slot `j` holding `j`'s row.
    Receive cell `c` of `c` is never used and has no duty.
  A device owes, at launch, one unit to each peer's barrier cell and one copy's credit to each peer's receive cell; it
  waits on its barrier cell while owing only receive credits, and on its receive and send cells owing nothing:
  barrier cells sit below receive cells, which is the whole deadlock argument.
-/
import proofs.«900918_g7700000000000919_dist_max_ax0_shard0_i_m2048_n1024_v7x_i8_bf16_1_alg».proof.Proof.Contents
import proofs.«900918_g7700000000000919_dist_max_ax0_shard0_i_m2048_n1024_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the peer offset) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs, slots and cells -/

abbrev xM : Memref sig .tc .vmem S2048x1024 .f32 := Memref.whole cc0_stg0_0
abbrev oM : Memref sig .tc .vmem S1x1024 .f32 := Memref.whole cc0_stg1_0
abbrev rM : Memref sig .tc .vmem S8x1x1024 .f32 := Memref.whole cc0_scratch0

theorem slot_inb (j : Dev nD) : ∀ a, (![j.val, 0, 0] : Fin 3 → Nat) a + S1x1x1024.size a ≤ S8x1x1024.size a := by revert j; decide
theorem send_inb (k : Fin 7) : ∀ a, (![k.val] : Fin 1 → Nat) a + S1.size a ≤ S7.size a := by revert k; decide
theorem recv_inb (j : Dev nD) : ∀ a, (![j.val] : Fin 1 → Nat) a + S1.size a ≤ S8.size a := by revert j; decide

/-- Slot `j` of the exchange buffer as a rectangle of it: row `j`, all 1024 columns. -/
abbrev slotRect (j : Dev nD) : Rect S8x1x1024 := Rect.unit (s := S8x1x1024) ![j.val, 0, 0] S1x1x1024.size (slot_inb j)

/-- Slot `j` as the kernel's copies address it: the rectangle, squeezed to one row of 1024. -/
abbrev slotM (j : Dev nD) : Memref sig .tc .vmem S1x1024 .f32 :=
  ((rM : Memref sig .tc .vmem S8x1x1024 .f32).slice (slotRect j) (fun _ => rfl)).squeeze S1x1024 squeezes_S1x1x1024_S1x1024

/-- Slot `j` as the kernel's loads and stores address it. -/
abbrev slotA (j : Dev nD) : View sig .tc .vmem S1x1x1024 .f32 := (rM : Memref sig .tc .vmem S8x1x1024 .f32).access (slotRect j)

/-- The elements of the exchange buffer that make up slot `j`. -/
def slotSet (j : Dev nD) : Finset ((cc0_scratch0 : Ref sig .tc).ty.Idx) := (slotA j).set

/-- The runtime's barrier semaphore (not scoped), and the kernel's send and receive DMA semaphores (scoped scratch). -/
abbrev barS : Sem sig := (SemArray.scalar (sig.barrier 0 rfl) : Sems sig S_).sem
abbrev sendSem (k : Fin 7) : DmaSem sig :=
  ((cc0_scratch1.slice (Rect.unit (s := S7) ![k.val] S1.size (send_inb k))).squeeze S_ squeezes_S1_S_ : DmaSems sig S_).sem
abbrev recvSem (j : Dev nD) : DmaSem sig :=
  ((cc0_scratch2.slice (Rect.unit (s := S8) ![j.val] S1.size (recv_inb j))).squeeze S_ squeezes_S1_S_ : DmaSems sig S_).sem

/-- The kinds of a device's protocol cells: its barrier cell, send cell `k`, receive cell `j`. -/
abbrev CK : Type := Unit ⊕ Fin 7 ⊕ Dev nD

abbrev csem : CK → SemLoc sig
  | .inl _ => .reg barS
  | .inr (.inl k) => .dma (sendSem k)
  | .inr (.inr j) => .dma (recvSem j)

abbrev kcell (ck : Dev nD × CK) : GSem nD τ sig := ((ck.1 : Thread nD τ), csem ck.2)
abbrev barCell (c : Dev nD) : GSem nD τ sig := ((c : Thread nD τ), .reg barS)
abbrev sendCell (c : Dev nD) (k : Fin 7) : GSem nD τ sig := ((c : Thread nD τ), .dma (sendSem k))
abbrev recvCell (c : Dev nD) (j : Dev nD) : GSem nD τ sig := ((c : Thread nD τ), .dma (recvSem j))

theorem csem_injective : Function.Injective csem := by decide

/-- Which protocol cell a semaphore is, if any. -/
def kind? (s : SemLoc sig) : Option CK := if h : ∃ x, csem x = s then some h.choose else none

theorem kind?_csem (x : CK) : kind? (csem x) = some x := by
  unfold kind?
  have h : ∃ y, csem y = csem x := ⟨x, rfl⟩
  rw [dif_pos h]
  exact congrArg some (csem_injective h.choose_spec)

/-- The kernel's OWN (scoped) semaphores, as the launch indexes them: the seven send cells, then the eight receive cells. -/
abbrev osem : Fin 15 → SemLoc sig := fun i =>
  if h : i.val < 7 then .dma (sendSem ⟨i.val, h⟩) else .dma (recvSem ⟨i.val - 7, by have := i.isLt; show i.val - 7 < 8; omega⟩)

/-- The credit of one copy of one row. -/
abbrev N : ℕ := (slotM (0 : Dev nD) : Memref sig .tc .vmem S1x1024 .f32).view.dmaCredit
theorem N_pos : 0 < N := View.dmaCredit_pos _ (by decide)

/-! ## Contents and shares -/

/-- The canonical contents of the exchange buffer whose slot `p` holds device `p`'s row (elsewhere: the launch memory). -/
def rowBuf (p : Dev nD) : (cc0_scratch0 : Ref sig .tc).ty.Contents (Elt F) :=
  (slotA p).write (Elt F) (m ((p : Thread nD τ).loc cc0_scratch0)) (row m p) Finset.univ

/-- The share of its own slot a device still holds after `n` of its copies have been started: halved each time. -/
def shAfter : ℕ → PosShare TreeShare
  | 0 => fullShare
  | n + 1 => (shAfter n).right
/-- The share copy `k` reads its source at. -/
def sendShare (k : Fin 7) : PosShare TreeShare := (shAfter k.val).left

/-- Elements `S` of device `c`'s exchange buffer at share `q` and contents `f`. -/
def scrPts (c : Dev nD) (S : Finset ((cc0_scratch0 : Ref sig .tc).ty.Idx)) (q : PosShare TreeShare)
    (f : (cc0_scratch0 : Ref sig .tc).ty.Contents (Elt F)) : sProp 𝕄 :=
  ((c : Thread nD τ).loc cc0_scratch0) ↦[S]{q} f

omit [FloatOps F] in
instance scrPts_storable (c : Dev nD) (S) (q) (f) : BI.Storable (upEmb : UEmb _ 𝕄) (scrPts (F := F) c S q f) := by unfold scrPts; infer_instance

/-! ## The schedule -/

/-- What the signal of `q = rpeer p k` hands `p`: `q`'s slot `p`, and that `q`'s receive cell `p` has reached round 0. -/
def barPay (p : Dev nD) (k : Fin 7) : sProp 𝕄 :=
  iprop((∃ f, scrPts (rpeer p k) (slotSet p) fullShare f) ∗ reached ER (recvCell (rpeer p k) p) 0)
/-- What the landing of `j`'s copy hands `c`: its slot `j` holding `j`'s row. -/
def recvPay (c j : Dev nD) : sProp 𝕄 := scrPts c (slotSet j) fullShare (rowBuf m j)
/-- What the end of `c`'s copy `k` hands back: the share of its own slot the copy read. -/
def sendPay (c : Dev nD) (k : Fin 7) : sProp 𝕄 := scrPts c (slotSet c) (sendShare k) (rowBuf m c)

/-- One round, round 0. -/
def sched : Rounds.Schedule (GSem nD τ sig) (Fin 7) 𝕄 where
  duties g r := if r = 0 then (match kind? g.2 with
    | some (.inl _) => Finset.univ
    | some (.inr (.inl _)) => {0}
    | some (.inr (.inr j)) => if j = g.1.1 then ∅ else {0}
    | none => ∅) else ∅
  unitless _ := False
  amount g _ _ := match kind? g.2 with
    | some (.inl _) => 1
    | _ => N
  payload g _ d := match kind? g.2 with
    | some (.inl _) => barPay g.1.1 d
    | some (.inr (.inl k)) => sendPay m g.1.1 k
    | some (.inr (.inr j)) => recvPay m g.1.1 j
    | none => iprop(emp)
  amount_pos g _ _ _ := by
    cases kind? g.2 with
    | none => exact N_pos
    | some x => rcases x with _ | _ | _ <;> first | exact Nat.one_pos | exact N_pos

instance sched_payload_storable (g : GSem nD τ sig) (r : ℕ) (d : Fin 7) :
    BI.Storable (upEmb : UEmb _ 𝕄) ((sched (F := F) m).payload g r d) := by
  show BI.Storable upEmb (match kind? g.2 with
    | some (.inl _) => barPay g.1.1 d
    | some (.inr (.inl k)) => sendPay m g.1.1 k
    | some (.inr (.inr j)) => recvPay m g.1.1 j
    | none => iprop(emp))
  unfold barPay sendPay recvPay
  (repeat' split) <;> infer_instance

/-! ## What each device owes at launch; the levels -/

/-- The credit device `c` owes peer `k`'s receive cell `c`, and the unit it owes peer `k`'s barrier cell. -/
def rT (c : Dev nD) (k : Fin 7) : CellTallies nD τ sig Unit := tallyAt (recvCell (peer c k) c) () N
def bT (c : Dev nD) (k : Fin 7) : CellTallies nD τ sig Unit := tallyAt (barCell (peer c k)) () 1

/-- The copies' credits still owed when the last `j` copies are yet to start (copy 0 is peeled first). -/
def ORr (c : Dev nD) : ℕ → CellTallies nD τ sig Unit
  | 0 => 0
  | j + 1 => ORr c j + rT c ⟨6 - j, by omega⟩
/-- All the copies' credits, and the barrier units still owed when the last `j` signals are yet to be sent. -/
def OBr (c : Dev nD) : ℕ → CellTallies nD τ sig Unit
  | 0 => ORr c 7
  | j + 1 => OBr c j + bT c ⟨6 - j, by omega⟩
/-- Everything device `c` owes at launch. -/
def O₀ (c : Dev nD) : CellTallies nD τ sig Unit := OBr c 7

def L (g : GSem nD τ sig) : Finset Unit := if g.1.2 = .tc then {()} else ∅
/-- Barrier cells at 1, receive cells at 2, everything else (staging, send) at 0. -/
def lv (g : GSem nD τ sig) (_ : Unit) : ℕ := match kind? g.2 with
  | some (.inl _) => 1
  | some (.inr (.inr _)) => 2
  | _ => 0

/-! ## The ghost state and the pipeline's proof data -/

/-- All the cells' invariants, under the names `K` the launch allocated them at, and round 0 reached at every cell. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays: per peer its barrier duty and its receive duty, and its own send duty. -/
def payToks (c : Dev nD) : sProp 𝕄 :=
  bigSep Finset.univ fun k : Fin 7 =>
    iprop(dutyTok ER (barCell (peer c k)) 0 k ∗ dutyTok ER (recvCell (peer c k) c) 0 0 ∗ dutyTok ER (sendCell c k) 0 0)
/-- What stays with device `c`: its positions at round 0 of its sixteen cells, and the tokens it pays with. -/
def linear (c : Dev nD) : sProp 𝕄 :=
  iprop((bigSep Finset.univ fun x : CK => atPos ER (kcell (c, x)) 0 ∅ 0) ∗ payToks c)

def ghost (K : Dev nD × CK → ℕ) (c : Dev nD) : sProp 𝕄 := iprop(records m K ∗ linear c)

/-- The credit dealt to device `c` at launch: its barrier's seven units and each peer's copy's credit. -/
def creds (c : Dev nD) : sProp 𝕄 :=
  iprop(cred (tallyAt (barCell c) () 7) ∗ bigSep Finset.univ fun k : Fin 7 => cred (tallyAt (recvCell c (peer c k)) () N))

def start (c : Dev nD) : sProp 𝕄 := iprop((∃ K, ghost m K c) ∗ creds c ∗ levAts L lv)

/-- The exchange buffer whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the exchange buffer whole again and the fifteen own cells at zero, closed (the barrier cell is the runtime's). -/
def Φ₁ (c : Dev nD) : sProp 𝕄 := iprop(scrAny c ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.Tables.lean ====
/-
  The schedule's tables at the cells of the protocol: which duties round 0 of each cell has, what each is worth,
  what it hands over, and what a wait for a whole round brings.
-/
import proofs.«900918_g7700000000000919_dist_max_ax0_shard0_i_m2048_n1024_v7x_i8_bf16_1_alg».proof.Proof.Protocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c p : Dev nD) (k : Fin 7) (j : Dev nD) (d : Fin 7)

theorem kind_bar : kind? (SemLoc.reg barS : SemLoc sig) = some (.inl ()) := kind?_csem (.inl ())
theorem kind_send : kind? (SemLoc.dma (sendSem k) : SemLoc sig) = some (.inr (.inl k)) := kind?_csem (.inr (.inl k))
theorem kind_recv : kind? (SemLoc.dma (recvSem j) : SemLoc sig) = some (.inr (.inr j)) := kind?_csem (.inr (.inr j))

theorem duties_bar : (sched (F := F) m).duties (barCell c) 0 = Finset.univ := by
  dsimp only [sched]; rw [if_pos rfl, kind_bar]
theorem duties_send : (sched (F := F) m).duties (sendCell c k) 0 = {0} := by
  dsimp only [sched]; rw [if_pos rfl, kind_send]
theorem duties_recv (h : j ≠ c) : (sched (F := F) m).duties (recvCell c j) 0 = {0} := by
  dsimp only [sched]; rw [if_pos rfl, kind_recv]; exact if_neg h
theorem duties_recv_self : (sched (F := F) m).duties (recvCell c c) 0 = ∅ := by
  dsimp only [sched]; rw [if_pos rfl, kind_recv]; exact if_pos rfl
theorem duties_later (g : GSem nD τ sig) : ∀ r, 1 ≤ r → (sched (F := F) m).duties g r = ∅ :=
  fun r hr => by dsimp only [sched]; rw [if_neg (by omega)]

theorem amount_bar : (sched (F := F) m).amount (barCell c) 0 d = 1 := by dsimp only [sched]; rw [kind_bar]
theorem amount_send : (sched (F := F) m).amount (sendCell c k) 0 d = N := by dsimp only [sched]; rw [kind_send]
theorem amount_recv : (sched (F := F) m).amount (recvCell c j) 0 d = N := by dsimp only [sched]; rw [kind_recv]

theorem payload_bar : (sched (F := F) m).payload (barCell c) 0 d = barPay c d := by dsimp only [sched]; rw [kind_bar]
theorem payload_send : (sched (F := F) m).payload (sendCell c k) 0 d = sendPay m c k := by dsimp only [sched]; rw [kind_send]
theorem payload_recv : (sched (F := F) m).payload (recvCell c j) 0 d = recvPay m c j := by dsimp only [sched]; rw [kind_recv]

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv (h : j ≠ c) : (sched (F := F) m).expect (recvCell c j) 0 = N := by
  unfold Schedule.expect Schedule.amountOf; rw [duties_recv m c j h, Finset.sum_singleton, amount_recv]

/-- A wait for the whole of the barrier cell's round brings all seven peers' payloads. -/
theorem rest_bar : bigSep ((sched (F := F) m).duties (barCell c) 0 \ ∅) (fun d => (sched (F := F) m).payload (barCell c) 0 d)
    = bigSep Finset.univ fun d : Fin 7 => barPay (F := F) c d := by
  rw [Finset.sdiff_empty, duties_bar]; exact bigSep_congr fun d _ => payload_bar m c d
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv (h : j ≠ c) : bigSep ((sched (F := F) m).duties (recvCell c j) 0 \ ∅) (fun d => (sched (F := F) m).payload (recvCell c j) 0 d) = recvPay m c j := by
  rw [Finset.sdiff_empty, duties_recv m c j h, bigSep_singleton, payload_recv]

end Tables

end Cert.KernelIdealProof

end
-- ==== Proof.Mesh.lean ====
/-
  The ring of eight in closed form: the device each signal and each copy of the kernel addresses is the `k`-th peer
  `(c + k + 1) mod 8` of the device `c` that runs it, and the slot and the receive semaphore each wait and load names
  is that peer's. Decided over the eight devices.
-/
import proofs.«900918_g7700000000000919_dist_max_ax0_shard0_i_m2048_n1024_v7x_i8_bf16_1_alg».proof.Proof.Contents

set_option Elab.async false

namespace Cert.KernelIdealProof

open Cert.KernelIdeal Cert.KernelIdeal.Gen
open Idealize.ShloMosaic Idealize.SL.Sem

theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 0 := by decide +kernel
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel
theorem off4_1_eq : ∀ c : Dev nD, k0_off4 c 1#32 = ![(peer c 0).val] := by decide +kernel
theorem off5_1_eq : ∀ c : Dev nD, k0_off5 c 1#32 = ![(peer c 0).val, 0, 0] := by decide +kernel
theorem off6_1_eq : ∀ c : Dev nD, k0_off6 c 1#32 = ![(peer c 0).val, 0, 0] := by decide +kernel
theorem off4_2_eq : ∀ c : Dev nD, k0_off4 c 2#32 = ![(peer c 1).val] := by decide +kernel
theorem off5_2_eq : ∀ c : Dev nD, k0_off5 c 2#32 = ![(peer c 1).val, 0, 0] := by decide +kernel
theorem off6_2_eq : ∀ c : Dev nD, k0_off6 c 2#32 = ![(peer c 1).val, 0, 0] := by decide +kernel
theorem off4_3_eq : ∀ c : Dev nD, k0_off4 c 3#32 = ![(peer c 2).val] := by decide +kernel
theorem off5_3_eq : ∀ c : Dev nD, k0_off5 c 3#32 = ![(peer c 2).val, 0, 0] := by decide +kernel
theorem off6_3_eq : ∀ c : Dev nD, k0_off6 c 3#32 = ![(peer c 2).val, 0, 0] := by decide +kernel
theorem off4_4_eq : ∀ c : Dev nD, k0_off4 c 4#32 = ![(peer c 3).val] := by decide +kernel
theorem off5_4_eq : ∀ c : Dev nD, k0_off5 c 4#32 = ![(peer c 3).val, 0, 0] := by decide +kernel
theorem off6_4_eq : ∀ c : Dev nD, k0_off6 c 4#32 = ![(peer c 3).val, 0, 0] := by decide +kernel
theorem off4_5_eq : ∀ c : Dev nD, k0_off4 c 5#32 = ![(peer c 4).val] := by decide +kernel
theorem off5_5_eq : ∀ c : Dev nD, k0_off5 c 5#32 = ![(peer c 4).val, 0, 0] := by decide +kernel
theorem off6_5_eq : ∀ c : Dev nD, k0_off6 c 5#32 = ![(peer c 4).val, 0, 0] := by decide +kernel
theorem off4_6_eq : ∀ c : Dev nD, k0_off4 c 6#32 = ![(peer c 5).val] := by decide +kernel
theorem off5_6_eq : ∀ c : Dev nD, k0_off5 c 6#32 = ![(peer c 5).val, 0, 0] := by decide +kernel
theorem off6_6_eq : ∀ c : Dev nD, k0_off6 c 6#32 = ![(peer c 5).val, 0, 0] := by decide +kernel
theorem off4_7_eq : ∀ c : Dev nD, k0_off4 c 7#32 = ![(peer c 6).val] := by decide +kernel
theorem off5_7_eq : ∀ c : Dev nD, k0_off5 c 7#32 = ![(peer c 6).val, 0, 0] := by decide +kernel
theorem off6_7_eq : ∀ c : Dev nD, k0_off6 c 7#32 = ![(peer c 6).val, 0, 0] := by decide +kernel

end Cert.KernelIdealProof
-- ==== Proof.Slots.lean ====
/-
  The slot algebra of the exchange buffer.

  The exchange buffer is an 8 x 1 x 1024 array; slot j is its row j. Here: the three ways the kernel addresses a slot
  (the rectangle of a load, the view of a store, the squeezed row of a copy) cover the same 1024 elements; the eight
  slots are pairwise disjoint and together are the whole buffer, so a points-to of the buffer splits into the eight
  slots' and eight slots' points-tos join into the buffer's; a store of a device's row, or the landing of a copy of
  it, leaves the slot at the canonical contents; a load of the slot reads the row back; and the share of its own slot
  a device holds halves with every copy it starts.
-/
import proofs.«900918_g7700000000000919_dist_max_ax0_shard0_i_m2048_n1024_v7x_i8_bf16_1_alg».proof.Proof.Protocol
import Idealize.ShloMosaic.Rules.PointsTo
import Idealize.ShloMosaic.Signature.View
import Idealize.ShloMosaic.Signature.Memref
import Idealize.ShloMosaic.Shape

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Regions -/

/-- The squeezed row of a copy covers the slot's elements: a reshape keeps the element set. -/
theorem slotM_set (j : Dev nD) : (slotM j : Memref sig .tc .vmem S1x1024 .f32).view.set = slotSet j := by
  unfold slotSet
  exact View.set_reshape _ _

/-- An unmasked store through the slot's view touches exactly the slot. -/
theorem slotA_setOn_univ (j : Dev nD) : (slotA j).setOn Finset.univ = slotSet j := rfl

/-- The slot as a set of indices of the buffer: the rectangle's element set. -/
theorem slotSet_eq (j : Dev nD) : slotSet j = (slotRect j).set := by
  unfold slotSet
  exact View.set_slice_whole _ _

/-- A load at the slot's rectangle reads inside the slot. -/
theorem load_sub (j : Dev nD) :
    (rM : Memref sig .tc .vmem S8x1x1024 .f32).view.setOn (slotRect j).toLoadRect.set ⊆ slotSet j := by
  unfold slotSet
  rw [View.set_slice]
  exact Finset.Subset.refl _

/-- Different slots are different rows: their rectangles are separated on the first axis. -/
theorem slotSet_disjoint {j j' : Dev nD} (h : j ≠ j') : Disjoint (slotSet j) (slotSet j') := by
  rw [slotSet_eq, slotSet_eq]
  refine Rect.unit_disjoint (0 : Fin 3) ?_
  have hv : j.val ≠ j'.val := fun e => h (Fin.ext e)
  show j.val + 1 ≤ j'.val ∨ j'.val + 1 ≤ j.val
  omega

/-- Every element of the buffer lies in the slot of its row. -/
theorem slotSet_cover : (Finset.univ : Finset (Dev nD)).biUnion slotSet = Finset.univ := by
  ext i
  simp only [Finset.mem_biUnion, Finset.mem_univ, true_and, iff_true]
  have h0 : (i 0).val < 8 := (i 0).isLt
  refine ⟨(⟨(i 0).val, h0⟩ : Dev nD), ?_⟩
  rw [slotSet_eq, Rect.mem_set_unit]
  intro a
  have ha : (i a).val < S8x1x1024.size a := (i a).isLt
  fin_cases a
  · exact ⟨le_rfl, Nat.lt_succ_self _⟩
  · exact ⟨Nat.zero_le _, by simpa using ha⟩
  · exact ⟨Nat.zero_le _, by simpa using ha⟩

/-! ## The buffer as its eight slots -/

/-- The whole buffer splits into its eight slots, at one contents. -/
theorem scr_split (c : Dev nD) (f : (cc0_scratch0 : Ref sig .tc).ty.Contents (Elt F)) :
    (((c : Thread nD τ).loc cc0_scratch0) ↦{fullShare} f : sProp 𝕄)
      ⊢ bigSep Finset.univ fun j : Dev nD => scrPts c (slotSet j) fullShare f := by
  unfold scrPts
  refine Entails.of_eq ((congrArg (fun S => (((c : Thread nD τ).loc cc0_scratch0) ↦[S]{fullShare} f : sProp 𝕄))
    slotSet_cover.symm).trans ?_)
  exact pointsTo_biUnion (ℓ := (c : Thread nD τ).loc cc0_scratch0) (q := fullShare) (f := f)
    Finset.univ slotSet fun j _ j' _ h => slotSet_disjoint h

/-- Eight slots held at eight contents join into the whole buffer, at some contents. -/
theorem scr_join (c : Dev nD) (fs : Dev nD → (cc0_scratch0 : Ref sig .tc).ty.Contents (Elt F)) :
    (bigSep Finset.univ fun j : Dev nD => scrPts c (slotSet j) fullShare (fs j) : sProp 𝕄) ⊢ scrAny c := by
  unfold scrPts scrAny
  have h := pointsTo_biUnion_join (Ix := Unit) (Val := Elt F) (Name := ℕ) (U := UU) (Lvl := ℕ)
    (ℓ := (c : Thread nD τ).loc cc0_scratch0) (q := fullShare)
    Finset.univ slotSet fs (fs 0) fun j _ j' _ h => slotSet_disjoint h
  iintro H
  ihave H := h $$ H
  icases H with ⟨%g, %hg, H⟩
  iexists g
  iapply (Entails.of_eq (congrArg (fun S => (((c : Thread nD τ).loc cc0_scratch0) ↦[S]{fullShare} g : sProp 𝕄))
    slotSet_cover))
  iexact H

/-! ## Contents -/

/-- A store of a device's row through its slot's view leaves the slot at the canonical contents, whatever was there. -/
theorem store_row (c c' : Dev nD) (q : PosShare TreeShare) (f : (cc0_scratch0 : Ref sig .tc).ty.Contents (Elt F)) :
    scrPts (F := F) c' (slotSet c) q ((slotA c).write (Elt F) f (row m c) Finset.univ)
      = scrPts c' (slotSet c) q (rowBuf m c) := by
  unfold scrPts rowBuf
  refine pointsTo_congr fun i hi => ?_
  have h := congrFun (View.write_eq_piecewise (v := slotA c) (Val := Elt F) f
    (m ((c : Thread nD τ).loc cc0_scratch0)) (row m c) Finset.univ) i
  exact h.trans (Finset.piecewise_eq_of_mem _ _ _ hi)

/-- The landing of a copy of the canonical contents' slot: the slot holds the canonical contents. -/
theorem land_row (c' j : Dev nD) (fd : (cc0_scratch0 : Ref sig .tc).ty.Contents (Elt F)) :
    scrPts (F := F) c' (slotSet j) fullShare
        ((slotM j : Memref sig .tc .vmem S1x1024 .f32).view.write (Elt F) fd
          ((slotM j : Memref sig .tc .vmem S1x1024 .f32).view.read (Elt F) (rowBuf m j)) Finset.univ)
      = scrPts c' (slotSet j) fullShare (rowBuf m j) := by
  unfold scrPts
  refine pointsTo_congr fun i hi => ?_
  rw [View.write_read_eq_piecewise]
  refine Finset.piecewise_eq_of_mem _ _ _ ?_
  rw [View.setOn_univ, slotM_set]
  exact hi

/-- A load of slot p off the canonical contents reads device p's row. -/
theorem read_row (p : Dev nD) :
    (rM : Memref sig .tc .vmem S8x1x1024 .f32).view.readAt (Elt F) (slotRect p).toLoadRect (rowBuf m p) = row m p := by
  unfold rowBuf
  exact View.read_write_univ (v := slotA p) _ _

/-! ## Shares -/

/-- Starting copy n halves the share still held: one half goes with the copy, the other stays. -/
theorem share_split (c : Dev nD) (S : Finset ((cc0_scratch0 : Ref sig .tc).ty.Idx))
    (f : (cc0_scratch0 : Ref sig .tc).ty.Contents (Elt F)) (n : ℕ) (hn : n < 7) :
    (scrPts (F := F) c S (shAfter n) f : sProp 𝕄)
      ⊣⊢ iprop(scrPts c S (sendShare ⟨n, hn⟩) f ∗ scrPts c S (shAfter (n + 1)) f) := by
  unfold scrPts sendShare
  exact pointsTo_share (PosShare.mem_left_op_right (shAfter n))

end Cert.KernelIdealProof

end
-- ==== Proof.Steps.lean ====
/-
  The steps of one device's body under the protocol, each a rule of the rounds discipline at this kernel's cells and
  slots, generic in the peer offset: the signal to a peer's barrier cell, the copy of the own row into a peer's slot,
  the wait for a peer's row, the wait for a copy's read to end.
-/
import proofs.«900918_g7700000000000919_dist_max_ax0_shard0_i_m2048_n1024_v7x_i8_bf16_1_alg».proof.Proof.Tables
import proofs.«900918_g7700000000000919_dist_max_ax0_shard0_i_m2048_n1024_v7x_i8_bf16_1_alg».proof.Proof.Mesh
import proofs.«900918_g7700000000000919_dist_max_ax0_shard0_i_m2048_n1024_v7x_i8_bf16_1_alg».proof.Proof.Slots

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_at (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

/-! ## The steps of one device's body, each generic in the peer offset -/

/-- The signal to peer `k`'s barrier cell: device `c` pays duty `k` of it, handing over its slot `peer c k` and that
    its receive cell `peer c k` has reached round 0. -/
theorem sig_step (K : Dev nD × CK → ℕ) (c : Dev nD) (k : Fin 7) (O O' : CellTallies nD τ sig Unit) (hO : O' = O + bT c k)
    (W : Waits sig Unit) (f : (cc0_scratch0 : Ref sig .tc).ty.Contents (Elt F))
    {α : Type} {Q : α → sProp 𝕄} {kont : PUnit → Prog (TpuEff nD τ sig (Elt F) Λ₀ .tc) α} :
    iprop(records m K ∗ owes (c : Thread nD τ) O' W ∗ dutyTok ER (barCell (peer c k)) 0 k ∗ scrPts c (slotSet (peer c k)) fullShare f)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (peer c k : Thread nD τ) barS (1#32).toNat) kont) Q) := by
  subst hO
  unfold records
  iintro ⟨⟨#HI, #HR⟩, HO, Htok, Hslot⟩
  iapply (Rounds.wp_signal 𝒱₀ ER (sched m) (c : Thread nD τ) none (dst := (peer c k : Thread nD τ)) (κ := K (peer c k, .inl ()))
      (d := k) (by rw [duties_bar]; exact Finset.mem_univ _) ((amount_bar m (peer c k) k).trans (by decide)) () O rfl)
    $$ [HO Htok Hslot]
  · isplitr; · iapply (inv_at m K (peer c k, .inl ())); iexact HI
    isplitl [HO]; · iexact HO
    isplitl [Htok]; · iexact Htok
    isplitl [Hslot]
    · rw [payload_bar]; unfold barPay; rw [rpeer_peer]
      isplitl [Hslot]; · iexists f; iexact Hslot
      iapply (reached_at (F := F) (c, .inr (.inr (peer c k)))); iexact HR
    · iapply (reached_at (F := F) (peer c k, .inl ())); iexact HR

theorem scrPts_slotM (c j : Dev nD) (q : PosShare TreeShare) (f : (cc0_scratch0 : Ref sig .tc).ty.Contents (Elt F)) :
    scrPts (F := F) c (slotSet j) q f
      = (((slotM j : Memref sig .tc .vmem S1x1024 .f32).view.loc (c : Thread nD τ)) ↦[(slotM j : Memref sig .tc .vmem S1x1024 .f32).view.set]{q} f : sProp 𝕄) := by
  unfold scrPts; rw [slotM_set]

/-- Copy `k`: device `c` sends its row — its own slot, read at the share `sendShare k` — into slot `c` of its `k`-th peer,
    which that peer handed over at the barrier; the landing credits the peer's receive cell `c`, the end of the read
    `c`'s send cell `k`. -/
theorem send_step (K : Dev nD × CK → ℕ) (c : Dev nD) (k : Fin 7) (O O' : CellTallies nD τ sig Unit) (hO : O' = O + rT c k)
    (W : Waits sig Unit) (fn : (cc0_scratch0 : Ref sig .tc).ty.Contents (Elt F))
    {hsc : (slotM c : Memref sig (Dev.tc (peer c k) : Thread nD τ).2.kind .vmem S1x1024 .f32).view.ref.isScScratch = false}
    {hsrc : (slotM c : Memref sig .tc .vmem S1x1024 .f32).view.WordExact} {hdst : (slotM c : Memref sig .tc .vmem S1x1024 .f32).view.WordExact}
    {hsem : DmaTarget.Typed .vmem (.dma (recvSem c)) (.remote (Dev.tc (peer c k) : Thread nD τ) (slotM c : Memref sig .tc .vmem S1x1024 .f32) (.dma (sendSem k)) hsc)}
    {α : Type} {Q : α → sProp 𝕄} {kont : PUnit → Prog (TpuEff nD τ sig (Elt F) Λ₀ .tc) α} :
    iprop(records m K ∗ scrPts c (slotSet c) (sendShare k) (rowBuf m c) ∗ scrPts (peer c k) (slotSet c) fullShare fn
        ∗ owes (c : Thread nD τ) O' W ∗ dutyTok ER (sendCell c k) 0 0 ∗ dutyTok ER (recvCell (peer c k) c) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM c) (.remote (Dev.tc (peer c k) : Thread nD τ) (slotM c) (.dma (sendSem k)) hsc) (.dma (recvSem c)) hsrc hdst hsem) kont) Q) := by
  subst hO
  unfold records
  iintro ⟨⟨#HI, #HR⟩, Hsrc, Hdst, HO, Hts, Htr⟩
  ihave Hsrc' := (Entails.of_eq (scrPts_slotM c c (sendShare k) (rowBuf m c))) $$ Hsrc
  ihave Hdst' := (Entails.of_eq (scrPts_slotM (peer c k) c fullShare fn)) $$ Hdst
  iapply (Rounds.wp_send_pointsTo 𝒱₀ ER (sched m) (c : Thread nD τ) none (c' := (Dev.tc (peer c k) : Thread nD τ))
      (src := (slotM c : Memref sig .tc .vmem S1x1024 .f32)) (dst := (slotM c : Memref sig .tc .vmem S1x1024 .f32))
      (sS := .dma (sendSem k)) (sem := .dma (recvSem c)) (κ₁ := K (c, .inr (.inl k))) (κ₂ := K (peer c k, .inr (.inr c)))
      (r₁ := 0) (r₂ := 0) (d₁ := 0) (d₂ := 0) (q := sendShare k) (fs := rowBuf m c) (fd := fn)
      (by rw [duties_send]; exact Finset.mem_singleton_self _)
      (by rw [duties_recv m (peer c k) c (peer_ne c k).symm]; exact Finset.mem_singleton_self _)
      () () N rfl (amount_send m c k 0) (amount_recv m (peer c k) c 0) O rfl (W := W)
      (by rw [payload_send]; unfold sendPay; rw [scrPts_slotM])
      (by rw [payload_recv]; unfold recvPay; rw [← land_row m (peer c k) c fn, scrPts_slotM]))
    $$ [Hsrc' Hdst' HO Hts Htr]
  · isplitr; · iapply (inv_at m K (c, .inr (.inl k))); iexact HI
    isplitr; · iapply (inv_at m K (peer c k, .inr (.inr c))); iexact HI
    isplitl [Hsrc']; · iexact Hsrc'
    isplitl [Hdst']; · iexact Hdst'
    isplitl [HO]; · iexact HO
    isplitl [Hts]; · iexact Hts
    isplitr; · iapply (reached_at (F := F) (c, .inr (.inl k))); iexact HR
    isplitl [Htr]; · iexact Htr
    iapply (reached_at (F := F) (peer c k, .inr (.inr c))); iexact HR

/-- The wait on receive cell `peer c k`, owing nothing: slot `peer c k` comes back holding that peer's row, and the
    cell, its one round over, is closed at zero. -/
theorem recv_wait_step (K : Dev nD × CK → ℕ) (c : Dev nD) (k : Fin 7) (W : Waits sig Unit)
    {hs : (slotM (peer c k) : Memref sig .tc .vmem S1x1024 .f32).view.WordExact} {hd : (slotM (peer c k) : Memref sig .tc .vmem S1x1024 .f32).view.WordExact}
    {α : Type} {Q : α → sProp 𝕄} {kont : PUnit → Prog (TpuEff nD τ sig (Elt F) Λ₀ .tc) α} :
    iprop(records m K ∗ cred (tallyAt (recvCell c (peer c k)) () N) ∗ owes (c : Thread nD τ) 0 W ∗ atPos ER (recvCell c (peer c k)) 0 ∅ 0)
      ⊢ iprop(((owes (c : Thread nD τ) 0 (insert (SemLoc.dma (recvSem (peer c k)), ()) W) ∗ semVal (recvCell c (peer c k)) 0
              ∗ scrPts c (slotSet (peer c k)) fullShare (rowBuf m (peer c k)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem (peer c k)) (slotM (peer c k)) (slotM (peer c k)) hs hd) kont) Q) := by
  unfold records
  iintro ⟨⟨#HI, #HR⟩, Hc, HO, Hat⟩ Hk
  ihave #HIc := (inv_at m K (c, .inr (.inr (peer c k)))) $$ HI
  iapply (Rounds.wp_wait_rest_token 𝒱₀ ER (sched m) (c : Thread nD τ) none (κ := K (c, .inr (.inr (peer c k))))
      (wpE_waitDma2_eq 𝒱₀ (c : Thread nD τ) none Set.univ) (Set.mem_univ _) () (O := 0) (W := W) (R := 0) (m := 0) (T := ∅)
      (by rw [Nat.zero_add, expect_recv m c (peer c k) (peer_ne c k)])) $$ [Hc HO Hat]
  · isplitr; · iexact HIc
    isplitl [Hc]; · iexact Hc
    isplitl [HO]; · iexact HO
    isplitr; · rw [MayWait_zero]; iempintro
    iexact Hat
  iintro ⟨HO, Hat, -, Hpay⟩
  ihave Hslot := (Entails.of_eq (rest_recv m c (peer c k) (peer_ne c k))) $$ Hpay
  imod (Rounds.cell_close ER (sched m) (Set.mem_univ (K (c, .inr (.inr (peer c k))))) (fun h => h) (R := 0 + 1) (duties_later m (recvCell c (peer c k)))) $$ [Hat] with Hz
  · isplitr; · iexact HIc
    iexact Hat
  iapply Hk
  isplitl [HO]; · iexact HO
  isplitl [Hz]; · iexact Hz
  unfold recvPay; iexact Hslot

/-- The wait on send cell `k`, owing nothing: the share of its own slot copy `k` read comes back, and the cell is closed at zero. -/
theorem send_wait_step (K : Dev nD × CK → ℕ) (c : Dev nD) (k : Fin 7) (W : Waits sig Unit)
    {hs : (slotM c : Memref sig .tc .vmem S1x1024 .f32).view.WordExact} {hd : (slotM c : Memref sig .tc .vmem S1x1024 .f32).view.WordExact}
    {α : Type} {Q : α → sProp 𝕄} {kont : PUnit → Prog (TpuEff nD τ sig (Elt F) Λ₀ .tc) α} :
    iprop(records m K ∗ cred (tallyAt (sendCell c k) () N) ∗ owes (c : Thread nD τ) 0 W ∗ atPos ER (sendCell c k) 0 ∅ 0)
      ⊢ iprop(((owes (c : Thread nD τ) 0 (insert (SemLoc.dma (sendSem k), ()) W) ∗ semVal (sendCell c k) 0
              ∗ scrPts c (slotSet c) (sendShare k) (rowBuf m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem k) (slotM c) (slotM c) hs hd) kont) Q) := by
  unfold records
  iintro ⟨⟨#HI, #HR⟩, Hc, HO, Hat⟩ Hk
  ihave #HIc := (inv_at m K (c, .inr (.inl k))) $$ HI
  iapply (Rounds.wp_wait_rest_token 𝒱₀ ER (sched m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send m c k])) $$ [Hc HO Hat]
  · isplitr; · iexact HIc
    isplitl [Hc]; · iexact Hc
    isplitl [HO]; · iexact HO
    isplitr; · rw [MayWait_zero]; iempintro
    iexact Hat
  iintro ⟨HO, Hat, -, Hpay⟩
  ihave Hslot := (Entails.of_eq (rest_send m c k)) $$ Hpay
  imod (Rounds.cell_close ER (sched m) (Set.mem_univ (K (c, .inr (.inl k)))) (fun h => h) (R := 0 + 1) (duties_later m (sendCell c k))) $$ [Hat] with Hz
  · isplitr; · iexact HIc
    iexact Hat
  iapply Hk
  isplitl [HO]; · iexact HO
  isplitl [Hz]; · iexact Hz
  unfold sendPay; iexact Hslot

/-! ## The same steps as the printed program spells them

The printed program addresses a peer and a slot through its own integer chains (the device of a copy, the offsets of a
slice). Each step is restated over ANY device and offsets equal to the canonical ones, and is the canonical step after
substituting the equations: so that it applies to the program's text as it stands. -/

/-- Slot at offsets `off`, as a copy addresses it. -/
abbrev slotG (off : Fin 3 → Nat) (inb : ∀ a, off a + S1x1x1024.size a ≤ S8x1x1024.size a) : Memref sig .tc .vmem S1x1024 .f32 :=
  ((rM : Memref sig .tc .vmem S8x1x1024 .f32).slice (Rect.unit (s := S8x1x1024) off S1x1x1024.size inb) (fun _ => rfl)).squeeze S1x1024 squeezes_S1x1x1024_S1x1024
/-- Receive semaphore at offset `off`. -/
abbrev recvG (off : Fin 1 → Nat) (inb : ∀ a, off a + S1.size a ≤ S8.size a) : DmaSem sig :=
  ((cc0_scratch2.slice (Rect.unit (s := S8) off S1.size inb)).squeeze S_ squeezes_S1_S_ : DmaSems sig S_).sem

theorem load_sub' (j : Dev nD) (off : Fin 3 → Nat) (hoff : off = ![j.val, 0, 0]) (inb : ∀ a, off a + S1x1x1024.size a ≤ S8x1x1024.size a) :
    (rM : Memref sig .tc .vmem S8x1x1024 .f32).view.setOn (Rect.unit (s := S8x1x1024) off S1x1x1024.size inb).toLoadRect.set ⊆ slotSet j := by
  subst hoff; exact load_sub j
theorem store_sub' (j : Dev nD) (off : Fin 3 → Nat) (hoff : off = ![j.val, 0, 0]) (inb : ∀ a, off a + S1x1x1024.size a ≤ S8x1x1024.size a) :
    ((rM : Memref sig .tc .vmem S8x1x1024 .f32).access (Rect.unit (s := S8x1x1024) off S1x1x1024.size inb)).setOn Finset.univ ⊆ slotSet j := by
  subst hoff; exact (slotA_setOn_univ j).subset
theorem store_row' (c c' : Dev nD) (q : PosShare TreeShare) (f : (cc0_scratch0 : Ref sig .tc).ty.Contents (Elt F))
    (off : Fin 3 → Nat) (hoff : off = ![c.val, 0, 0]) (inb : ∀ a, off a + S1x1x1024.size a ≤ S8x1x1024.size a) :
    scrPts (F := F) c' (slotSet c) q (((rM : Memref sig .tc .vmem S8x1x1024 .f32).access (Rect.unit (s := S8x1x1024) off S1x1x1024.size inb)).write (Elt F) f (row m c) Finset.univ)
      = scrPts c' (slotSet c) q (rowBuf m c) := by
  subst hoff; exact store_row m c c' q f
theorem read_row' (p : Dev nD) (off : Fin 3 → Nat) (hoff : off = ![p.val, 0, 0]) (inb : ∀ a, off a + S1x1x1024.size a ≤ S8x1x1024.size a) :
    (rM : Memref sig .tc .vmem S8x1x1024 .f32).view.readAt (Elt F) (Rect.unit (s := S8x1x1024) off S1x1x1024.size inb).toLoadRect (rowBuf m p) = row m p := by
  subst hoff; exact read_row m p

theorem send_step' (K : Dev nD × CK → ℕ) (c : Dev nD) (k : Fin 7) (n : Dev nD) (hn : n = peer c k)
    (off : Fin 3 → Nat) (hoff : off = ![c.val, 0, 0]) (inb : ∀ a, off a + S1x1x1024.size a ≤ S8x1x1024.size a)
    (off2 : Fin 1 → Nat) (hoff2 : off2 = ![c.val]) (inb2 : ∀ a, off2 a + S1.size a ≤ S8.size a)
    (O O' : CellTallies nD τ sig Unit) (hO : O' = O + rT c k)
    (W : Waits sig Unit) (fn : (cc0_scratch0 : Ref sig .tc).ty.Contents (Elt F))
    {hsc : (slotG off inb : Memref sig (Dev.tc n : Thread nD τ).2.kind .vmem S1x1024 .f32).view.ref.isScScratch = false}
    {hsrc : (slotG off inb : Memref sig .tc .vmem S1x1024 .f32).view.WordExact} {hdst : (slotG off inb : Memref sig .tc .vmem S1x1024 .f32).view.WordExact}
    {hsem : DmaTarget.Typed .vmem (.dma (recvG off2 inb2)) (.remote (Dev.tc n : Thread nD τ) (slotG off inb : Memref sig .tc .vmem S1x1024 .f32) (.dma (sendSem k)) hsc)}
    {α : Type} {Q : α → sProp 𝕄} {kont : PUnit → Prog (TpuEff nD τ sig (Elt F) Λ₀ .tc) α} :
    iprop(records m K ∗ scrPts c (slotSet c) (sendShare k) (rowBuf m c) ∗ scrPts (peer c k) (slotSet c) fullShare fn
        ∗ owes (c : Thread nD τ) O' W ∗ dutyTok ER (sendCell c k) 0 0 ∗ dutyTok ER (recvCell (peer c k) c) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotG off inb) (.remote (Dev.tc n : Thread nD τ) (slotG off inb) (.dma (sendSem k)) hsc) (.dma (recvG off2 inb2)) hsrc hdst hsem) kont) Q) := by
  subst hn; subst hoff; subst hoff2
  exact send_step m K c k O O' hO W fn

theorem recv_wait_step' (K : Dev nD × CK → ℕ) (c : Dev nD) (k : Fin 7)
    (off : Fin 3 → Nat) (hoff : off = ![(peer c k).val, 0, 0]) (inb : ∀ a, off a + S1x1x1024.size a ≤ S8x1x1024.size a)
    (off2 : Fin 1 → Nat) (hoff2 : off2 = ![(peer c k).val]) (inb2 : ∀ a, off2 a + S1.size a ≤ S8.size a)
    (W : Waits sig Unit)
    {hs : (slotG off inb : Memref sig .tc .vmem S1x1024 .f32).view.WordExact} {hd : (slotG off inb : Memref sig .tc .vmem S1x1024 .f32).view.WordExact}
    {α : Type} {Q : α → sProp 𝕄} {kont : PUnit → Prog (TpuEff nD τ sig (Elt F) Λ₀ .tc) α} :
    iprop(records m K ∗ cred (tallyAt (recvCell c (peer c k)) () N) ∗ owes (c : Thread nD τ) 0 W ∗ atPos ER (recvCell c (peer c k)) 0 ∅ 0)
      ⊢ iprop(((owes (c : Thread nD τ) 0 (insert (SemLoc.dma (recvSem (peer c k)), ()) W) ∗ semVal (recvCell c (peer c k)) 0
              ∗ scrPts c (slotSet (peer c k)) fullShare (rowBuf m (peer c k)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvG off2 inb2) (slotG off inb) (slotG off inb) hs hd) kont) Q) := by
  subst hoff; subst hoff2
  exact recv_wait_step m K c k W

theorem send_wait_step' (K : Dev nD × CK → ℕ) (c : Dev nD) (k : Fin 7)
    (off : Fin 3 → Nat) (hoff : off = ![c.val, 0, 0]) (inb : ∀ a, off a + S1x1x1024.size a ≤ S8x1x1024.size a)
    (W : Waits sig Unit)
    {hs : (slotG off inb : Memref sig .tc .vmem S1x1024 .f32).view.WordExact} {hd : (slotG off inb : Memref sig .tc .vmem S1x1024 .f32).view.WordExact}
    {α : Type} {Q : α → sProp 𝕄} {kont : PUnit → Prog (TpuEff nD τ sig (Elt F) Λ₀ .tc) α} :
    iprop(records m K ∗ cred (tallyAt (sendCell c k) () N) ∗ owes (c : Thread nD τ) 0 W ∗ atPos ER (sendCell c k) 0 ∅ 0)
      ⊢ iprop(((owes (c : Thread nD τ) 0 (insert (SemLoc.dma (sendSem k), ()) W) ∗ semVal (sendCell c k) 0
              ∗ scrPts c (slotSet c) (sendShare k) (rowBuf m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem k) (slotG off inb) (slotG off inb) hs hd) kont) Q) := by
  subst hoff
  exact send_wait_step m K c k W

end Cert.KernelIdealProof

end
-- ==== Proof.Levels.lean ====
/-
  The levels of the eight-device column maximum: why no wait can be part of a cycle.

  A device's barrier cell sits at level 1, its receive cells at level 2, every other semaphore (the staging
  semaphores, the send cells) at level 0. What a device owes is only ever units at its peers' barrier cells and copy
  credits at its peers' receive cells. So a wait at level 0 is below everything owed; and at its barrier wait a
  device owes receive credits only, all at level 2, above the barrier cell's level 1.
-/
import proofs.«900918_g7700000000000919_dist_max_ax0_shard0_i_m2048_n1024_v7x_i8_bf16_1_alg».proof.Proof.Protocol

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cells carry a level, and the levels of the protocol's cells -/

theorem L_of_ne (g : GSem nD τ sig) (h : g.1.2 ≠ .tc) : L g = ∅ := if_neg h
theorem L_tc (c : Dev nD) (sm : SemLoc sig) : L ((c : Thread nD τ), sm) = {()} := if_pos rfl

/-- A semaphore that is no protocol cell has no kind. -/
theorem kind?_none (s : SemLoc sig) (h : ∀ x : CK, csem x ≠ s) : kind? s = none := by
  unfold kind?
  exact dif_neg fun ⟨x, hx⟩ => h x hx

theorem lv_of_bar (g : GSem nD τ sig) (u : Unit) (h : kind? g.2 = some (.inl ())) : lv g u = 1 := by
  unfold lv; rw [h]
theorem lv_of_recv (g : GSem nD τ sig) (u : Unit) (j : Dev nD) (h : kind? g.2 = some (.inr (.inr j))) : lv g u = 2 := by
  unfold lv; rw [h]
theorem lv_of_send (g : GSem nD τ sig) (u : Unit) (k : Fin 7) (h : kind? g.2 = some (.inr (.inl k))) : lv g u = 0 := by
  unfold lv; rw [h]

theorem lv_bar (p : Dev nD) (u : Unit) : lv (barCell p) u = 1 :=
  lv_of_bar (barCell p) u (kind?_csem (.inl ()))
theorem lv_recv (p j : Dev nD) (u : Unit) : lv (recvCell p j) u = 2 :=
  lv_of_recv (recvCell p j) u j (kind?_csem (.inr (.inr j)))
theorem lv_send (p : Dev nD) (k : Fin 7) (u : Unit) : lv (sendCell p k) u = 0 :=
  lv_of_send (sendCell p k) u k (kind?_csem (.inr (.inl k)))
theorem lv_none (g : GSem nD τ sig) (u : Unit) (h : kind? g.2 = none) : lv g u = 0 := by
  unfold lv; rw [h]

/-! ## Where a device owes -/

/-- The copies' credits are owed at receive cells of peers only. -/
theorem ORr_pos {c : Dev nD} {g : GSem nD τ sig} {u : Unit} :
    ∀ j : ℕ, 0 < ORr c j g u → ∃ k : Fin 7, g = recvCell (peer c k) c
  | 0, h => absurd h (Nat.lt_irrefl 0)
  | j + 1, h => by
    unfold ORr at h
    rw [Pi.add_apply, Finsupp.add_apply] at h
    rcases Nat.add_pos_iff_pos_or_pos.mp h with h | h
    · exact ORr_pos j h
    · unfold rT at h
      rw [tallyAt_apply] at h
      by_cases hh : g = recvCell (peer c ⟨6 - j, by omega⟩) c ∧ u = ()
      · exact ⟨_, hh.1⟩
      · rw [if_neg hh] at h; exact absurd h (Nat.lt_irrefl 0)

/-- Everything owed is owed at a peer's receive cell or at a peer's barrier cell. -/
theorem OBr_pos {c : Dev nD} {g : GSem nD τ sig} {u : Unit} :
    ∀ j : ℕ, 0 < OBr c j g u → ∃ k : Fin 7, g = recvCell (peer c k) c ∨ g = barCell (peer c k)
  | 0, h => by
    unfold OBr at h
    obtain ⟨k, hk⟩ := ORr_pos 7 h
    exact ⟨k, Or.inl hk⟩
  | j + 1, h => by
    unfold OBr at h
    rw [Pi.add_apply, Finsupp.add_apply] at h
    rcases Nat.add_pos_iff_pos_or_pos.mp h with h | h
    · exact OBr_pos j h
    · unfold bT at h
      rw [tallyAt_apply] at h
      by_cases hh : g = barCell (peer c ⟨6 - j, by omega⟩) ∧ u = ()
      · exact ⟨_, Or.inr hh.1⟩
      · rw [if_neg hh] at h; exact absurd h (Nat.lt_irrefl 0)

theorem ORr7_pos {c : Dev nD} {g : GSem nD τ sig} {u : Unit} (h : 0 < ORr c 7 g u) :
    ∃ k : Fin 7, g = recvCell (peer c k) c := ORr_pos 7 h

theorem O₀_pos {c : Dev nD} {g : GSem nD τ sig} {u : Unit} (h : 0 < O₀ c g u) :
    ∃ k : Fin 7, g = recvCell (peer c k) c ∨ g = barCell (peer c k) := OBr_pos 7 h

/-! ## The waits -/

omit [FloatOps F] in
/-- At its barrier wait a device owes copy credits only: receive cells, above its barrier cell. -/
theorem mayWait_bar (c : Dev nD) :
    (levAts L lv : sProp 𝕄) ⊢ MayWait (c : Thread nD τ) (.reg barS) () (ORr c 7) :=
  MayOwe.of_cut (L := L) (lev := lv) 1
    (fun p hp => by rw [Finset.mem_singleton.mp hp, L_tc]; exact Finset.mem_singleton_self _)
    (fun g u hg => by
      obtain ⟨k, rfl⟩ := ORr7_pos hg
      rw [L_tc]; exact Finset.mem_singleton_self _)
    (fun p hp => by rw [Finset.mem_singleton.mp hp]; exact le_of_eq (lv_bar c ()))
    (fun g u hg => by
      obtain ⟨k, rfl⟩ := ORr7_pos hg
      rw [lv_recv]; decide)

omit [FloatOps F] in
/-- A wait on a semaphore at level 0 (a staging semaphore, a send cell) is below everything a device can owe. -/
theorem mayWait_stage (c : Dev nD) (q : DmaSem sig)
    (hq : kind? (SemLoc.dma q : SemLoc sig) = none ∨ ∃ k, kind? (SemLoc.dma q : SemLoc sig) = some (.inr (.inl k)))
    (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by
    rcases hq with hq | ⟨k, hq⟩
    · exact lv_none ((c : Thread nD τ), SemLoc.dma q) () hq
    · exact lv_of_send ((c : Thread nD τ), SemLoc.dma q) () k hq
  rcases hO with rfl | rfl
  · refine MayOwe.of_cut (L := L) (lev := lv) 0
      (fun p hp => by rw [Finset.mem_singleton.mp hp, L_tc]; exact Finset.mem_singleton_self _)
      (fun g u hg => by
        obtain ⟨k, rfl | rfl⟩ := O₀_pos hg <;> (rw [L_tc]; exact Finset.mem_singleton_self _))
      (fun p hp => by rw [Finset.mem_singleton.mp hp]; exact le_of_eq h0)
      (fun g u hg => by
        obtain ⟨k, rfl | rfl⟩ := O₀_pos hg
        · rw [lv_recv]; decide
        · rw [lv_bar]; decide)
  · rw [MayWait_zero]; iintro -; iempintro

end Cert.KernelIdealProof

end
-- ==== Proof.OwnSems.lean ====
/-
  The kernel's own fifteen semaphores at zero, grouped as the protocol names them: the seven send cells, then the
  eight receive cells.
-/
import proofs.«900918_g7700000000000919_dist_max_ax0_shard0_i_m2048_n1024_v7x_i8_bf16_1_alg».proof.Proof.Protocol
import Mathlib.Logic.Equiv.Fin.Basic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The fifteen own semaphores are indexed by the seven send offsets followed by the eight devices. -/
def ownIdx : Fin 7 ⊕ Dev nD ≃ Fin 15 := finSumFinEquiv

theorem osem_send : ∀ k : Fin 7, osem (ownIdx (.inl k)) = .dma (sendSem k) := by decide
theorem osem_recv : ∀ j : Dev nD, osem (ownIdx (.inr j)) = .dma (recvSem j) := by decide

omit [FloatOps F] in
/-- A device's own cells at zero: its send cells and its receive cells. -/
theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 7 => semVal (sendCell c k) 0) ∗ bigSep Finset.univ fun j : Dev nD => semVal (recvCell c j) 0) := by
  unfold Pipeline.ownSems0
  rw [bigSep_univ_equiv ownIdx, bigSep_univ_sum]
  exact congrArg₂ _ (bigSep_congr fun k _ => by rw [osem_send]) (bigSep_congr fun j _ => by rw [osem_recv])

end Cert.KernelIdealProof

end
-- ==== Proof.Regroup.lean ====
/-
  Regrouping the exchange buffer and the semaphores around one device.

  The products over the seven offsets, over the eight devices (a device first, then its seven peers in ring order)
  and over a device's sixteen protocol cells, written out as chains; the exchange buffer opened into the device's
  own slot and its peers' slots; the eight shares of its own slot a device ends with (the last remainder and the
  seven that went with its copies) joined into the full share; and the final state of a device (every slot at its
  row, every own semaphore at zero) closed into the assertion that follows the kernel.
-/
import proofs.«900918_g7700000000000919_dist_max_ax0_shard0_i_m2048_n1024_v7x_i8_bf16_1_alg».proof.Proof.Slots
import proofs.«900918_g7700000000000919_dist_max_ax0_shard0_i_m2048_n1024_v7x_i8_bf16_1_alg».proof.Proof.OwnSems
import Idealize.ShloMosaic.Lib.Pipeline.Kit
import Idealize.ShloMosaic.Lib.Pipeline.Launch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products written out -/

/-- A product over the seven offsets, as a chain. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A product over the eight devices, as a chain: a device first, then its seven peers in ring order. -/
theorem bigSep_devs (c : Dev nD) (Φ : Dev nD → sProp 𝕄) :
    bigSep Finset.univ Φ = iprop(Φ c ∗ Φ (peer c 0) ∗ Φ (peer c 1) ∗ Φ (peer c 2) ∗ Φ (peer c 3) ∗ Φ (peer c 4)
      ∗ Φ (peer c 5) ∗ Φ (peer c 6)) :=
  bigSep_univ_eq_bigSepL [c, peer c 0, peer c 1, peer c 2, peer c 3, peer c 4, peer c 5, peer c 6]
    (by revert c; decide) (by revert c; decide) Φ

/-- A product over a device's protocol cells: its barrier cell, its seven send cells, its eight receive cells. -/
theorem bigSep_CK (Φ : CK → sProp 𝕄) :
    bigSep Finset.univ Φ = iprop(Φ (.inl ()) ∗ (bigSep Finset.univ fun k : Fin 7 => Φ (.inr (.inl k)))
      ∗ bigSep Finset.univ fun j : Dev nD => Φ (.inr (.inr j))) := by
  rw [bigSep_univ_sum, bigSep_univ_sum, bigSep_univ_of_subsingleton ()]; rfl

/-! ## The exchange buffer around one device -/

/-- The exchange buffer, whole at some contents, opened into the device's own slot and its seven peers' slots. -/
theorem open_scr (c : Dev nD) :
    (scrAny (F := F) c : sProp 𝕄) ⊢ iprop(∃ f : (cc0_scratch0 : Ref sig .tc).ty.Contents (Elt F),
      scrPts c (slotSet c) fullShare f ∗ scrPts c (slotSet (peer c 0)) fullShare f
      ∗ scrPts c (slotSet (peer c 1)) fullShare f ∗ scrPts c (slotSet (peer c 2)) fullShare f
      ∗ scrPts c (slotSet (peer c 3)) fullShare f ∗ scrPts c (slotSet (peer c 4)) fullShare f
      ∗ scrPts c (slotSet (peer c 5)) fullShare f ∗ scrPts c (slotSet (peer c 6)) fullShare f) := by
  unfold scrAny
  iintro ⟨%f, H⟩
  iexists f
  have h := scr_split (F := F) c f
  rw [bigSep_devs c] at h
  iapply h
  iexact H

/-- The remainder after seven halvings and the seven halves that went with the copies are the full share again:
    each half rejoins the remainder it was cut from, the last cut first. -/
theorem join_shares (c : Dev nD) (S : Finset ((cc0_scratch0 : Ref sig .tc).ty.Idx))
    (f : (cc0_scratch0 : Ref sig .tc).ty.Contents (Elt F)) :
    iprop(scrPts (F := F) c S (shAfter 7) f ∗ scrPts c S (sendShare 0) f ∗ scrPts c S (sendShare 1) f
      ∗ scrPts c S (sendShare 2) f ∗ scrPts c S (sendShare 3) f ∗ scrPts c S (sendShare 4) f
      ∗ scrPts c S (sendShare 5) f ∗ scrPts c S (sendShare 6) f) ⊢ (scrPts c S fullShare f : sProp 𝕄) := by
  iintro ⟨H, H0, H1, H2, H3, H4, H5, H6⟩
  ihave H := (share_split (F := F) c S f 6 (by decide)).2 $$ [H6 H]
  · isplitl [H6]; · iexact H6
    iexact H
  ihave H := (share_split (F := F) c S f 5 (by decide)).2 $$ [H5 H]
  · isplitl [H5]; · iexact H5
    iexact H
  ihave H := (share_split (F := F) c S f 4 (by decide)).2 $$ [H4 H]
  · isplitl [H4]; · iexact H4
    iexact H
  ihave H := (share_split (F := F) c S f 3 (by decide)).2 $$ [H3 H]
  · isplitl [H3]; · iexact H3
    iexact H
  ihave H := (share_split (F := F) c S f 2 (by decide)).2 $$ [H2 H]
  · isplitl [H2]; · iexact H2
    iexact H
  ihave H := (share_split (F := F) c S f 1 (by decide)).2 $$ [H1 H]
  · isplitl [H1]; · iexact H1
    iexact H
  ihave H := (share_split (F := F) c S f 0 (by decide)).2 $$ [H0 H]
  · isplitl [H0]; · iexact H0
    iexact H
  iexact H

/-! ## The state after the kernel -/

/-- Every slot of a device's exchange buffer at its row and every own semaphore at zero: the assertion after the
    kernel. The eight slots are folded back over the devices and joined into the whole buffer; the receive cells are
    folded back likewise; the own semaphores are the send cells and the receive cells. -/
theorem close_phi1 (c : Dev nD) :
    iprop(scrPts (F := F) c (slotSet c) fullShare (rowBuf m c)
      ∗ (bigSep Finset.univ fun k : Fin 7 => scrPts c (slotSet (peer c k)) fullShare (rowBuf m (peer c k)))
      ∗ (bigSep Finset.univ fun k : Fin 7 => semVal (sendCell c k) 0)
      ∗ semVal (recvCell c c) 0
      ∗ (bigSep Finset.univ fun k : Fin 7 => semVal (recvCell c (peer c k)) 0)) ⊢ (Φ₁ (F := F) c : sProp 𝕄) := by
  have hscr : iprop(scrPts (F := F) c (slotSet c) fullShare (rowBuf m c)
      ∗ (bigSep Finset.univ fun k : Fin 7 => scrPts c (slotSet (peer c k)) fullShare (rowBuf m (peer c k))))
      ⊢ (scrAny (F := F) c : sProp 𝕄) := by
    refine Entails.trans (Entails.of_eq ?_) (scr_join (F := F) c (rowBuf m))
    rw [bigSep_devs c, bigSep_fin7]
  have hrecv : iprop(semVal (recvCell c c) 0
      ∗ (bigSep Finset.univ fun k : Fin 7 => semVal (recvCell c (peer c k)) 0))
      ⊢ (bigSep Finset.univ fun j : Dev nD => semVal (recvCell c j) 0 : sProp 𝕄) := by
    refine Entails.of_eq ?_
    rw [bigSep_devs c, bigSep_fin7]
  unfold Φ₁
  rw [ownSems0_eq]
  iintro ⟨HA, HB, HC, HD, HE⟩
  isplitl [HA HB]
  · iapply hscr
    isplitl [HA]; · iexact HA
    iexact HB
  isplitl [HC]; · iexact HC
  iapply hrecv
  isplitl [HD]; · iexact HD
  iexact HE

end Cert.KernelIdealProof

end
-- ==== Proof.BodyLemmas.lean ====
/-
  Small facts the phases of a device's body share: the peers in closed form, the cells' invariants and reached rounds
  read off the launch's records, what the barrier's round brings peer by peer, and the whole-buffer loads and stores.
-/
import proofs.«900918_g7700000000000919_dist_max_ax0_shard0_i_m2048_n1024_v7x_i8_bf16_1_alg».proof.Proof.Steps
import proofs.«900918_g7700000000000919_dist_max_ax0_shard0_i_m2048_n1024_v7x_i8_bf16_1_alg».proof.Proof.Levels
import proofs.«900918_g7700000000000919_dist_max_ax0_shard0_i_m2048_n1024_v7x_i8_bf16_1_alg».proof.Proof.Regroup

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem rpeer_0 : ∀ c : Dev nD, rpeer c 0 = peer c 6 := by decide
theorem rpeer_1 : ∀ c : Dev nD, rpeer c 1 = peer c 5 := by decide
theorem rpeer_2 : ∀ c : Dev nD, rpeer c 2 = peer c 4 := by decide
theorem rpeer_3 : ∀ c : Dev nD, rpeer c 3 = peer c 3 := by decide
theorem rpeer_4 : ∀ c : Dev nD, rpeer c 4 = peer c 2 := by decide
theorem rpeer_5 : ∀ c : Dev nD, rpeer c 5 = peer c 1 := by decide
theorem rpeer_6 : ∀ c : Dev nD, rpeer c 6 = peer c 0 := by decide

theorem rec_inv (K : Dev nD × CK → ℕ) (ck : Dev nD × CK) : (records (F := F) m K : sProp 𝕄) ⊢ cellInv ER (sched m) (K ck) (kcell ck) := by
  unfold records; iintro ⟨HI, -⟩; iapply (inv_at m K ck); iexact HI
theorem rec_reached (K : Dev nD × CK → ℕ) (ck : Dev nD × CK) : (records (F := F) m K : sProp 𝕄) ⊢ reached ER (kcell ck) 0 := by
  unfold records; iintro ⟨-, HR⟩; iapply (reached_at (F := F) ck); iexact HR

/-- What peer `k` handed `c` at the barrier: its slot `c`, and that its receive cell `c` has reached round 0. -/
def barGot (c : Dev nD) (k : Fin 7) : sProp 𝕄 :=
  iprop((∃ f, scrPts (peer c k) (slotSet c) fullShare f) ∗ reached ER (recvCell (peer c k) c) 0)

/-- The whole round of the barrier cell, by peer. -/
theorem rest_bar' (c : Dev nD) : bigSep ((sched (F := F) m).duties (barCell c) 0 \ ∅) (fun d => (sched (F := F) m).payload (barCell c) 0 d)
    = iprop(barGot (F := F) c 6 ∗ barGot c 5 ∗ barGot c 4 ∗ barGot c 3 ∗ barGot c 2 ∗ barGot c 1 ∗ barGot c 0) := by
  rw [rest_bar, bigSep_fin7]; unfold barPay barGot
  rw [rpeer_0, rpeer_1, rpeer_2, rpeer_3, rpeer_4, rpeer_5, rpeer_6]

theorem hz2 : (![0, 0] : Fin 2 → Nat) = fun _ => 0 := funext fun a => by fin_cases a <;> rfl
abbrev r0x : Rect S2048x1024 := Rect.unit (s := S2048x1024) ![0, 0] S2048x1024.size inb_S2048x1024_S2048x1024_0_0
abbrev r0o : Rect S1x1024 := Rect.unit (s := S1x1024) ![0, 0] S1x1024.size inb_S1x1024_S1x1024_0_0
theorem read_x (f : (cc0_stg0_0 : Ref sig .tc).ty.Contents (Elt F)) : (xM : Memref sig .tc .vmem S2048x1024 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access r0o : View sig .tc _ _ _).write (Elt F) f w Finset.univ = w :=
  Memref.write_access_unit_zero_univ (Elt F) cc0_stg1_0 hz2 _ f w

theorem scrPts_def (c : Dev nD) (S : Finset ((cc0_scratch0 : Ref sig .tc).ty.Idx)) (q : PosShare TreeShare) (f : (cc0_scratch0 : Ref sig .tc).ty.Contents (Elt F)) :
    scrPts (F := F) c S q f = ((((c : Thread nD τ).loc cc0_scratch0) ↦[S]{q} f) : sProp 𝕄) := rfl

theorem duties_recv_self_all (c : Dev nD) : ∀ r, 0 ≤ r → (sched (F := F) m).duties (recvCell c c) r = ∅ := fun r _ => by
  rcases Nat.eq_zero_or_pos r with rfl | h
  · exact duties_recv_self m c
  · exact duties_later m _ r h

end Cert.KernelIdealProof

end
-- ==== Proof.PartLemmas.lean ====
/-
  What the parts of a device's body share: the slot a peer handed over at the barrier, the own slot's share halved at
  each literal step, and the two parts of the body that only compute indices.
-/
import proofs.«900918_g7700000000000919_dist_max_ax0_shard0_i_m2048_n1024_v7x_i8_bf16_1_alg».proof.Proof.BodyLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Peer `k`'s slot `c`, at some contents: what it handed `c` at the barrier, kept until copy `k`. -/
def gotSlot (c : Dev nD) (k : Fin 7) : sProp 𝕄 := iprop(∃ f, scrPts (peer c k) (slotSet c) fullShare f)

theorem split_0 (c : Dev nD) (S : Finset ((cc0_scratch0 : Ref sig .tc).ty.Idx)) (f : (cc0_scratch0 : Ref sig .tc).ty.Contents (Elt F)) :
    (scrPts (F := F) c S (shAfter 0) f : sProp 𝕄) ⊢ iprop(scrPts c S (sendShare 0) f ∗ scrPts c S (shAfter 1) f) :=
  (share_split c S f 0 (by decide)).1
theorem split_1 (c : Dev nD) (S : Finset ((cc0_scratch0 : Ref sig .tc).ty.Idx)) (f : (cc0_scratch0 : Ref sig .tc).ty.Contents (Elt F)) :
    (scrPts (F := F) c S (shAfter 1) f : sProp 𝕄) ⊢ iprop(scrPts c S (sendShare 1) f ∗ scrPts c S (shAfter 2) f) :=
  (share_split c S f 1 (by decide)).1
theorem split_2 (c : Dev nD) (S : Finset ((cc0_scratch0 : Ref sig .tc).ty.Idx)) (f : (cc0_scratch0 : Ref sig .tc).ty.Contents (Elt F)) :
    (scrPts (F := F) c S (shAfter 2) f : sProp 𝕄) ⊢ iprop(scrPts c S (sendShare 2) f ∗ scrPts c S (shAfter 3) f) :=
  (share_split c S f 2 (by decide)).1
theorem split_3 (c : Dev nD) (S : Finset ((cc0_scratch0 : Ref sig .tc).ty.Idx)) (f : (cc0_scratch0 : Ref sig .tc).ty.Contents (Elt F)) :
    (scrPts (F := F) c S (shAfter 3) f : sProp 𝕄) ⊢ iprop(scrPts c S (sendShare 3) f ∗ scrPts c S (shAfter 4) f) :=
  (share_split c S f 3 (by decide)).1
theorem split_4 (c : Dev nD) (S : Finset ((cc0_scratch0 : Ref sig .tc).ty.Idx)) (f : (cc0_scratch0 : Ref sig .tc).ty.Contents (Elt F)) :
    (scrPts (F := F) c S (shAfter 4) f : sProp 𝕄) ⊢ iprop(scrPts c S (sendShare 4) f ∗ scrPts c S (shAfter 5) f) :=
  (share_split c S f 4 (by decide)).1
theorem split_5 (c : Dev nD) (S : Finset ((cc0_scratch0 : Ref sig .tc).ty.Idx)) (f : (cc0_scratch0 : Ref sig .tc).ty.Contents (Elt F)) :
    (scrPts (F := F) c S (shAfter 5) f : sProp 𝕄) ⊢ iprop(scrPts c S (sendShare 5) f ∗ scrPts c S (shAfter 6) f) :=
  (share_split c S f 5 (by decide)).1
theorem split_6 (c : Dev nD) (S : Finset ((cc0_scratch0 : Ref sig .tc).ty.Idx)) (f : (cc0_scratch0 : Ref sig .tc).ty.Contents (Elt F)) :
    (scrPts (F := F) c S (shAfter 6) f : sProp 𝕄) ⊢ iprop(scrPts c S (sendShare 6) f ∗ scrPts c S (shAfter 7) f) :=
  (share_split c S f 6 (by decide)).1

/-- Part 1 only reads the device's position and computes indices: it returns the device and four words. -/
theorem part1_spec (c : Dev nD) {Q : (Σ' (d0 : Dev nD) (v2 : BitVec 32) (v13 : BitVec 32) (v24 : BitVec 32), BitVec 32) → sProp 𝕄} :
    iprop(∀ v2 v13 v24 v35, Q ⟨c, v2, v13, v24, v35⟩) ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) cc0_scratch1 cc0_scratch2) Q := by
  simp only [k0_part1_eq_skeleton]; unfold k0_part1_skel
  simp only [Prog.lift, Prog.bind_op, Prog.bind_ret, Prog.pure_eq_ret, wp_deviceId, wp_ret]
  iintro H
  imodintro
  iapply H

/-- Part 2 computes indices only. -/
theorem part2_spec (c : Dev nD) (v2 : BitVec 32) {Q : (Σ' (v46 : BitVec 32) (v57 : BitVec 32) (v68 : BitVec 32) (v69 : BitVec 32) (c8_i32_36 : BitVec 32) (v70 : BitVec 1), BitVec 32) → sProp 𝕄} :
    iprop(∀ a, Q a) ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) cc0_scratch1 cc0_scratch2 v2) Q := by
  simp only [k0_part2_eq_skeleton]; unfold k0_part2_skel
  simp only [Prog.lift, Prog.bind_op, Prog.bind_ret, Prog.pure_eq_ret, wp_ret]
  iintro H
  imodintro
  iapply H

end Cert.KernelIdealProof

end
-- ==== Proof.Part3.lean ====
/-
  Part 3 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 3: the seven signals, one unit to each peer's barrier cell with the slot that peer will write its row into; then the block is loaded. -/
theorem part3_spec (K : Dev nD × CK → ℕ) (c : Dev nD) (W : Waits sig Unit) (f0 : (cc0_scratch0 : Ref sig .tc).ty.Contents (Elt F)) (v13 v24 v35 v46 v57 v68 v69 c8 : BitVec 32) (v70 : BitVec 1) (c1 : BitVec 32)
    {Q : (Σ' (v79 : BitVec 32) (v80 : Sems sig S_), FVec F S2048x1024 .f32) → sProp 𝕄} :
    iprop(records m K
        ∗ owes (c : Thread nD τ) (O₀ c) W
        ∗ dutyTok ER (barCell (peer c 0)) 0 0
        ∗ dutyTok ER (barCell (peer c 1)) 0 1
        ∗ dutyTok ER (barCell (peer c 2)) 0 2
        ∗ dutyTok ER (barCell (peer c 3)) 0 3
        ∗ dutyTok ER (barCell (peer c 4)) 0 4
        ∗ dutyTok ER (barCell (peer c 5)) 0 5
        ∗ dutyTok ER (barCell (peer c 6)) 0 6
        ∗ scrPts c (slotSet (peer c 0)) fullShare f0
        ∗ scrPts c (slotSet (peer c 1)) fullShare f0
        ∗ scrPts c (slotSet (peer c 2)) fullShare f0
        ∗ scrPts c (slotSet (peer c 3)) fullShare f0
        ∗ scrPts c (slotSet (peer c 4)) fullShare f0
        ∗ scrPts c (slotSet (peer c 5)) fullShare f0
        ∗ scrPts c (slotSet (peer c 6)) fullShare f0
        ∗ (((c : Thread nD τ).loc cc0_stg0_0) ↦{fullShare} xstg m c)
        ∗ (∀ v79, ((∃ W', owes (c : Thread nD τ) (ORr c 7) W')
            ∗ (((c : Thread nD τ).loc cc0_stg0_0) ↦{fullShare} xstg m c)) -∗ Q ⟨v79, (SemArray.scalar (sig.barrier 0 rfl) : Sems sig S_), k0_pay1 (xstg m c)⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) cc0_scratch1 cc0_scratch2 c v13 v24 v35 v46 v57 v68 v69 c8 v70 c1) Q := by
  simp only [k0_part3_eq_skeleton]; unfold k0_part3_skel
  simp only [semSignalWord, semWaitWord, Prog.lift, Prog.bind_op, Prog.bind_ret, Prog.pure_eq_ret]
  simp only [dev1_eq c, dev2_eq c, dev3_eq c, dev4_eq c, dev5_eq c, dev6_eq c, dev7_eq c]
  iintro ⟨#Hrec, HO, Htb0, Htb1, Htb2, Htb3, Htb4, Htb5, Htb6, Hs0, Hs1, Hs2, Hs3, Hs4, Hs5, Hs6, Hx, Hk⟩
  iapply (sig_step m K c 0 (OBr c 6) (OBr c 7) rfl _ f0) $$ [HO Htb0 Hs0]
  · isplitr; · iexact Hrec
    isplitl [HO]; · iexact HO
    isplitl [Htb0]; · iexact Htb0
    iexact Hs0
  iintro HO
  iapply (sig_step m K c 1 (OBr c 5) (OBr c 6) rfl _ f0) $$ [HO Htb1 Hs1]
  · isplitr; · iexact Hrec
    isplitl [HO]; · iexact HO
    isplitl [Htb1]; · iexact Htb1
    iexact Hs1
  iintro HO
  iapply (sig_step m K c 2 (OBr c 4) (OBr c 5) rfl _ f0) $$ [HO Htb2 Hs2]
  · isplitr; · iexact Hrec
    isplitl [HO]; · iexact HO
    isplitl [Htb2]; · iexact Htb2
    iexact Hs2
  iintro HO
  iapply (sig_step m K c 3 (OBr c 3) (OBr c 4) rfl _ f0) $$ [HO Htb3 Hs3]
  · isplitr; · iexact Hrec
    isplitl [HO]; · iexact HO
    isplitl [Htb3]; · iexact Htb3
    iexact Hs3
  iintro HO
  iapply (sig_step m K c 4 (OBr c 2) (OBr c 3) rfl _ f0) $$ [HO Htb4 Hs4]
  · isplitr; · iexact Hrec
    isplitl [HO]; · iexact HO
    isplitl [Htb4]; · iexact Htb4
    iexact Hs4
  iintro HO
  iapply (sig_step m K c 5 (OBr c 1) (OBr c 2) rfl _ f0) $$ [HO Htb5 Hs5]
  · isplitr; · iexact Hrec
    isplitl [HO]; · iexact HO
    isplitl [Htb5]; · iexact Htb5
    iexact Hs5
  iintro HO
  iapply (sig_step m K c 6 (OBr c 0) (OBr c 1) rfl _ f0) $$ [HO Htb6 Hs6]
  · isplitr; · iexact Hrec
    isplitl [HO]; · iexact HO
    isplitl [Htb6]; · iexact Htb6
    iexact Hs6
  iintro HO
  iapply (wp_load 𝒱₀ (c : Thread nD τ) none Set.univ (m := xM) (Finset.subset_univ _)) $$ Hx; iintro Hx
  rw [read_x]
  rw [wp_ret]
  imodintro
  iapply Hk
  isplitl [HO]; · iexists _; iexact HO
  iexact Hx

end Cert.KernelIdealProof

end
-- ==== Proof.Part4.lean ====
/-
  Part 4 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 4: the column maxima of the block stored in the own slot; the wait for all seven peers' signals, owing only the copies' credits; the first two copies. -/
theorem part4_spec (K : Dev nD × CK → ℕ) (c : Dev nD) (W : Waits sig Unit) (f0 : (cc0_scratch0 : Ref sig .tc).ty.Contents (Elt F)) (v2 v13 v24 v35 : BitVec 32)
    {Q : (PUnit) → sProp 𝕄} :
    iprop(records m K
        ∗ levAts L lv
        ∗ owes (c : Thread nD τ) (ORr c 7) W
        ∗ cred (tallyAt (barCell c) () 7)
        ∗ atPos ER (barCell c) 0 ∅ 0
        ∗ scrPts c (slotSet c) fullShare f0
        ∗ dutyTok ER (sendCell c 0) 0 0
        ∗ dutyTok ER (recvCell (peer c 0) c) 0 0
        ∗ dutyTok ER (sendCell c 1) 0 0
        ∗ dutyTok ER (recvCell (peer c 1) c) 0 0
        ∗ (((∃ W', owes (c : Thread nD τ) (ORr c 5) W')
            ∗ scrPts c (slotSet c) (shAfter 2) (rowBuf m c)
            ∗ cred (tallyAt (sendCell c 0) () N)
            ∗ cred (tallyAt (sendCell c 1) () N)
            ∗ gotSlot c 2
            ∗ gotSlot c 3
            ∗ gotSlot c 4
            ∗ gotSlot c 5
            ∗ gotSlot c 6) -∗ Q ⟨⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_scratch0) (Memref.isWhole_whole _) cc0_scratch1 cc0_scratch2 c v2 v13 v24 v35 (SemArray.scalar (sig.barrier 0 rfl) : Sems sig S_) (k0_pay1 (xstg m c))) Q := by
  simp only [k0_part4_eq_skeleton]; unfold k0_part4_skel
  simp only [semSignalWord, semWaitWord, Prog.lift, Prog.bind_op, Prog.bind_ret, Prog.pure_eq_ret]
  unfold gotSlot
  iintro ⟨#Hrec, #Hlev, HO, HcB, HatB, Hown, Hts0, Htr0, Hts1, Htr1, Hk⟩
  iapply (wp_load 𝒱₀ (c : Thread nD τ) none Set.univ (m := rM) (load_sub' c _ (k0_off1_eq c) _)) $$ Hown; iintro Hown
  iapply (wp_store 𝒱₀ (c : Thread nD τ) none Set.univ (m := rM) (r := Rect.unit (s := S8x1x1024) (k0_off1 c) S1x1x1024.size (k0_off1_inb c)) (Mk := Finset.univ) (store_sub' c _ (k0_off1_eq c) _)) $$ Hown; iintro Hown
  ihave Hown := (Entails.of_eq (store_row' m c c fullShare f0 _ (k0_off1_eq c) (k0_off1_inb c))) $$ Hown
  ihave #HIb := (rec_inv m K (c, .inl ())) $$ Hrec
  iapply (Rounds.wp_wait_rest_token 𝒱₀ ER (sched m) (c : Thread nD τ) none (κ := K (c, .inl ()))
      (wpE_semWait_eq 𝒱₀ (c : Thread nD τ) none Set.univ) (Set.mem_univ _) () (O := ORr c 7) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar' m c)) $$ Hpay
  unfold barGot
  icases Hp with ⟨⟨⟨%fn6, Hd6⟩, -⟩, ⟨⟨%fn5, Hd5⟩, -⟩, ⟨⟨%fn4, Hd4⟩, -⟩, ⟨⟨%fn3, Hd3⟩, -⟩, ⟨⟨%fn2, Hd2⟩, -⟩, ⟨⟨%fn1, Hd1⟩, -⟩, ⟨⟨%fn0, Hd0⟩, -⟩⟩
  ihave Hown := (Entails.of_eq (show scrPts (F := F) c (slotSet c) fullShare (rowBuf m c) = scrPts c (slotSet c) (shAfter 0) (rowBuf m c) from rfl)) $$ Hown
  ihave Hsp := (split_0 c (slotSet c) (rowBuf m c)) $$ Hown
  icases Hsp with ⟨Hsh0, Hown⟩
  iapply (send_step' m K c 0 _ (dev8_eq c) _ (k0_off3_eq c) _ _ (k0_off2_eq c) _ (ORr c 6) (ORr c 7) rfl _ fn0) $$ [Hsh0 Hd0 HO Hts0 Htr0]
  · isplitr; · iexact Hrec
    isplitl [Hsh0]; · iexact Hsh0
    isplitl [Hd0]; · iexact Hd0
    isplitl [HO]; · iexact HO
    isplitl [Hts0]; · iexact Hts0
    iexact Htr0
  iintro ⟨HcS0, HO⟩
  ihave Hsp := (split_1 c (slotSet c) (rowBuf m c)) $$ Hown
  icases Hsp with ⟨Hsh1, Hown⟩
  iapply (send_step' m K c 1 _ (dev9_eq c) _ (k0_off3_eq c) _ _ (k0_off2_eq c) _ (ORr c 5) (ORr c 6) rfl _ fn1) $$ [Hsh1 Hd1 HO Hts1 Htr1]
  · isplitr; · iexact Hrec
    isplitl [Hsh1]; · iexact Hsh1
    isplitl [Hd1]; · iexact Hd1
    isplitl [HO]; · iexact HO
    isplitl [Hts1]; · iexact Hts1
    iexact Htr1
  iintro ⟨HcS1, HO⟩
  rw [wp_ret]
  imodintro
  iapply Hk
  isplitl [HO]; · iexists _; iexact HO
  isplitl [Hown]; · iexact Hown
  isplitl [HcS0]; · iexact HcS0
  isplitl [HcS1]; · iexact HcS1
  isplitl [Hd2]; · iexists fn2; iexact Hd2
  isplitl [Hd3]; · iexists fn3; iexact Hd3
  isplitl [Hd4]; · iexists fn4; iexact Hd4
  isplitl [Hd5]; · iexists fn5; iexact Hd5
  iexists fn6; iexact Hd6

end Cert.KernelIdealProof

end
-- ==== Proof.Part5.lean ====
/-
  Part 5 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 5: copies 2 to 5 of the own row. -/
theorem part5_spec (K : Dev nD × CK → ℕ) (c : Dev nD) (W : Waits sig Unit) (v46 v57 v68 : BitVec 32)
    {Q : (PUnit) → sProp 𝕄} :
    iprop(records m K
        ∗ owes (c : Thread nD τ) (ORr c 5) W
        ∗ scrPts c (slotSet c) (shAfter 2) (rowBuf m c)
        ∗ gotSlot c 2
        ∗ gotSlot c 3
        ∗ gotSlot c 4
        ∗ gotSlot c 5
        ∗ dutyTok ER (sendCell c 2) 0 0
        ∗ dutyTok ER (sendCell c 3) 0 0
        ∗ dutyTok ER (sendCell c 4) 0 0
        ∗ dutyTok ER (sendCell c 5) 0 0
        ∗ dutyTok ER (recvCell (peer c 2) c) 0 0
        ∗ dutyTok ER (recvCell (peer c 3) c) 0 0
        ∗ dutyTok ER (recvCell (peer c 4) c) 0 0
        ∗ dutyTok ER (recvCell (peer c 5) c) 0 0
        ∗ (((∃ W', owes (c : Thread nD τ) (ORr c 1) W')
            ∗ scrPts c (slotSet c) (shAfter 6) (rowBuf m c)
            ∗ cred (tallyAt (sendCell c 2) () N)
            ∗ cred (tallyAt (sendCell c 3) () N)
            ∗ cred (tallyAt (sendCell c 4) () N)
            ∗ cred (tallyAt (sendCell c 5) () N)) -∗ Q ⟨⟩))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_scratch0) (Memref.isWhole_whole _) cc0_scratch1 cc0_scratch2 c v46 v57 v68) Q := by
  simp only [k0_part5_eq_skeleton]; unfold k0_part5_skel
  simp only [semSignalWord, semWaitWord, Prog.lift, Prog.bind_op, Prog.bind_ret, Prog.pure_eq_ret]
  unfold gotSlot
  iintro ⟨#Hrec, HO, Hown, ⟨%fn2, Hd2⟩, ⟨%fn3, Hd3⟩, ⟨%fn4, Hd4⟩, ⟨%fn5, Hd5⟩, Hts2, Hts3, Hts4, Hts5, Htr2, Htr3, Htr4, Htr5, Hk⟩
  ihave Hsp := (split_2 c (slotSet c) (rowBuf m c)) $$ Hown
  icases Hsp with ⟨Hsh2, Hown⟩
  iapply (send_step' m K c 2 _ (dev10_eq c) _ (k0_off3_eq c) _ _ (k0_off2_eq c) _ (ORr c 4) (ORr c 5) rfl _ fn2) $$ [Hsh2 Hd2 HO Hts2 Htr2]
  · isplitr; · iexact Hrec
    isplitl [Hsh2]; · iexact Hsh2
    isplitl [Hd2]; · iexact Hd2
    isplitl [HO]; · iexact HO
    isplitl [Hts2]; · iexact Hts2
    iexact Htr2
  iintro ⟨HcS2, HO⟩
  ihave Hsp := (split_3 c (slotSet c) (rowBuf m c)) $$ Hown
  icases Hsp with ⟨Hsh3, Hown⟩
  iapply (send_step' m K c 3 _ (dev11_eq c) _ (k0_off3_eq c) _ _ (k0_off2_eq c) _ (ORr c 3) (ORr c 4) rfl _ fn3) $$ [Hsh3 Hd3 HO Hts3 Htr3]
  · isplitr; · iexact Hrec
    isplitl [Hsh3]; · iexact Hsh3
    isplitl [Hd3]; · iexact Hd3
    isplitl [HO]; · iexact HO
    isplitl [Hts3]; · iexact Hts3
    iexact Htr3
  iintro ⟨HcS3, HO⟩
  ihave Hsp := (split_4 c (slotSet c) (rowBuf m c)) $$ Hown
  icases Hsp with ⟨Hsh4, Hown⟩
  iapply (send_step' m K c 4 _ (dev12_eq c) _ (k0_off3_eq c) _ _ (k0_off2_eq c) _ (ORr c 2) (ORr c 3) rfl _ fn4) $$ [Hsh4 Hd4 HO Hts4 Htr4]
  · isplitr; · iexact Hrec
    isplitl [Hsh4]; · iexact Hsh4
    isplitl [Hd4]; · iexact Hd4
    isplitl [HO]; · iexact HO
    isplitl [Hts4]; · iexact Hts4
    iexact Htr4
  iintro ⟨HcS4, HO⟩
  ihave Hsp := (split_5 c (slotSet c) (rowBuf m c)) $$ Hown
  icases Hsp with ⟨Hsh5, Hown⟩
  iapply (send_step' m K c 5 _ (dev13_eq c) _ (k0_off3_eq c) _ _ (k0_off2_eq c) _ (ORr c 1) (ORr c 2) rfl _ fn5) $$ [Hsh5 Hd5 HO Hts5 Htr5]
  · isplitr; · iexact Hrec
    isplitl [Hsh5]; · iexact Hsh5
    isplitl [Hd5]; · iexact Hd5
    isplitl [HO]; · iexact HO
    isplitl [Hts5]; · iexact Hts5
    iexact Htr5
  iintro ⟨HcS5, HO⟩
  rw [wp_ret]
  imodintro
  iapply Hk
  isplitl [HO]; · iexists _; iexact HO
  isplitl [Hown]; · iexact Hown
  isplitl [HcS2]; · iexact HcS2
  isplitl [HcS3]; · iexact HcS3
  isplitl [HcS4]; · iexact HcS4
  iexact HcS5

end Cert.KernelIdealProof

end
-- ==== Proof.Part6.lean ====
/-
  Part 6 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 6: the last copy; the own row read back; peer 0's row waited for and read; the first fold. -/
theorem part6_spec (K : Dev nD × CK → ℕ) (c : Dev nD) (W : Waits sig Unit) (v2 v13 v24 v79 : BitVec 32)
    {Q : (FVec F S1x1024 .f32) → sProp 𝕄} :
    iprop(records m K
        ∗ owes (c : Thread nD τ) (ORr c 1) W
        ∗ scrPts c (slotSet c) (shAfter 6) (rowBuf m c)
        ∗ gotSlot c 6
        ∗ dutyTok ER (sendCell c 6) 0 0
        ∗ dutyTok ER (recvCell (peer c 6) c) 0 0
        ∗ cred (tallyAt (recvCell c (peer c 0)) () N)
        ∗ atPos ER (recvCell c (peer c 0)) 0 ∅ 0
        ∗ (((∃ W', owes (c : Thread nD τ) (0) W')
            ∗ scrPts c (slotSet c) (shAfter 7) (rowBuf m c)
            ∗ cred (tallyAt (sendCell c 6) () N)
            ∗ semVal (recvCell c (peer c 0)) 0
            ∗ scrPts c (slotSet (peer c 0)) fullShare (rowBuf m (peer c 0))) -∗ Q (k0_pay3 (row m c) (row m (peer c 0)))))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_scratch0) (Memref.isWhole_whole _) cc0_scratch1 cc0_scratch2 c v2 v13 v24 v79) Q := by
  simp only [k0_part6_eq_skeleton]; unfold k0_part6_skel
  simp only [semSignalWord, semWaitWord, Prog.lift, Prog.bind_op, Prog.bind_ret, Prog.pure_eq_ret]
  unfold gotSlot
  iintro ⟨#Hrec, HO, Hown, ⟨%fn6, Hd6⟩, Hts6, Htr6, HcR0, HatR0, Hk⟩
  ihave Hsp := (split_6 c (slotSet c) (rowBuf m c)) $$ Hown
  icases Hsp with ⟨Hsh6, Hown⟩
  iapply (send_step' m K c 6 _ (dev14_eq c) _ (k0_off3_eq c) _ _ (k0_off2_eq c) _ (ORr c 0) (ORr c 1) rfl _ fn6) $$ [Hsh6 Hd6 HO Hts6 Htr6]
  · isplitr; · iexact Hrec
    isplitl [Hsh6]; · iexact Hsh6
    isplitl [Hd6]; · iexact Hd6
    isplitl [HO]; · iexact HO
    isplitl [Hts6]; · iexact Hts6
    iexact Htr6
  iintro ⟨HcS6, HO⟩
  iapply (wp_load 𝒱₀ (c : Thread nD τ) none Set.univ (m := rM) (load_sub' c _ (k0_off1_eq c) _)) $$ Hown; iintro Hown
  rw [read_row' m c _ (k0_off1_eq c) _]
  iapply (recv_wait_step' m K c 0 _ (off5_1_eq c) _ _ (off4_1_eq c) _ _) $$ [HcR0 HO HatR0]
  · isplitr; · iexact Hrec
    isplitl [HcR0]; · iexact HcR0
    isplitl [HO]; · iexact HO
    iexact HatR0
  iintro ⟨HO, HzR0, Hl0⟩
  iapply (wp_load 𝒱₀ (c : Thread nD τ) none Set.univ (m := rM) (load_sub' (peer c 0) _ (off6_1_eq c) _)) $$ Hl0; iintro Hl0
  rw [read_row' m (peer c 0) _ (off6_1_eq c) _]
  rw [wp_ret]
  imodintro
  iapply Hk
  isplitl [HO]; · iexists _; iexact HO
  isplitl [Hown]; · iexact Hown
  isplitl [HcS6]; · iexact HcS6
  isplitl [HzR0]; · iexact HzR0
  iexact Hl0

end Cert.KernelIdealProof

end
-- ==== Proof.Part7.lean ====
/-
  Part 7 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 7: the rows of peers 1, 2, 3 waited for, read and folded in. -/
theorem part7_spec (K : Dev nD × CK → ℕ) (c : Dev nD) (W : Waits sig Unit) (v24 v35 v46 v57 : BitVec 32) (v187 : FVec F S1x1024 .f32)
    {Q : (FVec F S1x1024 .f32) → sProp 𝕄} :
    iprop(records m K
        ∗ owes (c : Thread nD τ) (0) W
        ∗ cred (tallyAt (recvCell c (peer c 1)) () N)
        ∗ cred (tallyAt (recvCell c (peer c 2)) () N)
        ∗ cred (tallyAt (recvCell c (peer c 3)) () N)
        ∗ atPos ER (recvCell c (peer c 1)) 0 ∅ 0
        ∗ atPos ER (recvCell c (peer c 2)) 0 ∅ 0
        ∗ atPos ER (recvCell c (peer c 3)) 0 ∅ 0
        ∗ (((∃ W', owes (c : Thread nD τ) (0) W')
            ∗ semVal (recvCell c (peer c 1)) 0
            ∗ semVal (recvCell c (peer c 2)) 0
            ∗ semVal (recvCell c (peer c 3)) 0
            ∗ scrPts c (slotSet (peer c 1)) fullShare (rowBuf m (peer c 1))
            ∗ scrPts c (slotSet (peer c 2)) fullShare (rowBuf m (peer c 2))
            ∗ scrPts c (slotSet (peer c 3)) fullShare (rowBuf m (peer c 3))) -∗ Q (k0_pay4 v187 (row m (peer c 1)) (row m (peer c 2)) (row m (peer c 3)))))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_scratch0) (Memref.isWhole_whole _) cc0_scratch1 cc0_scratch2 c v24 v35 v46 v57 v187) Q := by
  simp only [k0_part7_eq_skeleton]; unfold k0_part7_skel
  simp only [semSignalWord, semWaitWord, Prog.lift, Prog.bind_op, Prog.bind_ret, Prog.pure_eq_ret]
  iintro ⟨#Hrec, HO, HcR1, HcR2, HcR3, HatR1, HatR2, HatR3, Hk⟩
  iapply (recv_wait_step' m K c 1 _ (off5_2_eq c) _ _ (off4_2_eq c) _ _) $$ [HcR1 HO HatR1]
  · isplitr; · iexact Hrec
    isplitl [HcR1]; · iexact HcR1
    isplitl [HO]; · iexact HO
    iexact HatR1
  iintro ⟨HO, HzR1, Hl1⟩
  iapply (wp_load 𝒱₀ (c : Thread nD τ) none Set.univ (m := rM) (load_sub' (peer c 1) _ (off6_2_eq c) _)) $$ Hl1; iintro Hl1
  rw [read_row' m (peer c 1) _ (off6_2_eq c) _]
  iapply (recv_wait_step' m K c 2 _ (off5_3_eq c) _ _ (off4_3_eq c) _ _) $$ [HcR2 HO HatR2]
  · isplitr; · iexact Hrec
    isplitl [HcR2]; · iexact HcR2
    isplitl [HO]; · iexact HO
    iexact HatR2
  iintro ⟨HO, HzR2, Hl2⟩
  iapply (wp_load 𝒱₀ (c : Thread nD τ) none Set.univ (m := rM) (load_sub' (peer c 2) _ (off6_3_eq c) _)) $$ Hl2; iintro Hl2
  rw [read_row' m (peer c 2) _ (off6_3_eq c) _]
  iapply (recv_wait_step' m K c 3 _ (off5_4_eq c) _ _ (off4_4_eq c) _ _) $$ [HcR3 HO HatR3]
  · isplitr; · iexact Hrec
    isplitl [HcR3]; · iexact HcR3
    isplitl [HO]; · iexact HO
    iexact HatR3
  iintro ⟨HO, HzR3, Hl3⟩
  iapply (wp_load 𝒱₀ (c : Thread nD τ) none Set.univ (m := rM) (load_sub' (peer c 3) _ (off6_4_eq c) _)) $$ Hl3; iintro Hl3
  rw [read_row' m (peer c 3) _ (off6_4_eq c) _]
  rw [wp_ret]
  imodintro
  iapply Hk
  isplitl [HO]; · iexists _; iexact HO
  isplitl [HzR1]; · iexact HzR1
  isplitl [HzR2]; · iexact HzR2
  isplitl [HzR3]; · iexact HzR3
  isplitl [Hl1]; · iexact Hl1
  isplitl [Hl2]; · iexact Hl2
  iexact Hl3

end Cert.KernelIdealProof

end
-- ==== Proof.Part8.lean ====
/-
  Part 8 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 8: the rows of peers 4, 5, 6 waited for, read and folded in; the output staging buffer read (a dead load). -/
theorem part8_spec (K : Dev nD × CK → ℕ) (c : Dev nD) (W : Waits sig Unit) (v57 v68 v79 : BitVec 32) (v223 : FVec F S1x1024 .f32) (g1 : (cc0_stg1_0 : Ref sig .tc).ty.Contents (Elt F))
    {Q : (FVec F S1x1024 .f32) → sProp 𝕄} :
    iprop(records m K
        ∗ owes (c : Thread nD τ) (0) W
        ∗ cred (tallyAt (recvCell c (peer c 4)) () N)
        ∗ cred (tallyAt (recvCell c (peer c 5)) () N)
        ∗ cred (tallyAt (recvCell c (peer c 6)) () N)
        ∗ atPos ER (recvCell c (peer c 4)) 0 ∅ 0
        ∗ atPos ER (recvCell c (peer c 5)) 0 ∅ 0
        ∗ atPos ER (recvCell c (peer c 6)) 0 ∅ 0
        ∗ (((c : Thread nD τ).loc cc0_stg1_0) ↦{fullShare} g1)
        ∗ (((∃ W', owes (c : Thread nD τ) (0) W')
            ∗ semVal (recvCell c (peer c 4)) 0
            ∗ semVal (recvCell c (peer c 5)) 0
            ∗ semVal (recvCell c (peer c 6)) 0
            ∗ scrPts c (slotSet (peer c 4)) fullShare (rowBuf m (peer c 4))
            ∗ scrPts c (slotSet (peer c 5)) fullShare (rowBuf m (peer c 5))
            ∗ scrPts c (slotSet (peer c 6)) fullShare (rowBuf m (peer c 6))
            ∗ (((c : Thread nD τ).loc cc0_stg1_0) ↦{fullShare} g1)) -∗ Q (k0_pay5 v223 (row m (peer c 4)) (row m (peer c 5)) (row m (peer c 6)))))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_scratch0) (Memref.isWhole_whole _) cc0_scratch1 cc0_scratch2 c v57 v68 v79 v223) Q := by
  simp only [k0_part8_eq_skeleton]; unfold k0_part8_skel
  simp only [semSignalWord, semWaitWord, Prog.lift, Prog.bind_op, Prog.bind_ret, Prog.pure_eq_ret]
  iintro ⟨#Hrec, HO, HcR4, HcR5, HcR6, HatR4, HatR5, HatR6, Hout, Hk⟩
  iapply (recv_wait_step' m K c 4 _ (off5_5_eq c) _ _ (off4_5_eq c) _ _) $$ [HcR4 HO HatR4]
  · isplitr; · iexact Hrec
    isplitl [HcR4]; · iexact HcR4
    isplitl [HO]; · iexact HO
    iexact HatR4
  iintro ⟨HO, HzR4, Hl4⟩
  iapply (wp_load 𝒱₀ (c : Thread nD τ) none Set.univ (m := rM) (load_sub' (peer c 4) _ (off6_5_eq c) _)) $$ Hl4; iintro Hl4
  rw [read_row' m (peer c 4) _ (off6_5_eq c) _]
  iapply (recv_wait_step' m K c 5 _ (off5_6_eq c) _ _ (off4_6_eq c) _ _) $$ [HcR5 HO HatR5]
  · isplitr; · iexact Hrec
    isplitl [HcR5]; · iexact HcR5
    isplitl [HO]; · iexact HO
    iexact HatR5
  iintro ⟨HO, HzR5, Hl5⟩
  iapply (wp_load 𝒱₀ (c : Thread nD τ) none Set.univ (m := rM) (load_sub' (peer c 5) _ (off6_6_eq c) _)) $$ Hl5; iintro Hl5
  rw [read_row' m (peer c 5) _ (off6_6_eq c) _]
  iapply (recv_wait_step' m K c 6 _ (off5_7_eq c) _ _ (off4_7_eq c) _ _) $$ [HcR6 HO HatR6]
  · isplitr; · iexact Hrec
    isplitl [HcR6]; · iexact HcR6
    isplitl [HO]; · iexact HO
    iexact HatR6
  iintro ⟨HO, HzR6, Hl6⟩
  iapply (wp_load 𝒱₀ (c : Thread nD τ) none Set.univ (m := rM) (load_sub' (peer c 6) _ (off6_7_eq c) _)) $$ Hl6; iintro Hl6
  rw [read_row' m (peer c 6) _ (off6_7_eq c) _]
  iapply (wp_load 𝒱₀ (c : Thread nD τ) none Set.univ (m := oM) (Finset.subset_univ _)) $$ Hout; iintro Hout
  rw [wp_ret]
  imodintro
  iapply Hk
  isplitl [HO]; · iexists _; iexact HO
  isplitl [HzR4]; · iexact HzR4
  isplitl [HzR5]; · iexact HzR5
  isplitl [HzR6]; · iexact HzR6
  isplitl [Hl4]; · iexact Hl4
  isplitl [Hl5]; · iexact Hl5
  isplitl [Hl6]; · iexact Hl6
  iexact Hout

end Cert.KernelIdealProof

end
-- ==== Proof.Part9.lean ====
/-
  Part 9 of a device's body. The printed body is cut into parts of sixty statements; each part is run from what it needs to what it leaves,
  against any continuation.
-/
import proofs.«900918_g7700000000000919_dist_max_ax0_shard0_i_m2048_n1024_v7x_i8_bf16_1_alg».proof.Proof.PartLemmas

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 9: the folded maximum stored; the ends of the reads of copies 0 to 3 waited for. -/
theorem part9_spec (K : Dev nD × CK → ℕ) (c : Dev nD) (W : Waits sig Unit) (v259 : FVec F S1x1024 .f32) (g1 : (cc0_stg1_0 : Ref sig .tc).ty.Contents (Elt F))
    {Q : (PUnit) → sProp 𝕄} :
    iprop(records m K
        ∗ owes (c : Thread nD τ) (0) W
        ∗ (((c : Thread nD τ).loc cc0_stg1_0) ↦{fullShare} g1)
        ∗ cred (tallyAt (sendCell c 0) () N)
        ∗ cred (tallyAt (sendCell c 1) () N)
        ∗ cred (tallyAt (sendCell c 2) () N)
        ∗ cred (tallyAt (sendCell c 3) () N)
        ∗ atPos ER (sendCell c 0) 0 ∅ 0
        ∗ atPos ER (sendCell c 1) 0 ∅ 0
        ∗ atPos ER (sendCell c 2) 0 ∅ 0
        ∗ atPos ER (sendCell c 3) 0 ∅ 0
        ∗ (((∃ W', owes (c : Thread nD τ) (0) W')
            ∗ (((c : Thread nD τ).loc cc0_stg1_0) ↦{fullShare} v259)
            ∗ semVal (sendCell c 0) 0
            ∗ semVal (sendCell c 1) 0
            ∗ semVal (sendCell c 2) 0
            ∗ semVal (sendCell c 3) 0
            ∗ scrPts c (slotSet c) (sendShare 0) (rowBuf m c)
            ∗ scrPts c (slotSet c) (sendShare 1) (rowBuf m c)
            ∗ scrPts c (slotSet c) (sendShare 2) (rowBuf m c)
            ∗ scrPts c (slotSet c) (sendShare 3) (rowBuf m c)) -∗ Q ⟨⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_scratch0) (Memref.isWhole_whole _) cc0_scratch1 cc0_scratch2 c v259) Q := by
  simp only [k0_part9_eq_skeleton]; unfold k0_part9_skel
  simp only [semSignalWord, semWaitWord, Prog.lift, Prog.bind_op, Prog.bind_ret, Prog.pure_eq_ret]
  iintro ⟨#Hrec, HO, Hout, HcS0, HcS1, HcS2, HcS3, HatS0, HatS1, HatS2, HatS3, Hk⟩
  iapply (wp_store 𝒱₀ (c : Thread nD τ) none Set.univ (m := oM) (r := r0o) (Mk := Finset.univ) (Finset.subset_univ _)) $$ Hout; iintro Hout
  rw [write_out]
  iapply (send_wait_step' m K c 0 _ (k0_off3_eq c) _ _) $$ [HcS0 HO HatS0]
  · isplitr; · iexact Hrec
    isplitl [HcS0]; · iexact HcS0
    isplitl [HO]; · iexact HO
    iexact HatS0
  iintro ⟨HO, HzS0, Hsh0⟩
  iapply (send_wait_step' m K c 1 _ (k0_off3_eq c) _ _) $$ [HcS1 HO HatS1]
  · isplitr; · iexact Hrec
    isplitl [HcS1]; · iexact HcS1
    isplitl [HO]; · iexact HO
    iexact HatS1
  iintro ⟨HO, HzS1, Hsh1⟩
  iapply (send_wait_step' m K c 2 _ (k0_off3_eq c) _ _) $$ [HcS2 HO HatS2]
  · isplitr; · iexact Hrec
    isplitl [HcS2]; · iexact HcS2
    isplitl [HO]; · iexact HO
    iexact HatS2
  iintro ⟨HO, HzS2, Hsh2⟩
  iapply (send_wait_step' m K c 3 _ (k0_off3_eq c) _ _) $$ [HcS3 HO HatS3]
  · isplitr; · iexact Hrec
    isplitl [HcS3]; · iexact HcS3
    isplitl [HO]; · iexact HO
    iexact HatS3
  iintro ⟨HO, HzS3, Hsh3⟩
  rw [wp_ret]
  imodintro
  iapply Hk
  isplitl [HO]; · iexists _; iexact HO
  isplitl [Hout]; · iexact Hout
  isplitl [HzS0]; · iexact HzS0
  isplitl [HzS1]; · iexact HzS1
  isplitl [HzS2]; · iexact HzS2
  isplitl [HzS3]; · iexact HzS3
  isplitl [Hsh0]; · iexact Hsh0
  isplitl [Hsh1]; · iexact Hsh1
  isplitl [Hsh2]; · iexact Hsh2
  iexact Hsh3

end Cert.KernelIdealProof

end
-- ==== Proof.Body.lean ====
/-
  One device's body under the protocol, composed along the printed body's root sequence of parts: from the ghost state,
  credit and buffers the launch deals it — through the seven signals, the column maxima of its block stored in its own
  slot, the wait for all seven peers, the seven copies of its row, the seven peers' rows folded in by `max`, the store
  of the result and the seven waits for its copies' reads — to the exchange buffer whole again, every own cell closed
  at zero, and the result in the output staging buffer. Then the same as the library's body obligation.
-/
import proofs.«900918_g7700000000000919_dist_max_ax0_shard0_i_m2048_n1024_v7x_i8_bf16_1_alg».proof.Proof.Part3
import proofs.«900918_g7700000000000919_dist_max_ax0_shard0_i_m2048_n1024_v7x_i8_bf16_1_alg».proof.Proof.Part4
import proofs.«900918_g7700000000000919_dist_max_ax0_shard0_i_m2048_n1024_v7x_i8_bf16_1_alg».proof.Proof.Part5
import proofs.«900918_g7700000000000919_dist_max_ax0_shard0_i_m2048_n1024_v7x_i8_bf16_1_alg».proof.Proof.Part6
import proofs.«900918_g7700000000000919_dist_max_ax0_shard0_i_m2048_n1024_v7x_i8_bf16_1_alg».proof.Proof.Part7
import proofs.«900918_g7700000000000919_dist_max_ax0_shard0_i_m2048_n1024_v7x_i8_bf16_1_alg».proof.Proof.Part8
import proofs.«900918_g7700000000000919_dist_max_ax0_shard0_i_m2048_n1024_v7x_i8_bf16_1_alg».proof.Proof.Part9

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (K : Dev nD × CK → ℕ) (c : Dev nD) : sProp 𝕄 :=
  iprop((ghost m K c ∗ creds c ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

set_option maxHeartbeats 6400000 in
set_option maxRecDepth 8000 in
/-- The body on device `c`, from `bodyPre` to `bodyPost`, one rule per effect in program order. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  unfold bodyPre ghost linear payToks creds
  rw [bigSep_CK]; simp only [bigSep_fin7]; rw [bigSep_devs c]
  iintro ⟨⟨⟨⟨#Hrec, ⟨HatB, ⟨HatS0, HatS1, HatS2, HatS3, HatS4, HatS5, HatS6⟩, ⟨HatRc, HatR0, HatR1, HatR2, HatR3, HatR4, HatR5, HatR6⟩⟩, ⟨⟨Htb0, Htr0, Hts0⟩, ⟨Htb1, Htr1, Hts1⟩, ⟨Htb2, Htr2, Hts2⟩, ⟨Htb3, Htr3, Hts3⟩, ⟨Htb4, Htr4, Hts4⟩, ⟨Htb5, Htr5, Hts5⟩, ⟨Htb6, Htr6, Hts6⟩⟩⟩, ⟨HcB, HcR0, HcR1, HcR2, HcR3, HcR4, HcR5, HcR6⟩, #Hlev, Hscr⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hs := (open_scr c) $$ Hscr
  icases Hs with ⟨%f0, Hown, Hs0, Hs1, Hs2, Hs3, Hs4, Hs5, Hs6⟩
  -- parts 1 and 2 compute indices only
  rw [wp_bind]
  iapply (part1_spec c)
  iintro %v2 %v13 %v24 %v35
  dsimp only
  rw [wp_bind]
  iapply (part2_spec c v2)
  iintro %a2
  obtain ⟨v46, v57, v68, v69, c8, v70, c1⟩ := a2
  dsimp only
  -- part 3: the signals, the block loaded
  rw [wp_bind]
  iapply (part3_spec m K c W f0 v13 v24 v35 v46 v57 v68 v69 c8 v70 c1)
  isplitr; · iexact Hrec
  isplitl [HO]; · iexact HO
  isplitl [Htb0]; · iexact Htb0
  isplitl [Htb1]; · iexact Htb1
  isplitl [Htb2]; · iexact Htb2
  isplitl [Htb3]; · iexact Htb3
  isplitl [Htb4]; · iexact Htb4
  isplitl [Htb5]; · iexact Htb5
  isplitl [Htb6]; · iexact Htb6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hx]; · iexact Hx
  iintro %v79 ⟨⟨%W3, HO⟩, Hx⟩
  dsimp only
  -- part 4: the own row stored, the wait for the peers, copies 0 and 1
  rw [wp_bind]
  iapply (part4_spec m K c W3 f0 v2 v13 v24 v35)
  isplitr; · iexact Hrec
  isplitr; · iexact Hlev
  isplitl [HO]; · iexact HO
  isplitl [HcB]; · iexact HcB
  isplitl [HatB]; · iexact HatB
  isplitl [Hown]; · iexact Hown
  isplitl [Hts0]; · iexact Hts0
  isplitl [Htr0]; · iexact Htr0
  isplitl [Hts1]; · iexact Hts1
  isplitl [Htr1]; · iexact Htr1
  iintro ⟨⟨%W4, HO⟩, Hown, HcS0, HcS1, Hd2, Hd3, Hd4, Hd5, Hd6⟩
  -- part 5: copies 2 to 5
  rw [wp_bind]
  iapply (part5_spec m K c W4 v46 v57 v68)
  isplitr; · iexact Hrec
  isplitl [HO]; · iexact HO
  isplitl [Hown]; · iexact Hown
  isplitl [Hd2]; · iexact Hd2
  isplitl [Hd3]; · iexact Hd3
  isplitl [Hd4]; · iexact Hd4
  isplitl [Hd5]; · iexact Hd5
  isplitl [Hts2]; · iexact Hts2
  isplitl [Hts3]; · iexact Hts3
  isplitl [Hts4]; · iexact Hts4
  isplitl [Hts5]; · iexact Hts5
  isplitl [Htr2]; · iexact Htr2
  isplitl [Htr3]; · iexact Htr3
  isplitl [Htr4]; · iexact Htr4
  isplitl [Htr5]; · iexact Htr5
  iintro ⟨⟨%W5, HO⟩, Hown, HcS2, HcS3, HcS4, HcS5⟩
  -- part 6: copy 6, the own row and peer 0's read
  rw [wp_bind]
  iapply (part6_spec m K c W5 v2 v13 v24 v79)
  isplitr; · iexact Hrec
  isplitl [HO]; · iexact HO
  isplitl [Hown]; · iexact Hown
  isplitl [Hd6]; · iexact Hd6
  isplitl [Hts6]; · iexact Hts6
  isplitl [Htr6]; · iexact Htr6
  isplitl [HcR0]; · iexact HcR0
  isplitl [HatR0]; · iexact HatR0
  iintro ⟨⟨%W6, HO⟩, Hown, HcS6, HzR0, Hl0⟩
  -- part 7: peers 1, 2, 3
  rw [wp_bind]
  iapply (part7_spec m K c W6 v24 v35 v46 v57 _)
  isplitr; · iexact Hrec
  isplitl [HO]; · iexact HO
  isplitl [HcR1]; · iexact HcR1
  isplitl [HcR2]; · iexact HcR2
  isplitl [HcR3]; · iexact HcR3
  isplitl [HatR1]; · iexact HatR1
  isplitl [HatR2]; · iexact HatR2
  isplitl [HatR3]; · iexact HatR3
  iintro ⟨⟨%W7, HO⟩, HzR1, HzR2, HzR3, Hl1, Hl2, Hl3⟩
  -- part 8: peers 4, 5, 6
  rw [wp_bind]
  iapply (part8_spec m K c W7 v57 v68 v79 _ g1)
  isplitr; · iexact Hrec
  isplitl [HO]; · iexact HO
  isplitl [HcR4]; · iexact HcR4
  isplitl [HcR5]; · iexact HcR5
  isplitl [HcR6]; · iexact HcR6
  isplitl [HatR4]; · iexact HatR4
  isplitl [HatR5]; · iexact HatR5
  isplitl [HatR6]; · iexact HatR6
  isplitl [Hout]; · iexact Hout
  iintro ⟨⟨%W8, HO⟩, HzR4, HzR5, HzR6, Hl4, Hl5, Hl6, Hout⟩
  -- part 9: the result stored, the ends of copies 0 to 3
  rw [wp_bind]
  iapply (part9_spec m K c W8 _ g1)
  isplitr; · iexact Hrec
  isplitl [HO]; · iexact HO
  isplitl [Hout]; · iexact Hout
  isplitl [HcS0]; · iexact HcS0
  isplitl [HcS1]; · iexact HcS1
  isplitl [HcS2]; · iexact HcS2
  isplitl [HcS3]; · iexact HcS3
  isplitl [HatS0]; · iexact HatS0
  isplitl [HatS1]; · iexact HatS1
  isplitl [HatS2]; · iexact HatS2
  isplitl [HatS3]; · iexact HatS3
  iintro ⟨⟨%W9, HO⟩, Hout, HzS0, HzS1, HzS2, HzS3, Hsh0, Hsh1, Hsh2, Hsh3⟩
  -- the ends of copies 4, 5, 6
  simp only [Prog.lift, Prog.bind_op, Prog.bind_ret, Prog.pure_eq_ret, wp_ret]
  iapply (send_wait_step' m K c 4 _ (k0_off3_eq c) _ _) $$ [HcS4 HO HatS4]
  · isplitr; · iexact Hrec
    isplitl [HcS4]; · iexact HcS4
    isplitl [HO]; · iexact HO
    iexact HatS4
  iintro ⟨HO, HzS4, Hsh4⟩
  iapply (send_wait_step' m K c 5 _ (k0_off3_eq c) _ _) $$ [HcS5 HO HatS5]
  · isplitr; · iexact Hrec
    isplitl [HcS5]; · iexact HcS5
    isplitl [HO]; · iexact HO
    iexact HatS5
  iintro ⟨HO, HzS5, Hsh5⟩
  iapply (send_wait_step' m K c 6 _ (k0_off3_eq c) _ _) $$ [HcS6 HO HatS6]
  · isplitr; · iexact Hrec
    isplitl [HcS6]; · iexact HcS6
    isplitl [HO]; · iexact HO
    iexact HatS6
  iintro ⟨HO, HzS6, Hsh6⟩
  rw [wp_ret]
  -- the receive cell no peer pays is closed as it stands
  ihave #HIrc := (rec_inv m K (c, .inr (.inr c))) $$ Hrec
  imod (Rounds.cell_close ER (sched m) (Set.mem_univ (K (c, .inr (.inr c)))) (fun h => h) (R := 0) (duties_recv_self_all m c)) $$ [HatRc] with HzRc
  · isplitr; · iexact HIrc
    iexact HatRc
  imodintro
  iapply Hk
  unfold bodyPost Dat.owesAt Pipeline.owesWithin
  rw [show (dats m ρ 0 c).owed t₀.succ = 0 from rfl]
  isplitl [Hown Hsh0 Hsh1 Hsh2 Hsh3 Hsh4 Hsh5 Hsh6 Hl0 Hl1 Hl2 Hl3 Hl4 Hl5 Hl6 HzS0 HzS1 HzS2 HzS3 HzS4 HzS5 HzS6 HzRc HzR0 HzR1 HzR2 HzR3 HzR4 HzR5 HzR6]
  · ihave Hfull := (join_shares c (slotSet c) (rowBuf m c)) $$ [Hown Hsh0 Hsh1 Hsh2 Hsh3 Hsh4 Hsh5 Hsh6]
    · isplitl [Hown]; · iexact Hown
      isplitl [Hsh0]; · iexact Hsh0
      isplitl [Hsh1]; · iexact Hsh1
      isplitl [Hsh2]; · iexact Hsh2
      isplitl [Hsh3]; · iexact Hsh3
      isplitl [Hsh4]; · iexact Hsh4
      isplitl [Hsh5]; · iexact Hsh5
      iexact Hsh6
    iapply (close_phi1 m c)
    isplitl [Hfull]; · iexact Hfull
    isplitl [Hl0 Hl1 Hl2 Hl3 Hl4 Hl5 Hl6]
    · rw [bigSep_fin7]
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      iexact Hl6
    isplitl [HzS0 HzS1 HzS2 HzS3 HzS4 HzS5 HzS6]
    · rw [bigSep_fin7]
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzRc]; · iexact HzRc
    rw [bigSep_fin7]
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists (insert (SemLoc.dma (sendSem 6), ()) (insert (SemLoc.dma (sendSem 5), ()) (insert (SemLoc.dma (sendSem 4), ()) W9)))
    isplitr; · ipureintro; exact fun _ _ => Or.inl trivial
    iexact HO
  isplitl [Hx]
  · iexists _; isplitr; · (ipureintro; rfl)
    iexact Hx
  iexists _; isplitr; · (ipureintro; rfl)
  iexact Hout

/-! ## The library's body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.LaunchGhost.lean ====
/-
  The ghost state of the eight-device column maximum at launch.

  The protocol's cells are every device's sixteen. The launch mints, per device and per offset `k`, the token of
  its barrier cell's duty `k`, of its send cell `k`'s duty and of the duty of its receive cell for its peer `k`. One
  update allocates every cell's invariant, for all devices at once (a barrier cell's invariant is opened by seven other
  devices). Then the tokens are dealt to the devices that pay them: the barrier token `(p, k)` to the device whose
  `k`-th peer is `p`; the token of `p`'s receive cell for `j` to `j`, which is `p`'s peer `k` exactly when `p` is `j`'s peer
  `6 - k`.
-/
import proofs.«900918_g7700000000000919_dist_max_ax0_shard0_i_m2048_n1024_v7x_i8_bf16_1_alg».proof.Proof.OwnSems

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells and tokens -/

theorem kcell_injective : Function.Injective (kcell : Dev nD × CK → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

def protoCells : Finset (GSem nD τ sig) := Finset.univ.map ⟨kcell, kcell_injective⟩

/-- The duties minted per device: by offset, the barrier's, the send cell's, the receive cell's. -/
abbrev TK : Type := Fin 7 ⊕ Fin 7 ⊕ Fin 7

/-- A device's own cells' duty tokens as minted. -/
abbrev tokOf : Dev nD × TK → GSem nD τ sig × ℕ × Fin 7
  | (c, .inl k) => (kcell (c, .inl ()), 0, k)
  | (c, .inr (.inl k)) => (kcell (c, .inr (.inl k)), 0, 0)
  | (c, .inr (.inr k)) => (kcell (c, .inr (.inr (peer c k))), 0, 0)

theorem tok_eq {c c' : Dev nD} {x x' : CK} {r r' : ℕ} {d d' : Fin 7}
    (h : ((kcell (c, x), r, d) : GSem nD τ sig × ℕ × Fin 7) = (kcell (c', x'), r', d')) : c = c' ∧ x = x' ∧ d = d' := by
  obtain ⟨h1, h2⟩ := Prod.mk.inj (kcell_injective (congrArg Prod.fst h))
  exact ⟨h1, h2, congrArg (fun y : GSem nD τ sig × ℕ × Fin 7 => y.2.2) h⟩

theorem tokOf_injective : Function.Injective tokOf := by
  rintro ⟨c, k | k | k⟩ ⟨c', k' | k' | k'⟩ h
  · obtain ⟨rfl, -, rfl⟩ := tok_eq (x := .inl ()) (x' := .inl ()) h; rfl
  · obtain ⟨-, hx, -⟩ := tok_eq (x := .inl ()) (x' := .inr (.inl k')) h; cases hx
  · obtain ⟨-, hx, -⟩ := tok_eq (x := .inl ()) (x' := .inr (.inr (peer c' k'))) h; cases hx
  · obtain ⟨-, hx, -⟩ := tok_eq (x := .inr (.inl k)) (x' := .inl ()) h; cases hx
  · obtain ⟨rfl, hx, -⟩ := tok_eq (x := .inr (.inl k)) (x' := .inr (.inl k')) h; cases hx; rfl
  · obtain ⟨-, hx, -⟩ := tok_eq (x := .inr (.inl k)) (x' := .inr (.inr (peer c' k'))) h; cases hx
  · obtain ⟨-, hx, -⟩ := tok_eq (x := .inr (.inr (peer c k))) (x' := .inl ()) h; cases hx
  · obtain ⟨-, hx, -⟩ := tok_eq (x := .inr (.inr (peer c k))) (x' := .inr (.inl k')) h; cases hx
  · obtain ⟨rfl, hx, -⟩ := tok_eq (x := .inr (.inr (peer c k))) (x' := .inr (.inr (peer c' k'))) h
    have hk : k = k' := peer_inj c (Sum.inr.inj (Sum.inr.inj hx))
    subst hk; rfl

def protoToks : Finset (GSem nD τ sig × ℕ × Fin 7) := Finset.univ.map ⟨tokOf, tokOf_injective⟩

/-- The launch element: the pipeline library's, and the protocol's. -/
def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ bigSep Finset.univ fun k : Fin 7 => dutyTok ER (recvCell c (peer c k)) 0 0)

/-- What the launch element deals device `c`. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0)) ∗ toks c)

/-- What the global step makes of it. -/
def G' (c : Dev nD) : sProp 𝕄 := iprop(∃ K, ghost m K c)

omit [FloatOps F] in
theorem bigSep_kinds (Φ : CK → sProp 𝕄) :
    bigSep Finset.univ Φ = iprop(Φ (.inl ()) ∗ (bigSep Finset.univ fun k : Fin 7 => Φ (.inr (.inl k))) ∗ bigSep Finset.univ fun j : Dev nD => Φ (.inr (.inr j))) := by
  rw [bigSep_univ_sum, bigSep_univ_sum, bigSep_univ_of_subsingleton ()]; rfl

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun x : CK => Φ (kcell (c, x)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, cell by cell -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_kinds]
  iintro ⟨⟨HS, HV⟩, HB⟩
  isplitl [HB]; · iexact HB
  isplitl [HS] <;> iassumption

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- Offset `k` as a permutation of the devices. -/
def peerE (k : Fin 7) : Dev nD ≃ Dev nD := ⟨fun c => peer c k, fun p => rpeer p k, fun c => rpeer_peer c k, fun p => peer_rpeer p k⟩

/-- The offset from the other end: device `c` is the peer `6 - k` of its peer `k`. -/
def rev (k : Fin 7) : Fin 7 := ⟨6 - k.val, by omega⟩
theorem peer_peer_rev (c : Dev nD) (k : Fin 7) : peer (peer c k) (rev k) = c := by revert c k; decide
theorem rev_rev (k : Fin 7) : rev (rev k) = k := by revert k; decide
theorem peer_rev (c : Dev nD) (k : Fin 7) : peer c (rev k) = rpeer c k := by revert c k; decide

/-- A device and an offset, seen from the peer's end. -/
def swapE : Dev nD × Fin 7 ≃ Dev nD × Fin 7 :=
  ⟨fun x => (peer x.1 x.2, rev x.2), fun x => (peer x.1 x.2, rev x.2),
    fun x => by obtain ⟨c, k⟩ := x; show (peer (peer c k) (rev k), rev (rev k)) = (c, k); rw [peer_peer_rev, rev_rev],
    fun x => by obtain ⟨c, k⟩ := x; show (peer (peer c k) (rev k), rev (rev k)) = (c, k); rw [peer_peer_rev, rev_rev]⟩

omit [FloatOps F] in
/-- A product over devices and offsets, reindexed by the device the offset leads to. -/
theorem bar_around (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [bigSep_univ_comm Φ, bigSep_univ_comm fun (c : Dev nD) (k : Fin 7) => Φ (peer c k) k]
  exact bigSep_congr fun k _ => bigSep_univ_equiv (peerE k) fun p => Φ p k

omit [FloatOps F] in
/-- A product over ordered pairs (device, one of its peers), reindexed from the peer's end. -/
theorem recv_around (Ψ : Dev nD → Dev nD → sProp 𝕄) :
    (bigSep Finset.univ fun c : Dev nD => bigSep Finset.univ fun k : Fin 7 => Ψ c (peer c k))
      = bigSep Finset.univ fun c : Dev nD => bigSep Finset.univ fun k : Fin 7 => Ψ (peer c k) c :=
  calc (bigSep Finset.univ fun c : Dev nD => bigSep Finset.univ fun k : Fin 7 => Ψ c (peer c k))
      = bigSep Finset.univ fun x : Dev nD × Fin 7 => Ψ x.1 (peer x.1 x.2) := (bigSep_univ_prod fun x : Dev nD × Fin 7 => Ψ x.1 (peer x.1 x.2)).symm
    _ = bigSep Finset.univ fun x : Dev nD × Fin 7 => Ψ (swapE x).1 (peer (swapE x).1 (swapE x).2) := bigSep_univ_equiv swapE _
    _ = bigSep Finset.univ fun x : Dev nD × Fin 7 => Ψ (peer x.1 x.2) x.1 :=
        bigSep_congr fun x _ => by
          show Ψ (peer x.1 x.2) (peer (peer x.1 x.2) (rev x.2)) = _
          rw [peer_peer_rev]
    _ = bigSep Finset.univ fun c : Dev nD => bigSep Finset.univ fun k : Fin 7 => Ψ (peer c k) c := bigSep_univ_prod fun x : Dev nD × Fin 7 => Ψ (peer x.1 x.2) x.1

omit [FloatOps F] in
/-- Every minted token reaches the device that pays it. -/
theorem toks_around : (bigSep Finset.univ fun c : Dev nD => (toks c : sProp 𝕄)) ⊢ bigSep Finset.univ fun c : Dev nD => payToks c := by
  unfold toks payToks
  simp only [bigSep_sep']
  rw [bar_around (fun p k => (dutyTok ER (barCell p) 0 k : sProp 𝕄)), recv_around (fun p j => (dutyTok ER (recvCell p j) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.LaunchCred.lean ====
/-
  The credit the launch deals each device of the eight-device column maximum.

  A device owes, per offset `k`, one unit at its peer `k`'s barrier cell and one copy's credit at that peer's receive
  cell for it. Summed over the devices, a barrier cell is owed seven units (one by each other device) and device `c`'s
  receive cell for `j` one copy's credit (by `j`): what `c` waits for.
-/
import proofs.«900918_g7700000000000919_dist_max_ax0_shard0_i_m2048_n1024_v7x_i8_bf16_1_alg».proof.Proof.LaunchGhost
import Mathlib.Algebra.BigOperators.Fin
import Mathlib.Tactic.Abel

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes, as a sum over the offsets -/

theorem O₀_sum (c : Dev nD) : O₀ c = ∑ k : Fin 7, (rT c k + bT c k) := by
  have h : O₀ c = 0 + rT c 6 + rT c 5 + rT c 4 + rT c 3 + rT c 2 + rT c 1 + rT c 0
      + bT c 6 + bT c 5 + bT c 4 + bT c 3 + bT c 2 + bT c 1 + bT c 0 := rfl
  rw [h, Fin.sum_univ_seven, zero_add]
  abel

/-- Seven units at one cell. -/
theorem sum_units (g : GSem nD τ sig) : (∑ _k : Fin 7, tallyAt g () 1 : CellTallies nD τ sig Unit) = tallyAt g () 7 := by
  rw [Fin.sum_univ_seven, tallyAt_add, tallyAt_add, tallyAt_add, tallyAt_add, tallyAt_add, tallyAt_add]

/-! ## The launch credit, offset by offset -/

omit [FloatOps F] in
/-- The units owed at offset `k` reach each device's barrier cell: one, from the device whose peer `k` it is. -/
theorem launchCred_bar (k : Fin 7) (c : Dev nD) :
    (Pipeline.launchCred (fun d : Dev nD => bT d k) c : sProp 𝕄) ⊢ cred (tallyAt (barCell c) () 1) :=
  Pipeline.launchCred_tallyAt (SemLoc.reg barS) (fun d => peer d k) (fun p => rpeer p k) (fun p => peer_rpeer p k) (fun d => rpeer_peer d k) () 1 c

omit [FloatOps F] in
/-- The copy credits owed at offset `k` reach each device's receive cell for the device whose peer `k` it is. -/
theorem launchCred_recv (k : Fin 7) (c : Dev nD) :
    (Pipeline.launchCred (fun d : Dev nD => rT d k) c : sProp 𝕄) ⊢ cred (tallyAt (recvCell c (rpeer c k)) () N) := by
  refine (Pipeline.launchCred_elim _ c (SemLoc.dma (recvSem (rpeer c k)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ rpeer c k → rT d k (recvCell c (rpeer c k)) = 0 := fun d _ hd => by
    unfold rT
    refine tallyAt_ne_cell (fun h => hd ?_) () N
    have h3 : c = peer d k := congrArg (fun g : GSem nD τ sig => g.1.1) h
    rw [h3, rpeer_peer]
  rw [Finset.sum_eq_single (rpeer c k) h0 (fun h => absurd (Finset.mem_univ _) h)]
  unfold rT tallyAt tallyOn
  rw [peer_rpeer, Pi.single_eq_same]

/-! ## The credit a device starts with -/

def revE : Fin 7 ≃ Fin 7 := ⟨rev, rev, rev_rev, rev_rev⟩

omit [FloatOps F] in
theorem creds_intro (c : Dev nD) : (Pipeline.launchCred O₀ c : sProp 𝕄) ⊢ creds c := by
  have hO : (O₀ : Dev nD → CellTallies nD τ sig Unit) = fun d => ∑ k ∈ (Finset.univ : Finset (Fin 7)), (rT d k + bT d k) := funext O₀_sum
  have hk (k : Fin 7) : (Pipeline.launchCred (fun d : Dev nD => rT d k + bT d k) c : sProp 𝕄)
      ⊢ iprop(cred (tallyAt (recvCell c (rpeer c k)) () N) ∗ cred (tallyAt (barCell c) () 1)) := by
    rw [Pipeline.launchCred_add]
    exact BI.sep_mono (launchCred_recv k c) (launchCred_bar k c)
  have hbars : (bigSep Finset.univ fun _ : Fin 7 => (cred (tallyAt (barCell c) () 1) : sProp 𝕄)) = cred (tallyAt (barCell c) () 7) := by
    rw [← Pipeline.cred_finsetSum, sum_units]
  have hrecvs : (bigSep Finset.univ fun k : Fin 7 => (cred (tallyAt (recvCell c (rpeer c k)) () N) : sProp 𝕄))
      = bigSep Finset.univ fun k : Fin 7 => cred (tallyAt (recvCell c (peer c k)) () N) := by
    rw [bigSep_univ_equiv revE fun k : Fin 7 => (cred (tallyAt (recvCell c (peer c k)) () N) : sProp 𝕄)]
    exact bigSep_congr fun k _ => by
      show (cred (tallyAt (recvCell c (rpeer c k)) () N) : sProp 𝕄) = cred (tallyAt (recvCell c (peer c (rev k))) () N)
      rw [peer_rev]
  have hmid : (bigSep Finset.univ fun k : Fin 7 => iprop(cred (tallyAt (recvCell c (rpeer c k)) () N) ∗ cred (tallyAt (barCell c) () 1)) : sProp 𝕄)
      = iprop((bigSep Finset.univ fun k : Fin 7 => cred (tallyAt (recvCell c (peer c k)) () N)) ∗ cred (tallyAt (barCell c) () 7)) := by
    rw [bigSep_sep', hbars, hrecvs]
  have hfin : iprop((bigSep Finset.univ fun k : Fin 7 => cred (tallyAt (recvCell c (peer c k)) () N)) ∗ cred (tallyAt (barCell c) () 7))
      ⊢ (creds c : sProp 𝕄) := by
    unfold creds
    iintro ⟨HR, HB⟩
    isplitl [HB] <;> iassumption
  rw [hO, Pipeline.launchCred_sum Finset.univ (fun (k : Fin 7) (d : Dev nD) => rT d k + bT d k) c]
  exact ((bigSep_mono fun k _ => hk k).trans (Entails.of_eq hmid)).trans hfin

end Cert.KernelIdealProof

end
-- ==== Proof.Launch.lean ====
/-
  The launch of the eight-device column maximum.

  From any memory with every counter at zero, the eight kernels run to completion under every weakly fair schedule, given
  the one obligation about a single device's body. The launch deals each device its ghost state, its credit and the
  level facts; the body's pre- and postcondition are joined to the pipeline's scoped and unscoped rest; and at the end
  each device's argument array is unchanged and its result array holds the folded row.
-/
import proofs.«900918_g7700000000000919_dist_max_ax0_shard0_i_m2048_n1024_v7x_i8_bf16_1_alg».proof.Proof.Levels
import proofs.«900918_g7700000000000919_dist_max_ax0_shard0_i_m2048_n1024_v7x_i8_bf16_1_alg».proof.Proof.LaunchCred

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data's small facts -/

theorem ownSemFacts : Pipeline.OwnSemFacts cfg0.spec osem := by decide

theorem share_eq (c : Dev nD) (w : Fin cfg0.W) : (dats m ρ 0 c).share w = fullShare := by unfold Dat.share; split <;> rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scrAny
  iintro ⟨Hr, Hz⟩
  isplitr; · iempintro
  isplitl [Hz] <;> iassumption

/-- The pipeline's own waits are on the staging semaphores: no protocol cell, so at level 0. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (Or.inl (kind?_none _ (by fin_cases w <;> fin_cases s <;> decide))) _ (by
      rcases t with ⟨_ | _, ht⟩
      · exact Or.inl rfl
      · exact Or.inr rfl)

/-! ## The run -/

/-- Device `c`'s window arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of eight devices, for any float values, from any memory with zero counters: given the obligation about
    one device's body, every weakly fair execution of the program terminates, and every final state has each device's
    window arrays at the computed contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run: the launch contents overwritten, at the one point, by the folded row. -/
theorem finalA_out_eq (c : Dev nD) :
    finalA m ρ c (1 : Fin 2)
      = (win0_1.blk t0_0).view.write (Elt F) (m ((c : Thread nD τ).loc main_v1)) (outAt m c) Finset.univ := by
  have h := (dats (F := F) m ρ 0 c).arrAt_succ (1 : Fin 2) t0_0
  rw [flush0_1 t0_0, if_pos rfl] at h
  exact h

/-- The result array after the run, read as the window's block, is the folded row. -/
theorem finalA_out_read (c : Dev nD) : (win0_1.blk t0_0).view.read (Elt F) (finalA m ρ c (1 : Fin 2)) = outAt m c := by
  rw [finalA_out_eq]
  exact View.read_write_univ _ _

/-- The result array after the run is the folded row: the window's block is the whole array, at offset zero. -/
theorem finalA_out (c : Dev nD) : finalA m ρ c (1 : Fin 2) = outAt m c := by
  rw [finalA_out_eq]
  exact Memref.write_access_unit_zero_univ (Elt F) main_v1 (off := fun a => win0_1.index t0_0 a * win0_1.size a)
    (funext fun a => Nat.zero_mul _) _ _ _

end Cert.KernelIdealProof

end
-- ==== Proof.Bits.Contents.lean ====
/-
  The pure contents of the eight-device column maximum.

  Device `c` holds rows [2048 c, 2048 c + 2048) of a 16384 x 1024 array. It takes the maximum of every column of its
  block (one row of 1024 numbers), every device sends its row to every other device, and each device folds the eight
  rows by `max`, its own first and then those of the devices 1, 2, …, 7 places after it on the ring of eight.
  Here: the ring's peers, a device's block as its staging buffer holds it, its row of column maxima, and the folded
  result — each a pure term of the launch memory, at any float instance.
-/
import proofs.«900918_g7700000000000919_dist_max_ax0_shard0_i_m2048_n1024_v7x_i8_bf16_1_alg».proof.Proof.Gen.Kernel.Skeleton
import proofs.«900918_g7700000000000919_dist_max_ax0_shard0_i_m2048_n1024_v7x_i8_bf16_1_alg».proof.Proof.Gen.Kernel.Launch
import Idealize.ShloMosaic.Lib.Pipeline.Kit

noncomputable section

namespace Cert.KernelProof

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The `k`-th peer of device `c`: the device `k + 1` places after it on the ring of eight. -/
def peer (c : Dev nD) (k : Fin 7) : Dev nD := ⟨(c.val + k.val + 1) % 8, Nat.mod_lt _ (by decide)⟩

/-- The device whose `k`-th peer is `p`: `k + 1` places before it. -/
def rpeer (p : Dev nD) (k : Fin 7) : Dev nD := ⟨(p.val + (7 - k.val)) % 8, Nat.mod_lt _ (by decide)⟩

theorem peer_rpeer (p : Dev nD) (k : Fin 7) : peer (rpeer p k) k = p := by revert p k; decide
theorem rpeer_peer (c : Dev nD) (k : Fin 7) : rpeer (peer c k) k = c := by revert c k; decide
theorem peer_ne (c : Dev nD) (k : Fin 7) : peer c k ≠ c := by revert c k; decide
theorem rpeer_ne (c : Dev nD) (k : Fin 7) : rpeer c k ≠ c := by revert c k; decide
theorem peer_inj (c : Dev nD) : Function.Injective (peer c) := by revert c; decide

/-- Device `c`'s block of the input, as its staging buffer holds it during the kernel: the whole of its argument array. -/
def xstg (c : Dev nD) : (cc0_stg0_0 : Ref sig .tc).ty.Contents (Elt F) :=
  (win0_0.blk t0_0).view.read (Elt F) (m ((c : Thread nD τ).loc main_arg0))

/-- The column maxima of device `p`'s block, as the one row the kernel stores in slot `p` of the exchange buffer. -/
def row (p : Dev nD) : FVec F S1x1x1024 .f32 := k0_pay2 (k0_pay1 (xstg m p))

/-- The kernel's result on device `c`: its own row folded by `max` with the rows of its seven peers, in ring order. -/
def outAt (c : Dev nD) : (cc0_stg1_0 : Ref sig .tc).ty.Contents (Elt F) :=
  k0_pay5 (k0_pay4 (k0_pay3 (row m c) (row m (peer c 0))) (row m (peer c 1)) (row m (peer c 2)) (row m (peer c 3)))
    (row m (peer c 4)) (row m (peer c 5)) (row m (peer c 6))

end Cert.KernelProof

end
-- ==== Proof.Bits.Protocol.lean ====
/-
  The protocol of the eight-device column maximum, under the rounds discipline.

  Every device `c` has one barrier cell, seven send cells and eight receive cells. Round 0 is the only round.
  * Barrier cell of `p`: seven duties, one per offset `k`; duty `k` is one unit, signalled by the device `rpeer p k`
    (the one whose `k`-th peer is `p`), and hands `p` that device's slot `p` of the exchange buffer (at any contents)
    together with the fact that its receive cell `p` has reached round 0: what `p`'s copy into it needs.
  * Send cell `k` of `c`: one duty, the copy's credit; it hands back the share of `c`'s own slot the copy read from.
  * Receive cell `j` of `c` (`j ≠ c`): one duty, the credit of `j`'s copy; it hands `c` its slot `j` holding `j`'s row.
    Receive cell `c` of `c` is never used and has no duty.
  A device owes, at launch, one unit to each peer's barrier cell and one copy's credit to each peer's receive cell; it
  waits on its barrier cell while owing only receive credits, and on its receive and send cells owing nothing:
  barrier cells sit below receive cells, which is the whole deadlock argument.
-/
import proofs.«900918_g7700000000000919_dist_max_ax0_shard0_i_m2048_n1024_v7x_i8_bf16_1_alg».proof.Proof.Bits.Contents
import proofs.«900918_g7700000000000919_dist_max_ax0_shard0_i_m2048_n1024_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the peer offset) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs, slots and cells -/

abbrev xM : Memref sig .tc .vmem S2048x1024 .f32 := Memref.whole cc0_stg0_0
abbrev oM : Memref sig .tc .vmem S1x1024 .f32 := Memref.whole cc0_stg1_0
abbrev rM : Memref sig .tc .vmem S8x1x1024 .f32 := Memref.whole cc0_scratch0

theorem slot_inb (j : Dev nD) : ∀ a, (![j.val, 0, 0] : Fin 3 → Nat) a + S1x1x1024.size a ≤ S8x1x1024.size a := by revert j; decide
theorem send_inb (k : Fin 7) : ∀ a, (![k.val] : Fin 1 → Nat) a + S1.size a ≤ S7.size a := by revert k; decide
theorem recv_inb (j : Dev nD) : ∀ a, (![j.val] : Fin 1 → Nat) a + S1.size a ≤ S8.size a := by revert j; decide

/-- Slot `j` of the exchange buffer as a rectangle of it: row `j`, all 1024 columns. -/
abbrev slotRect (j : Dev nD) : Rect S8x1x1024 := Rect.unit (s := S8x1x1024) ![j.val, 0, 0] S1x1x1024.size (slot_inb j)

/-- Slot `j` as the kernel's copies address it: the rectangle, squeezed to one row of 1024. -/
abbrev slotM (j : Dev nD) : Memref sig .tc .vmem S1x1024 .f32 :=
  ((rM : Memref sig .tc .vmem S8x1x1024 .f32).slice (slotRect j) (fun _ => rfl)).squeeze S1x1024 squeezes_S1x1x1024_S1x1024

/-- Slot `j` as the kernel's loads and stores address it. -/
abbrev slotA (j : Dev nD) : View sig .tc .vmem S1x1x1024 .f32 := (rM : Memref sig .tc .vmem S8x1x1024 .f32).access (slotRect j)

/-- The elements of the exchange buffer that make up slot `j`. -/
def slotSet (j : Dev nD) : Finset ((cc0_scratch0 : Ref sig .tc).ty.Idx) := (slotA j).set

/-- The runtime's barrier semaphore (not scoped), and the kernel's send and receive DMA semaphores (scoped scratch). -/
abbrev barS : Sem sig := (SemArray.scalar (sig.barrier 0 rfl) : Sems sig S_).sem
abbrev sendSem (k : Fin 7) : DmaSem sig :=
  ((cc0_scratch1.slice (Rect.unit (s := S7) ![k.val] S1.size (send_inb k))).squeeze S_ squeezes_S1_S_ : DmaSems sig S_).sem
abbrev recvSem (j : Dev nD) : DmaSem sig :=
  ((cc0_scratch2.slice (Rect.unit (s := S8) ![j.val] S1.size (recv_inb j))).squeeze S_ squeezes_S1_S_ : DmaSems sig S_).sem

/-- The kinds of a device's protocol cells: its barrier cell, send cell `k`, receive cell `j`. -/
abbrev CK : Type := Unit ⊕ Fin 7 ⊕ Dev nD

abbrev csem : CK → SemLoc sig
  | .inl _ => .reg barS
  | .inr (.inl k) => .dma (sendSem k)
  | .inr (.inr j) => .dma (recvSem j)

abbrev kcell (ck : Dev nD × CK) : GSem nD τ sig := ((ck.1 : Thread nD τ), csem ck.2)
abbrev barCell (c : Dev nD) : GSem nD τ sig := ((c : Thread nD τ), .reg barS)
abbrev sendCell (c : Dev nD) (k : Fin 7) : GSem nD τ sig := ((c : Thread nD τ), .dma (sendSem k))
abbrev recvCell (c : Dev nD) (j : Dev nD) : GSem nD τ sig := ((c : Thread nD τ), .dma (recvSem j))

theorem csem_injective : Function.Injective csem := by decide

/-- Which protocol cell a semaphore is, if any. -/
def kind? (s : SemLoc sig) : Option CK := if h : ∃ x, csem x = s then some h.choose else none

theorem kind?_csem (x : CK) : kind? (csem x) = some x := by
  unfold kind?
  have h : ∃ y, csem y = csem x := ⟨x, rfl⟩
  rw [dif_pos h]
  exact congrArg some (csem_injective h.choose_spec)

/-- The kernel's OWN (scoped) semaphores, as the launch indexes them: the seven send cells, then the eight receive cells. -/
abbrev osem : Fin 15 → SemLoc sig := fun i =>
  if h : i.val < 7 then .dma (sendSem ⟨i.val, h⟩) else .dma (recvSem ⟨i.val - 7, by have := i.isLt; show i.val - 7 < 8; omega⟩)

/-- The credit of one copy of one row. -/
abbrev N : ℕ := (slotM (0 : Dev nD) : Memref sig .tc .vmem S1x1024 .f32).view.dmaCredit
theorem N_pos : 0 < N := View.dmaCredit_pos _ (by decide)

/-! ## Contents and shares -/

/-- The canonical contents of the exchange buffer whose slot `p` holds device `p`'s row (elsewhere: the launch memory). -/
def rowBuf (p : Dev nD) : (cc0_scratch0 : Ref sig .tc).ty.Contents (Elt F) :=
  (slotA p).write (Elt F) (m ((p : Thread nD τ).loc cc0_scratch0)) (row m p) Finset.univ

/-- The share of its own slot a device still holds after `n` of its copies have been started: halved each time. -/
def shAfter : ℕ → PosShare TreeShare
  | 0 => fullShare
  | n + 1 => (shAfter n).right
/-- The share copy `k` reads its source at. -/
def sendShare (k : Fin 7) : PosShare TreeShare := (shAfter k.val).left

/-- Elements `S` of device `c`'s exchange buffer at share `q` and contents `f`. -/
def scrPts (c : Dev nD) (S : Finset ((cc0_scratch0 : Ref sig .tc).ty.Idx)) (q : PosShare TreeShare)
    (f : (cc0_scratch0 : Ref sig .tc).ty.Contents (Elt F)) : sProp 𝕄 :=
  ((c : Thread nD τ).loc cc0_scratch0) ↦[S]{q} f

omit [FloatOps F] in
instance scrPts_storable (c : Dev nD) (S) (q) (f) : BI.Storable (upEmb : UEmb _ 𝕄) (scrPts (F := F) c S q f) := by unfold scrPts; infer_instance

/-! ## The schedule -/

/-- What the signal of `q = rpeer p k` hands `p`: `q`'s slot `p`, and that `q`'s receive cell `p` has reached round 0. -/
def barPay (p : Dev nD) (k : Fin 7) : sProp 𝕄 :=
  iprop((∃ f, scrPts (rpeer p k) (slotSet p) fullShare f) ∗ reached ER (recvCell (rpeer p k) p) 0)
/-- What the landing of `j`'s copy hands `c`: its slot `j` holding `j`'s row. -/
def recvPay (c j : Dev nD) : sProp 𝕄 := scrPts c (slotSet j) fullShare (rowBuf m j)
/-- What the end of `c`'s copy `k` hands back: the share of its own slot the copy read. -/
def sendPay (c : Dev nD) (k : Fin 7) : sProp 𝕄 := scrPts c (slotSet c) (sendShare k) (rowBuf m c)

/-- One round, round 0. -/
def sched : Rounds.Schedule (GSem nD τ sig) (Fin 7) 𝕄 where
  duties g r := if r = 0 then (match kind? g.2 with
    | some (.inl _) => Finset.univ
    | some (.inr (.inl _)) => {0}
    | some (.inr (.inr j)) => if j = g.1.1 then ∅ else {0}
    | none => ∅) else ∅
  unitless _ := False
  amount g _ _ := match kind? g.2 with
    | some (.inl _) => 1
    | _ => N
  payload g _ d := match kind? g.2 with
    | some (.inl _) => barPay g.1.1 d
    | some (.inr (.inl k)) => sendPay m g.1.1 k
    | some (.inr (.inr j)) => recvPay m g.1.1 j
    | none => iprop(emp)
  amount_pos g _ _ _ := by
    cases kind? g.2 with
    | none => exact N_pos
    | some x => rcases x with _ | _ | _ <;> first | exact Nat.one_pos | exact N_pos

instance sched_payload_storable (g : GSem nD τ sig) (r : ℕ) (d : Fin 7) :
    BI.Storable (upEmb : UEmb _ 𝕄) ((sched (F := F) m).payload g r d) := by
  show BI.Storable upEmb (match kind? g.2 with
    | some (.inl _) => barPay g.1.1 d
    | some (.inr (.inl k)) => sendPay m g.1.1 k
    | some (.inr (.inr j)) => recvPay m g.1.1 j
    | none => iprop(emp))
  unfold barPay sendPay recvPay
  (repeat' split) <;> infer_instance

/-! ## What each device owes at launch; the levels -/

/-- The credit device `c` owes peer `k`'s receive cell `c`, and the unit it owes peer `k`'s barrier cell. -/
def rT (c : Dev nD) (k : Fin 7) : CellTallies nD τ sig Unit := tallyAt (recvCell (peer c k) c) () N
def bT (c : Dev nD) (k : Fin 7) : CellTallies nD τ sig Unit := tallyAt (barCell (peer c k)) () 1

/-- The copies' credits still owed when the last `j` copies are yet to start (copy 0 is peeled first). -/
def ORr (c : Dev nD) : ℕ → CellTallies nD τ sig Unit
  | 0 => 0
  | j + 1 => ORr c j + rT c ⟨6 - j, by omega⟩
/-- All the copies' credits, and the barrier units still owed when the last `j` signals are yet to be sent. -/
def OBr (c : Dev nD) : ℕ → CellTallies nD τ sig Unit
  | 0 => ORr c 7
  | j + 1 => OBr c j + bT c ⟨6 - j, by omega⟩
/-- Everything device `c` owes at launch. -/
def O₀ (c : Dev nD) : CellTallies nD τ sig Unit := OBr c 7

def L (g : GSem nD τ sig) : Finset Unit := if g.1.2 = .tc then {()} else ∅
/-- Barrier cells at 1, receive cells at 2, everything else (staging, send) at 0. -/
def lv (g : GSem nD τ sig) (_ : Unit) : ℕ := match kind? g.2 with
  | some (.inl _) => 1
  | some (.inr (.inr _)) => 2
  | _ => 0

/-! ## The ghost state and the pipeline's proof data -/

/-- All the cells' invariants, under the names `K` the launch allocated them at, and round 0 reached at every cell. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays: per peer its barrier duty and its receive duty, and its own send duty. -/
def payToks (c : Dev nD) : sProp 𝕄 :=
  bigSep Finset.univ fun k : Fin 7 =>
    iprop(dutyTok ER (barCell (peer c k)) 0 k ∗ dutyTok ER (recvCell (peer c k) c) 0 0 ∗ dutyTok ER (sendCell c k) 0 0)
/-- What stays with device `c`: its positions at round 0 of its sixteen cells, and the tokens it pays with. -/
def linear (c : Dev nD) : sProp 𝕄 :=
  iprop((bigSep Finset.univ fun x : CK => atPos ER (kcell (c, x)) 0 ∅ 0) ∗ payToks c)

def ghost (K : Dev nD × CK → ℕ) (c : Dev nD) : sProp 𝕄 := iprop(records m K ∗ linear c)

/-- The credit dealt to device `c` at launch: its barrier's seven units and each peer's copy's credit. -/
def creds (c : Dev nD) : sProp 𝕄 :=
  iprop(cred (tallyAt (barCell c) () 7) ∗ bigSep Finset.univ fun k : Fin 7 => cred (tallyAt (recvCell c (peer c k)) () N))

def start (c : Dev nD) : sProp 𝕄 := iprop((∃ K, ghost m K c) ∗ creds c ∗ levAts L lv)

/-- The exchange buffer whole, at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrAny c)
/-- After the point: the exchange buffer whole again and the fifteen own cells at zero, closed (the barrier cell is the runtime's). -/
def Φ₁ (c : Dev nD) : sProp 𝕄 := iprop(scrAny c ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelProof

end
-- ==== Proof.Bits.Tables.lean ====
/-
  The schedule's tables at the cells of the protocol: which duties round 0 of each cell has, what each is worth,
  what it hands over, and what a wait for a whole round brings.
-/
import proofs.«900918_g7700000000000919_dist_max_ax0_shard0_i_m2048_n1024_v7x_i8_bf16_1_alg».proof.Proof.Bits.Protocol

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c p : Dev nD) (k : Fin 7) (j : Dev nD) (d : Fin 7)

theorem kind_bar : kind? (SemLoc.reg barS : SemLoc sig) = some (.inl ()) := kind?_csem (.inl ())
theorem kind_send : kind? (SemLoc.dma (sendSem k) : SemLoc sig) = some (.inr (.inl k)) := kind?_csem (.inr (.inl k))
theorem kind_recv : kind? (SemLoc.dma (recvSem j) : SemLoc sig) = some (.inr (.inr j)) := kind?_csem (.inr (.inr j))

theorem duties_bar : (sched (F := F) m).duties (barCell c) 0 = Finset.univ := by
  dsimp only [sched]; rw [if_pos rfl, kind_bar]
theorem duties_send : (sched (F := F) m).duties (sendCell c k) 0 = {0} := by
  dsimp only [sched]; rw [if_pos rfl, kind_send]
theorem duties_recv (h : j ≠ c) : (sched (F := F) m).duties (recvCell c j) 0 = {0} := by
  dsimp only [sched]; rw [if_pos rfl, kind_recv]; exact if_neg h
theorem duties_recv_self : (sched (F := F) m).duties (recvCell c c) 0 = ∅ := by
  dsimp only [sched]; rw [if_pos rfl, kind_recv]; exact if_pos rfl
theorem duties_later (g : GSem nD τ sig) : ∀ r, 1 ≤ r → (sched (F := F) m).duties g r = ∅ :=
  fun r hr => by dsimp only [sched]; rw [if_neg (by omega)]

theorem amount_bar : (sched (F := F) m).amount (barCell c) 0 d = 1 := by dsimp only [sched]; rw [kind_bar]
theorem amount_send : (sched (F := F) m).amount (sendCell c k) 0 d = N := by dsimp only [sched]; rw [kind_send]
theorem amount_recv : (sched (F := F) m).amount (recvCell c j) 0 d = N := by dsimp only [sched]; rw [kind_recv]

theorem payload_bar : (sched (F := F) m).payload (barCell c) 0 d = barPay c d := by dsimp only [sched]; rw [kind_bar]
theorem payload_send : (sched (F := F) m).payload (sendCell c k) 0 d = sendPay m c k := by dsimp only [sched]; rw [kind_send]
theorem payload_recv : (sched (F := F) m).payload (recvCell c j) 0 d = recvPay m c j := by dsimp only [sched]; rw [kind_recv]

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv (h : j ≠ c) : (sched (F := F) m).expect (recvCell c j) 0 = N := by
  unfold Schedule.expect Schedule.amountOf; rw [duties_recv m c j h, Finset.sum_singleton, amount_recv]

/-- A wait for the whole of the barrier cell's round brings all seven peers' payloads. -/
theorem rest_bar : bigSep ((sched (F := F) m).duties (barCell c) 0 \ ∅) (fun d => (sched (F := F) m).payload (barCell c) 0 d)
    = bigSep Finset.univ fun d : Fin 7 => barPay (F := F) c d := by
  rw [Finset.sdiff_empty, duties_bar]; exact bigSep_congr fun d _ => payload_bar m c d
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv (h : j ≠ c) : bigSep ((sched (F := F) m).duties (recvCell c j) 0 \ ∅) (fun d => (sched (F := F) m).payload (recvCell c j) 0 d) = recvPay m c j := by
  rw [Finset.sdiff_empty, duties_recv m c j h, bigSep_singleton, payload_recv]

end Tables

end Cert.KernelProof

end
-- ==== Proof.Bits.Mesh.lean ====
/-
  The ring of eight in closed form: the device each signal and each copy of the kernel addresses is the `k`-th peer
  `(c + k + 1) mod 8` of the device `c` that runs it, and the slot and the receive semaphore each wait and load names
  is that peer's. Decided over the eight devices.
-/
import proofs.«900918_g7700000000000919_dist_max_ax0_shard0_i_m2048_n1024_v7x_i8_bf16_1_alg».proof.Proof.Bits.Contents

set_option Elab.async false

namespace Cert.KernelProof

open Cert.Kernel Cert.Kernel.Gen
open Idealize.ShloMosaic Idealize.SL.Sem

theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 0 := by decide +kernel
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel
theorem off4_1_eq : ∀ c : Dev nD, k0_off4 c 1#32 = ![(peer c 0).val] := by decide +kernel
theorem off5_1_eq : ∀ c : Dev nD, k0_off5 c 1#32 = ![(peer c 0).val, 0, 0] := by decide +kernel
theorem off6_1_eq : ∀ c : Dev nD, k0_off6 c 1#32 = ![(peer c 0).val, 0, 0] := by decide +kernel
theorem off4_2_eq : ∀ c : Dev nD, k0_off4 c 2#32 = ![(peer c 1).val] := by decide +kernel
theorem off5_2_eq : ∀ c : Dev nD, k0_off5 c 2#32 = ![(peer c 1).val, 0, 0] := by decide +kernel
theorem off6_2_eq : ∀ c : Dev nD, k0_off6 c 2#32 = ![(peer c 1).val, 0, 0] := by decide +kernel
theorem off4_3_eq : ∀ c : Dev nD, k0_off4 c 3#32 = ![(peer c 2).val] := by decide +kernel
theorem off5_3_eq : ∀ c : Dev nD, k0_off5 c 3#32 = ![(peer c 2).val, 0, 0] := by decide +kernel
theorem off6_3_eq : ∀ c : Dev nD, k0_off6 c 3#32 = ![(peer c 2).val, 0, 0] := by decide +kernel
theorem off4_4_eq : ∀ c : Dev nD, k0_off4 c 4#32 = ![(peer c 3).val] := by decide +kernel
theorem off5_4_eq : ∀ c : Dev nD, k0_off5 c 4#32 = ![(peer c 3).val, 0, 0] := by decide +kernel
theorem off6_4_eq : ∀ c : Dev nD, k0_off6 c 4#32 = ![(peer c 3).val, 0, 0] := by decide +kernel
theorem off4_5_eq : ∀ c : Dev nD, k0_off4 c 5#32 = ![(peer c 4).val] := by decide +kernel
theorem off5_5_eq : ∀ c : Dev nD, k0_off5 c 5#32 = ![(peer c 4).val, 0, 0] := by decide +kernel
theorem off6_5_eq : ∀ c : Dev nD, k0_off6 c 5#32 = ![(peer c 4).val, 0, 0] := by decide +kernel
theorem off4_6_eq : ∀ c : Dev nD, k0_off4 c 6#32 = ![(peer c 5).val] := by decide +kernel
theorem off5_6_eq : ∀ c : Dev nD, k0_off5 c 6#32 = ![(peer c 5).val, 0, 0] := by decide +kernel
theorem off6_6_eq : ∀ c : Dev nD, k0_off6 c 6#32 = ![(peer c 5).val, 0, 0] := by decide +kernel
theorem off4_7_eq : ∀ c : Dev nD, k0_off4 c 7#32 = ![(peer c 6).val] := by decide +kernel
theorem off5_7_eq : ∀ c : Dev nD, k0_off5 c 7#32 = ![(peer c 6).val, 0, 0] := by decide +kernel
theorem off6_7_eq : ∀ c : Dev nD, k0_off6 c 7#32 = ![(peer c 6).val, 0, 0] := by decide +kernel

end Cert.KernelProof
-- ==== Proof.Bits.Slots.lean ====
/-
  The slot algebra of the exchange buffer.

  The exchange buffer is an 8 x 1 x 1024 array; slot j is its row j. Here: the three ways the kernel addresses a slot
  (the rectangle of a load, the view of a store, the squeezed row of a copy) cover the same 1024 elements; the eight
  slots are pairwise disjoint and together are the whole buffer, so a points-to of the buffer splits into the eight
  slots' and eight slots' points-tos join into the buffer's; a store of a device's row, or the landing of a copy of
  it, leaves the slot at the canonical contents; a load of the slot reads the row back; and the share of its own slot
  a device holds halves with every copy it starts.
-/
import proofs.«900918_g7700000000000919_dist_max_ax0_shard0_i_m2048_n1024_v7x_i8_bf16_1_alg».proof.Proof.Bits.Protocol
import Idealize.ShloMosaic.Rules.PointsTo
import Idealize.ShloMosaic.Signature.View
import Idealize.ShloMosaic.Signature.Memref
import Idealize.ShloMosaic.Shape

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Regions -/

/-- The squeezed row of a copy covers the slot's elements: a reshape keeps the element set. -/
theorem slotM_set (j : Dev nD) : (slotM j : Memref sig .tc .vmem S1x1024 .f32).view.set = slotSet j := by
  unfold slotSet
  exact View.set_reshape _ _

/-- An unmasked store through the slot's view touches exactly the slot. -/
theorem slotA_setOn_univ (j : Dev nD) : (slotA j).setOn Finset.univ = slotSet j := rfl

/-- The slot as a set of indices of the buffer: the rectangle's element set. -/
theorem slotSet_eq (j : Dev nD) : slotSet j = (slotRect j).set := by
  unfold slotSet
  exact View.set_slice_whole _ _

/-- A load at the slot's rectangle reads inside the slot. -/
theorem load_sub (j : Dev nD) :
    (rM : Memref sig .tc .vmem S8x1x1024 .f32).view.setOn (slotRect j).toLoadRect.set ⊆ slotSet j := by
  unfold slotSet
  rw [View.set_slice]
  exact Finset.Subset.refl _

/-- Different slots are different rows: their rectangles are separated on the first axis. -/
theorem slotSet_disjoint {j j' : Dev nD} (h : j ≠ j') : Disjoint (slotSet j) (slotSet j') := by
  rw [slotSet_eq, slotSet_eq]
  refine Rect.unit_disjoint (0 : Fin 3) ?_
  have hv : j.val ≠ j'.val := fun e => h (Fin.ext e)
  show j.val + 1 ≤ j'.val ∨ j'.val + 1 ≤ j.val
  omega

/-- Every element of the buffer lies in the slot of its row. -/
theorem slotSet_cover : (Finset.univ : Finset (Dev nD)).biUnion slotSet = Finset.univ := by
  ext i
  simp only [Finset.mem_biUnion, Finset.mem_univ, true_and, iff_true]
  have h0 : (i 0).val < 8 := (i 0).isLt
  refine ⟨(⟨(i 0).val, h0⟩ : Dev nD), ?_⟩
  rw [slotSet_eq, Rect.mem_set_unit]
  intro a
  have ha : (i a).val < S8x1x1024.size a := (i a).isLt
  fin_cases a
  · exact ⟨le_rfl, Nat.lt_succ_self _⟩
  · exact ⟨Nat.zero_le _, by simpa using ha⟩
  · exact ⟨Nat.zero_le _, by simpa using ha⟩

/-! ## The buffer as its eight slots -/

/-- The whole buffer splits into its eight slots, at one contents. -/
theorem scr_split (c : Dev nD) (f : (cc0_scratch0 : Ref sig .tc).ty.Contents (Elt F)) :
    (((c : Thread nD τ).loc cc0_scratch0) ↦{fullShare} f : sProp 𝕄)
      ⊢ bigSep Finset.univ fun j : Dev nD => scrPts c (slotSet j) fullShare f := by
  unfold scrPts
  refine Entails.of_eq ((congrArg (fun S => (((c : Thread nD τ).loc cc0_scratch0) ↦[S]{fullShare} f : sProp 𝕄))
    slotSet_cover.symm).trans ?_)
  exact pointsTo_biUnion (ℓ := (c : Thread nD τ).loc cc0_scratch0) (q := fullShare) (f := f)
    Finset.univ slotSet fun j _ j' _ h => slotSet_disjoint h

/-- Eight slots held at eight contents join into the whole buffer, at some contents. -/
theorem scr_join (c : Dev nD) (fs : Dev nD → (cc0_scratch0 : Ref sig .tc).ty.Contents (Elt F)) :
    (bigSep Finset.univ fun j : Dev nD => scrPts c (slotSet j) fullShare (fs j) : sProp 𝕄) ⊢ scrAny c := by
  unfold scrPts scrAny
  have h := pointsTo_biUnion_join (Ix := Unit) (Val := Elt F) (Name := ℕ) (U := UU) (Lvl := ℕ)
    (ℓ := (c : Thread nD τ).loc cc0_scratch0) (q := fullShare)
    Finset.univ slotSet fs (fs 0) fun j _ j' _ h => slotSet_disjoint h
  iintro H
  ihave H := h $$ H
  icases H with ⟨%g, %hg, H⟩
  iexists g
  iapply (Entails.of_eq (congrArg (fun S => (((c : Thread nD τ).loc cc0_scratch0) ↦[S]{fullShare} g : sProp 𝕄))
    slotSet_cover))
  iexact H

/-! ## Contents -/

/-- A store of a device's row through its slot's view leaves the slot at the canonical contents, whatever was there. -/
theorem store_row (c c' : Dev nD) (q : PosShare TreeShare) (f : (cc0_scratch0 : Ref sig .tc).ty.Contents (Elt F)) :
    scrPts (F := F) c' (slotSet c) q ((slotA c).write (Elt F) f (row m c) Finset.univ)
      = scrPts c' (slotSet c) q (rowBuf m c) := by
  unfold scrPts rowBuf
  refine pointsTo_congr fun i hi => ?_
  have h := congrFun (View.write_eq_piecewise (v := slotA c) (Val := Elt F) f
    (m ((c : Thread nD τ).loc cc0_scratch0)) (row m c) Finset.univ) i
  exact h.trans (Finset.piecewise_eq_of_mem _ _ _ hi)

/-- The landing of a copy of the canonical contents' slot: the slot holds the canonical contents. -/
theorem land_row (c' j : Dev nD) (fd : (cc0_scratch0 : Ref sig .tc).ty.Contents (Elt F)) :
    scrPts (F := F) c' (slotSet j) fullShare
        ((slotM j : Memref sig .tc .vmem S1x1024 .f32).view.write (Elt F) fd
          ((slotM j : Memref sig .tc .vmem S1x1024 .f32).view.read (Elt F) (rowBuf m j)) Finset.univ)
      = scrPts c' (slotSet j) fullShare (rowBuf m j) := by
  unfold scrPts
  refine pointsTo_congr fun i hi => ?_
  rw [View.write_read_eq_piecewise]
  refine Finset.piecewise_eq_of_mem _ _ _ ?_
  rw [View.setOn_univ, slotM_set]
  exact hi

/-- A load of slot p off the canonical contents reads device p's row. -/
theorem read_row (p : Dev nD) :
    (rM : Memref sig .tc .vmem S8x1x1024 .f32).view.readAt (Elt F) (slotRect p).toLoadRect (rowBuf m p) = row m p := by
  unfold rowBuf
  exact View.read_write_univ (v := slotA p) _ _

/-! ## Shares -/

/-- Starting copy n halves the share still held: one half goes with the copy, the other stays. -/
theorem share_split (c : Dev nD) (S : Finset ((cc0_scratch0 : Ref sig .tc).ty.Idx))
    (f : (cc0_scratch0 : Ref sig .tc).ty.Contents (Elt F)) (n : ℕ) (hn : n < 7) :
    (scrPts (F := F) c S (shAfter n) f : sProp 𝕄)
      ⊣⊢ iprop(scrPts c S (sendShare ⟨n, hn⟩) f ∗ scrPts c S (shAfter (n + 1)) f) := by
  unfold scrPts sendShare
  exact pointsTo_share (PosShare.mem_left_op_right (shAfter n))

end Cert.KernelProof

end
-- ==== Proof.Bits.Steps.lean ====
/-
  The steps of one device's body under the protocol, each a rule of the rounds discipline at this kernel's cells and
  slots, generic in the peer offset: the signal to a peer's barrier cell, the copy of the own row into a peer's slot,
  the wait for a peer's row, the wait for a copy's read to end.
-/
import proofs.«900918_g7700000000000919_dist_max_ax0_shard0_i_m2048_n1024_v7x_i8_bf16_1_alg».proof.Proof.Bits.Tables
import proofs.«900918_g7700000000000919_dist_max_ax0_shard0_i_m2048_n1024_v7x_i8_bf16_1_alg».proof.Proof.Bits.Mesh
import proofs.«900918_g7700000000000919_dist_max_ax0_shard0_i_m2048_n1024_v7x_i8_bf16_1_alg».proof.Proof.Bits.Slots

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem inv_at (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

/-! ## The steps of one device's body, each generic in the peer offset -/

/-- The signal to peer `k`'s barrier cell: device `c` pays duty `k` of it, handing over its slot `peer c k` and that
    its receive cell `peer c k` has reached round 0. -/
theorem sig_step (K : Dev nD × CK → ℕ) (c : Dev nD) (k : Fin 7) (O O' : CellTallies nD τ sig Unit) (hO : O' = O + bT c k)
    (W : Waits sig Unit) (f : (cc0_scratch0 : Ref sig .tc).ty.Contents (Elt F))
    {α : Type} {Q : α → sProp 𝕄} {kont : PUnit → Prog (TpuEff nD τ sig (Elt F) Λ₀ .tc) α} :
    iprop(records m K ∗ owes (c : Thread nD τ) O' W ∗ dutyTok ER (barCell (peer c k)) 0 k ∗ scrPts c (slotSet (peer c k)) fullShare f)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (peer c k : Thread nD τ) barS (1#32).toNat) kont) Q) := by
  subst hO
  unfold records
  iintro ⟨⟨#HI, #HR⟩, HO, Htok, Hslot⟩
  iapply (Rounds.wp_signal 𝒱₀ ER (sched m) (c : Thread nD τ) none (dst := (peer c k : Thread nD τ)) (κ := K (peer c k, .inl ()))
      (d := k) (by rw [duties_bar]; exact Finset.mem_univ _) ((amount_bar m (peer c k) k).trans (by decide)) () O rfl)
    $$ [HO Htok Hslot]
  · isplitr; · iapply (inv_at m K (peer c k, .inl ())); iexact HI
    isplitl [HO]; · iexact HO
    isplitl [Htok]; · iexact Htok
    isplitl [Hslot]
    · rw [payload_bar]; unfold barPay; rw [rpeer_peer]
      isplitl [Hslot]; · iexists f; iexact Hslot
      iapply (reached_at (F := F) (c, .inr (.inr (peer c k)))); iexact HR
    · iapply (reached_at (F := F) (peer c k, .inl ())); iexact HR

theorem scrPts_slotM (c j : Dev nD) (q : PosShare TreeShare) (f : (cc0_scratch0 : Ref sig .tc).ty.Contents (Elt F)) :
    scrPts (F := F) c (slotSet j) q f
      = (((slotM j : Memref sig .tc .vmem S1x1024 .f32).view.loc (c : Thread nD τ)) ↦[(slotM j : Memref sig .tc .vmem S1x1024 .f32).view.set]{q} f : sProp 𝕄) := by
  unfold scrPts; rw [slotM_set]

/-- Copy `k`: device `c` sends its row — its own slot, read at the share `sendShare k` — into slot `c` of its `k`-th peer,
    which that peer handed over at the barrier; the landing credits the peer's receive cell `c`, the end of the read
    `c`'s send cell `k`. -/
theorem send_step (K : Dev nD × CK → ℕ) (c : Dev nD) (k : Fin 7) (O O' : CellTallies nD τ sig Unit) (hO : O' = O + rT c k)
    (W : Waits sig Unit) (fn : (cc0_scratch0 : Ref sig .tc).ty.Contents (Elt F))
    {hsc : (slotM c : Memref sig (Dev.tc (peer c k) : Thread nD τ).2.kind .vmem S1x1024 .f32).view.ref.isScScratch = false}
    {hsrc : (slotM c : Memref sig .tc .vmem S1x1024 .f32).view.WordExact} {hdst : (slotM c : Memref sig .tc .vmem S1x1024 .f32).view.WordExact}
    {hsem : DmaTarget.Typed .vmem (.dma (recvSem c)) (.remote (Dev.tc (peer c k) : Thread nD τ) (slotM c : Memref sig .tc .vmem S1x1024 .f32) (.dma (sendSem k)) hsc)}
    {α : Type} {Q : α → sProp 𝕄} {kont : PUnit → Prog (TpuEff nD τ sig (Elt F) Λ₀ .tc) α} :
    iprop(records m K ∗ scrPts c (slotSet c) (sendShare k) (rowBuf m c) ∗ scrPts (peer c k) (slotSet c) fullShare fn
        ∗ owes (c : Thread nD τ) O' W ∗ dutyTok ER (sendCell c k) 0 0 ∗ dutyTok ER (recvCell (peer c k) c) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM c) (.remote (Dev.tc (peer c k) : Thread nD τ) (slotM c) (.dma (sendSem k)) hsc) (.dma (recvSem c)) hsrc hdst hsem) kont) Q) := by
  subst hO
  unfold records
  iintro ⟨⟨#HI, #HR⟩, Hsrc, Hdst, HO, Hts, Htr⟩
  ihave Hsrc' := (Entails.of_eq (scrPts_slotM c c (sendShare k) (rowBuf m c))) $$ Hsrc
  ihave Hdst' := (Entails.of_eq (scrPts_slotM (peer c k) c fullShare fn)) $$ Hdst
  iapply (Rounds.wp_send_pointsTo 𝒱₀ ER (sched m) (c : Thread nD τ) none (c' := (Dev.tc (peer c k) : Thread nD τ))
      (src := (slotM c : Memref sig .tc .vmem S1x1024 .f32)) (dst := (slotM c : Memref sig .tc .vmem S1x1024 .f32))
      (sS := .dma (sendSem k)) (sem := .dma (recvSem c)) (κ₁ := K (c, .inr (.inl k))) (κ₂ := K (peer c k, .inr (.inr c)))
      (r₁ := 0) (r₂ := 0) (d₁ := 0) (d₂ := 0) (q := sendShare k) (fs := rowBuf m c) (fd := fn)
      (by rw [duties_send]; exact Finset.mem_singleton_self _)
      (by rw [duties_recv m (peer c k) c (peer_ne c k).symm]; exact Finset.mem_singleton_self _)
      () () N rfl (amount_send m c k 0) (amount_recv m (peer c k) c 0) O rfl (W := W)
      (by rw [payload_send]; unfold sendPay; rw [scrPts_slotM])
      (by rw [payload_recv]; unfold recvPay; rw [← land_row m (peer c k) c fn, scrPts_slotM]))
    $$ [Hsrc' Hdst' HO Hts Htr]
  · isplitr; · iapply (inv_at m K (c, .inr (.inl k))); iexact HI
    isplitr; · iapply (inv_at m K (peer c k, .inr (.inr c))); iexact HI
    isplitl [Hsrc']; · iexact Hsrc'
    isplitl [Hdst']; · iexact Hdst'
    isplitl [HO]; · iexact HO
    isplitl [Hts]; · iexact Hts
    isplitr; · iapply (reached_at (F := F) (c, .inr (.inl k))); iexact HR
    isplitl [Htr]; · iexact Htr
    iapply (reached_at (F := F) (peer c k, .inr (.inr c))); iexact HR

/-- The wait on receive cell `peer c k`, owing nothing: slot `peer c k` comes back holding that peer's row, and the
    cell, its one round over, is closed at zero. -/
theorem recv_wait_step (K : Dev nD × CK → ℕ) (c : Dev nD) (k : Fin 7) (W : Waits sig Unit)
    {hs : (slotM (peer c k) : Memref sig .tc .vmem S1x1024 .f32).view.WordExact} {hd : (slotM (peer c k) : Memref sig .tc .vmem S1x1024 .f32).view.WordExact}
    {α : Type} {Q : α → sProp 𝕄} {kont : PUnit → Prog (TpuEff nD τ sig (Elt F) Λ₀ .tc) α} :
    iprop(records m K ∗ cred (tallyAt (recvCell c (peer c k)) () N) ∗ owes (c : Thread nD τ) 0 W ∗ atPos ER (recvCell c (peer c k)) 0 ∅ 0)
      ⊢ iprop(((owes (c : Thread nD τ) 0 (insert (SemLoc.dma (recvSem (peer c k)), ()) W) ∗ semVal (recvCell c (peer c k)) 0
              ∗ scrPts c (slotSet (peer c k)) fullShare (rowBuf m (peer c k)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem (peer c k)) (slotM (peer c k)) (slotM (peer c k)) hs hd) kont) Q) := by
  unfold records
  iintro ⟨⟨#HI, #HR⟩, Hc, HO, Hat⟩ Hk
  ihave #HIc := (inv_at m K (c, .inr (.inr (peer c k)))) $$ HI
  iapply (Rounds.wp_wait_rest_token 𝒱₀ ER (sched m) (c : Thread nD τ) none (κ := K (c, .inr (.inr (peer c k))))
      (wpE_waitDma2_eq 𝒱₀ (c : Thread nD τ) none Set.univ) (Set.mem_univ _) () (O := 0) (W := W) (R := 0) (m := 0) (T := ∅)
      (by rw [Nat.zero_add, expect_recv m c (peer c k) (peer_ne c k)])) $$ [Hc HO Hat]
  · isplitr; · iexact HIc
    isplitl [Hc]; · iexact Hc
    isplitl [HO]; · iexact HO
    isplitr; · rw [MayWait_zero]; iempintro
    iexact Hat
  iintro ⟨HO, Hat, -, Hpay⟩
  ihave Hslot := (Entails.of_eq (rest_recv m c (peer c k) (peer_ne c k))) $$ Hpay
  imod (Rounds.cell_close ER (sched m) (Set.mem_univ (K (c, .inr (.inr (peer c k))))) (fun h => h) (R := 0 + 1) (duties_later m (recvCell c (peer c k)))) $$ [Hat] with Hz
  · isplitr; · iexact HIc
    iexact Hat
  iapply Hk
  isplitl [HO]; · iexact HO
  isplitl [Hz]; · iexact Hz
  unfold recvPay; iexact Hslot

/-- The wait on send cell `k`, owing nothing: the share of its own slot copy `k` read comes back, and the cell is closed at zero. -/
theorem send_wait_step (K : Dev nD × CK → ℕ) (c : Dev nD) (k : Fin 7) (W : Waits sig Unit)
    {hs : (slotM c : Memref sig .tc .vmem S1x1024 .f32).view.WordExact} {hd : (slotM c : Memref sig .tc .vmem S1x1024 .f32).view.WordExact}
    {α : Type} {Q : α → sProp 𝕄} {kont : PUnit → Prog (TpuEff nD τ sig (Elt F) Λ₀ .tc) α} :
    iprop(records m K ∗ cred (tallyAt (sendCell c k) () N) ∗ owes (c : Thread nD τ) 0 W ∗ atPos ER (sendCell c k) 0 ∅ 0)
      ⊢ iprop(((owes (c : Thread nD τ) 0 (insert (SemLoc.dma (sendSem k), ()) W) ∗ semVal (sendCell c k) 0
              ∗ scrPts c (slotSet c) (sendShare k) (rowBuf m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem k) (slotM c) (slotM c) hs hd) kont) Q) := by
  unfold records
  iintro ⟨⟨#HI, #HR⟩, Hc, HO, Hat⟩ Hk
  ihave #HIc := (inv_at m K (c, .inr (.inl k))) $$ HI
  iapply (Rounds.wp_wait_rest_token 𝒱₀ ER (sched m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send m c k])) $$ [Hc HO Hat]
  · isplitr; · iexact HIc
    isplitl [Hc]; · iexact Hc
    isplitl [HO]; · iexact HO
    isplitr; · rw [MayWait_zero]; iempintro
    iexact Hat
  iintro ⟨HO, Hat, -, Hpay⟩
  ihave Hslot := (Entails.of_eq (rest_send m c k)) $$ Hpay
  imod (Rounds.cell_close ER (sched m) (Set.mem_univ (K (c, .inr (.inl k)))) (fun h => h) (R := 0 + 1) (duties_later m (sendCell c k))) $$ [Hat] with Hz
  · isplitr; · iexact HIc
    iexact Hat
  iapply Hk
  isplitl [HO]; · iexact HO
  isplitl [Hz]; · iexact Hz
  unfold sendPay; iexact Hslot

/-! ## The same steps as the printed program spells them

The printed program addresses a peer and a slot through its own integer chains (the device of a copy, the offsets of a
slice). Each step is restated over ANY device and offsets equal to the canonical ones, and is the canonical step after
substituting the equations: so that it applies to the program's text as it stands. -/

/-- Slot at offsets `off`, as a copy addresses it. -/
abbrev slotG (off : Fin 3 → Nat) (inb : ∀ a, off a + S1x1x1024.size a ≤ S8x1x1024.size a) : Memref sig .tc .vmem S1x1024 .f32 :=
  ((rM : Memref sig .tc .vmem S8x1x1024 .f32).slice (Rect.unit (s := S8x1x1024) off S1x1x1024.size inb) (fun _ => rfl)).squeeze S1x1024 squeezes_S1x1x1024_S1x1024
/-- Receive semaphore at offset `off`. -/
abbrev recvG (off : Fin 1 → Nat) (inb : ∀ a, off a + S1.size a ≤ S8.size a) : DmaSem sig :=
  ((cc0_scratch2.slice (Rect.unit (s := S8) off S1.size inb)).squeeze S_ squeezes_S1_S_ : DmaSems sig S_).sem

theorem load_sub' (j : Dev nD) (off : Fin 3 → Nat) (hoff : off = ![j.val, 0, 0]) (inb : ∀ a, off a + S1x1x1024.size a ≤ S8x1x1024.size a) :
    (rM : Memref sig .tc .vmem S8x1x1024 .f32).view.setOn (Rect.unit (s := S8x1x1024) off S1x1x1024.size inb).toLoadRect.set ⊆ slotSet j := by
  subst hoff; exact load_sub j
theorem store_sub' (j : Dev nD) (off : Fin 3 → Nat) (hoff : off = ![j.val, 0, 0]) (inb : ∀ a, off a + S1x1x1024.size a ≤ S8x1x1024.size a) :
    ((rM : Memref sig .tc .vmem S8x1x1024 .f32).access (Rect.unit (s := S8x1x1024) off S1x1x1024.size inb)).setOn Finset.univ ⊆ slotSet j := by
  subst hoff; exact (slotA_setOn_univ j).subset
theorem store_row' (c c' : Dev nD) (q : PosShare TreeShare) (f : (cc0_scratch0 : Ref sig .tc).ty.Contents (Elt F))
    (off : Fin 3 → Nat) (hoff : off = ![c.val, 0, 0]) (inb : ∀ a, off a + S1x1x1024.size a ≤ S8x1x1024.size a) :
    scrPts (F := F) c' (slotSet c) q (((rM : Memref sig .tc .vmem S8x1x1024 .f32).access (Rect.unit (s := S8x1x1024) off S1x1x1024.size inb)).write (Elt F) f (row m c) Finset.univ)
      = scrPts c' (slotSet c) q (rowBuf m c) := by
  subst hoff; exact store_row m c c' q f
theorem read_row' (p : Dev nD) (off : Fin 3 → Nat) (hoff : off = ![p.val, 0, 0]) (inb : ∀ a, off a + S1x1x1024.size a ≤ S8x1x1024.size a) :
    (rM : Memref sig .tc .vmem S8x1x1024 .f32).view.readAt (Elt F) (Rect.unit (s := S8x1x1024) off S1x1x1024.size inb).toLoadRect (rowBuf m p) = row m p := by
  subst hoff; exact read_row m p

theorem send_step' (K : Dev nD × CK → ℕ) (c : Dev nD) (k : Fin 7) (n : Dev nD) (hn : n = peer c k)
    (off : Fin 3 → Nat) (hoff : off = ![c.val, 0, 0]) (inb : ∀ a, off a + S1x1x1024.size a ≤ S8x1x1024.size a)
    (off2 : Fin 1 → Nat) (hoff2 : off2 = ![c.val]) (inb2 : ∀ a, off2 a + S1.size a ≤ S8.size a)
    (O O' : CellTallies nD τ sig Unit) (hO : O' = O + rT c k)
    (W : Waits sig Unit) (fn : (cc0_scratch0 : Ref sig .tc).ty.Contents (Elt F))
    {hsc : (slotG off inb : Memref sig (Dev.tc n : Thread nD τ).2.kind .vmem S1x1024 .f32).view.ref.isScScratch = false}
    {hsrc : (slotG off inb : Memref sig .tc .vmem S1x1024 .f32).view.WordExact} {hdst : (slotG off inb : Memref sig .tc .vmem S1x1024 .f32).view.WordExact}
    {hsem : DmaTarget.Typed .vmem (.dma (recvG off2 inb2)) (.remote (Dev.tc n : Thread nD τ) (slotG off inb : Memref sig .tc .vmem S1x1024 .f32) (.dma (sendSem k)) hsc)}
    {α : Type} {Q : α → sProp 𝕄} {kont : PUnit → Prog (TpuEff nD τ sig (Elt F) Λ₀ .tc) α} :
    iprop(records m K ∗ scrPts c (slotSet c) (sendShare k) (rowBuf m c) ∗ scrPts (peer c k) (slotSet c) fullShare fn
        ∗ owes (c : Thread nD τ) O' W ∗ dutyTok ER (sendCell c k) 0 0 ∗ dutyTok ER (recvCell (peer c k) c) 0 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotG off inb) (.remote (Dev.tc n : Thread nD τ) (slotG off inb) (.dma (sendSem k)) hsc) (.dma (recvG off2 inb2)) hsrc hdst hsem) kont) Q) := by
  subst hn; subst hoff; subst hoff2
  exact send_step m K c k O O' hO W fn

theorem recv_wait_step' (K : Dev nD × CK → ℕ) (c : Dev nD) (k : Fin 7)
    (off : Fin 3 → Nat) (hoff : off = ![(peer c k).val, 0, 0]) (inb : ∀ a, off a + S1x1x1024.size a ≤ S8x1x1024.size a)
    (off2 : Fin 1 → Nat) (hoff2 : off2 = ![(peer c k).val]) (inb2 : ∀ a, off2 a + S1.size a ≤ S8.size a)
    (W : Waits sig Unit)
    {hs : (slotG off inb : Memref sig .tc .vmem S1x1024 .f32).view.WordExact} {hd : (slotG off inb : Memref sig .tc .vmem S1x1024 .f32).view.WordExact}
    {α : Type} {Q : α → sProp 𝕄} {kont : PUnit → Prog (TpuEff nD τ sig (Elt F) Λ₀ .tc) α} :
    iprop(records m K ∗ cred (tallyAt (recvCell c (peer c k)) () N) ∗ owes (c : Thread nD τ) 0 W ∗ atPos ER (recvCell c (peer c k)) 0 ∅ 0)
      ⊢ iprop(((owes (c : Thread nD τ) 0 (insert (SemLoc.dma (recvSem (peer c k)), ()) W) ∗ semVal (recvCell c (peer c k)) 0
              ∗ scrPts c (slotSet (peer c k)) fullShare (rowBuf m (peer c k)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvG off2 inb2) (slotG off inb) (slotG off inb) hs hd) kont) Q) := by
  subst hoff; subst hoff2
  exact recv_wait_step m K c k W

theorem send_wait_step' (K : Dev nD × CK → ℕ) (c : Dev nD) (k : Fin 7)
    (off : Fin 3 → Nat) (hoff : off = ![c.val, 0, 0]) (inb : ∀ a, off a + S1x1x1024.size a ≤ S8x1x1024.size a)
    (W : Waits sig Unit)
    {hs : (slotG off inb : Memref sig .tc .vmem S1x1024 .f32).view.WordExact} {hd : (slotG off inb : Memref sig .tc .vmem S1x1024 .f32).view.WordExact}
    {α : Type} {Q : α → sProp 𝕄} {kont : PUnit → Prog (TpuEff nD τ sig (Elt F) Λ₀ .tc) α} :
    iprop(records m K ∗ cred (tallyAt (sendCell c k) () N) ∗ owes (c : Thread nD τ) 0 W ∗ atPos ER (sendCell c k) 0 ∅ 0)
      ⊢ iprop(((owes (c : Thread nD τ) 0 (insert (SemLoc.dma (sendSem k), ()) W) ∗ semVal (sendCell c k) 0
              ∗ scrPts c (slotSet c) (sendShare k) (rowBuf m c))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem k) (slotG off inb) (slotG off inb) hs hd) kont) Q) := by
  subst hoff
  exact send_wait_step m K c k W

end Cert.KernelProof

end
-- ==== Proof.Bits.Levels.lean ====
/-
  The levels of the eight-device column maximum: why no wait can be part of a cycle.

  A device's barrier cell sits at level 1, its receive cells at level 2, every other semaphore (the staging
  semaphores, the send cells) at level 0. What a device owes is only ever units at its peers' barrier cells and copy
  credits at its peers' receive cells. So a wait at level 0 is below everything owed; and at its barrier wait a
  device owes receive credits only, all at level 2, above the barrier cell's level 1.
-/
import proofs.«900918_g7700000000000919_dist_max_ax0_shard0_i_m2048_n1024_v7x_i8_bf16_1_alg».proof.Proof.Bits.Protocol

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cells carry a level, and the levels of the protocol's cells -/

theorem L_of_ne (g : GSem nD τ sig) (h : g.1.2 ≠ .tc) : L g = ∅ := if_neg h
theorem L_tc (c : Dev nD) (sm : SemLoc sig) : L ((c : Thread nD τ), sm) = {()} := if_pos rfl

/-- A semaphore that is no protocol cell has no kind. -/
theorem kind?_none (s : SemLoc sig) (h : ∀ x : CK, csem x ≠ s) : kind? s = none := by
  unfold kind?
  exact dif_neg fun ⟨x, hx⟩ => h x hx

theorem lv_of_bar (g : GSem nD τ sig) (u : Unit) (h : kind? g.2 = some (.inl ())) : lv g u = 1 := by
  unfold lv; rw [h]
theorem lv_of_recv (g : GSem nD τ sig) (u : Unit) (j : Dev nD) (h : kind? g.2 = some (.inr (.inr j))) : lv g u = 2 := by
  unfold lv; rw [h]
theorem lv_of_send (g : GSem nD τ sig) (u : Unit) (k : Fin 7) (h : kind? g.2 = some (.inr (.inl k))) : lv g u = 0 := by
  unfold lv; rw [h]

theorem lv_bar (p : Dev nD) (u : Unit) : lv (barCell p) u = 1 :=
  lv_of_bar (barCell p) u (kind?_csem (.inl ()))
theorem lv_recv (p j : Dev nD) (u : Unit) : lv (recvCell p j) u = 2 :=
  lv_of_recv (recvCell p j) u j (kind?_csem (.inr (.inr j)))
theorem lv_send (p : Dev nD) (k : Fin 7) (u : Unit) : lv (sendCell p k) u = 0 :=
  lv_of_send (sendCell p k) u k (kind?_csem (.inr (.inl k)))
theorem lv_none (g : GSem nD τ sig) (u : Unit) (h : kind? g.2 = none) : lv g u = 0 := by
  unfold lv; rw [h]

/-! ## Where a device owes -/

/-- The copies' credits are owed at receive cells of peers only. -/
theorem ORr_pos {c : Dev nD} {g : GSem nD τ sig} {u : Unit} :
    ∀ j : ℕ, 0 < ORr c j g u → ∃ k : Fin 7, g = recvCell (peer c k) c
  | 0, h => absurd h (Nat.lt_irrefl 0)
  | j + 1, h => by
    unfold ORr at h
    rw [Pi.add_apply, Finsupp.add_apply] at h
    rcases Nat.add_pos_iff_pos_or_pos.mp h with h | h
    · exact ORr_pos j h
    · unfold rT at h
      rw [tallyAt_apply] at h
      by_cases hh : g = recvCell (peer c ⟨6 - j, by omega⟩) c ∧ u = ()
      · exact ⟨_, hh.1⟩
      · rw [if_neg hh] at h; exact absurd h (Nat.lt_irrefl 0)

/-- Everything owed is owed at a peer's receive cell or at a peer's barrier cell. -/
theorem OBr_pos {c : Dev nD} {g : GSem nD τ sig} {u : Unit} :
    ∀ j : ℕ, 0 < OBr c j g u → ∃ k : Fin 7, g = recvCell (peer c k) c ∨ g = barCell (peer c k)
  | 0, h => by
    unfold OBr at h
    obtain ⟨k, hk⟩ := ORr_pos 7 h
    exact ⟨k, Or.inl hk⟩
  | j + 1, h => by
    unfold OBr at h
    rw [Pi.add_apply, Finsupp.add_apply] at h
    rcases Nat.add_pos_iff_pos_or_pos.mp h with h | h
    · exact OBr_pos j h
    · unfold bT at h
      rw [tallyAt_apply] at h
      by_cases hh : g = barCell (peer c ⟨6 - j, by omega⟩) ∧ u = ()
      · exact ⟨_, Or.inr hh.1⟩
      · rw [if_neg hh] at h; exact absurd h (Nat.lt_irrefl 0)

theorem ORr7_pos {c : Dev nD} {g : GSem nD τ sig} {u : Unit} (h : 0 < ORr c 7 g u) :
    ∃ k : Fin 7, g = recvCell (peer c k) c := ORr_pos 7 h

theorem O₀_pos {c : Dev nD} {g : GSem nD τ sig} {u : Unit} (h : 0 < O₀ c g u) :
    ∃ k : Fin 7, g = recvCell (peer c k) c ∨ g = barCell (peer c k) := OBr_pos 7 h

/-! ## The waits -/

omit [FloatOps F] in
/-- At its barrier wait a device owes copy credits only: receive cells, above its barrier cell. -/
theorem mayWait_bar (c : Dev nD) :
    (levAts L lv : sProp 𝕄) ⊢ MayWait (c : Thread nD τ) (.reg barS) () (ORr c 7) :=
  MayOwe.of_cut (L := L) (lev := lv) 1
    (fun p hp => by rw [Finset.mem_singleton.mp hp, L_tc]; exact Finset.mem_singleton_self _)
    (fun g u hg => by
      obtain ⟨k, rfl⟩ := ORr7_pos hg
      rw [L_tc]; exact Finset.mem_singleton_self _)
    (fun p hp => by rw [Finset.mem_singleton.mp hp]; exact le_of_eq (lv_bar c ()))
    (fun g u hg => by
      obtain ⟨k, rfl⟩ := ORr7_pos hg
      rw [lv_recv]; decide)

omit [FloatOps F] in
/-- A wait on a semaphore at level 0 (a staging semaphore, a send cell) is below everything a device can owe. -/
theorem mayWait_stage (c : Dev nD) (q : DmaSem sig)
    (hq : kind? (SemLoc.dma q : SemLoc sig) = none ∨ ∃ k, kind? (SemLoc.dma q : SemLoc sig) = some (.inr (.inl k)))
    (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by
    rcases hq with hq | ⟨k, hq⟩
    · exact lv_none ((c : Thread nD τ), SemLoc.dma q) () hq
    · exact lv_of_send ((c : Thread nD τ), SemLoc.dma q) () k hq
  rcases hO with rfl | rfl
  · refine MayOwe.of_cut (L := L) (lev := lv) 0
      (fun p hp => by rw [Finset.mem_singleton.mp hp, L_tc]; exact Finset.mem_singleton_self _)
      (fun g u hg => by
        obtain ⟨k, rfl | rfl⟩ := O₀_pos hg <;> (rw [L_tc]; exact Finset.mem_singleton_self _))
      (fun p hp => by rw [Finset.mem_singleton.mp hp]; exact le_of_eq h0)
      (fun g u hg => by
        obtain ⟨k, rfl | rfl⟩ := O₀_pos hg
        · rw [lv_recv]; decide
        · rw [lv_bar]; decide)
  · rw [MayWait_zero]; iintro -; iempintro

end Cert.KernelProof

end
-- ==== Proof.Bits.OwnSems.lean ====
/-
  The kernel's own fifteen semaphores at zero, grouped as the protocol names them: the seven send cells, then the
  eight receive cells.
-/
import proofs.«900918_g7700000000000919_dist_max_ax0_shard0_i_m2048_n1024_v7x_i8_bf16_1_alg».proof.Proof.Bits.Protocol
import Mathlib.Logic.Equiv.Fin.Basic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The fifteen own semaphores are indexed by the seven send offsets followed by the eight devices. -/
def ownIdx : Fin 7 ⊕ Dev nD ≃ Fin 15 := finSumFinEquiv

theorem osem_send : ∀ k : Fin 7, osem (ownIdx (.inl k)) = .dma (sendSem k) := by decide
theorem osem_recv : ∀ j : Dev nD, osem (ownIdx (.inr j)) = .dma (recvSem j) := by decide

omit [FloatOps F] in
/-- A device's own cells at zero: its send cells and its receive cells. -/
theorem ownSems0_eq (c : Dev nD) :
    (Pipeline.ownSems0 (Ix := Unit) (Name := ℕ) (U := UU) (Lvl := ℕ) (Val := Elt F) (τ := τ) osem c : sProp 𝕄)
      = iprop((bigSep Finset.univ fun k : Fin 7 => semVal (sendCell c k) 0) ∗ bigSep Finset.univ fun j : Dev nD => semVal (recvCell c j) 0) := by
  unfold Pipeline.ownSems0
  rw [bigSep_univ_equiv ownIdx, bigSep_univ_sum]
  exact congrArg₂ _ (bigSep_congr fun k _ => by rw [osem_send]) (bigSep_congr fun j _ => by rw [osem_recv])

end Cert.KernelProof

end
-- ==== Proof.Bits.Regroup.lean ====
/-
  Regrouping the exchange buffer and the semaphores around one device.

  The products over the seven offsets, over the eight devices (a device first, then its seven peers in ring order)
  and over a device's sixteen protocol cells, written out as chains; the exchange buffer opened into the device's
  own slot and its peers' slots; the eight shares of its own slot a device ends with (the last remainder and the
  seven that went with its copies) joined into the full share; and the final state of a device (every slot at its
  row, every own semaphore at zero) closed into the assertion that follows the kernel.
-/
import proofs.«900918_g7700000000000919_dist_max_ax0_shard0_i_m2048_n1024_v7x_i8_bf16_1_alg».proof.Proof.Bits.Slots
import proofs.«900918_g7700000000000919_dist_max_ax0_shard0_i_m2048_n1024_v7x_i8_bf16_1_alg».proof.Proof.Bits.OwnSems
import Idealize.ShloMosaic.Lib.Pipeline.Kit
import Idealize.ShloMosaic.Lib.Pipeline.Launch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products written out -/

/-- A product over the seven offsets, as a chain. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A product over the eight devices, as a chain: a device first, then its seven peers in ring order. -/
theorem bigSep_devs (c : Dev nD) (Φ : Dev nD → sProp 𝕄) :
    bigSep Finset.univ Φ = iprop(Φ c ∗ Φ (peer c 0) ∗ Φ (peer c 1) ∗ Φ (peer c 2) ∗ Φ (peer c 3) ∗ Φ (peer c 4)
      ∗ Φ (peer c 5) ∗ Φ (peer c 6)) :=
  bigSep_univ_eq_bigSepL [c, peer c 0, peer c 1, peer c 2, peer c 3, peer c 4, peer c 5, peer c 6]
    (by revert c; decide) (by revert c; decide) Φ

/-- A product over a device's protocol cells: its barrier cell, its seven send cells, its eight receive cells. -/
theorem bigSep_CK (Φ : CK → sProp 𝕄) :
    bigSep Finset.univ Φ = iprop(Φ (.inl ()) ∗ (bigSep Finset.univ fun k : Fin 7 => Φ (.inr (.inl k)))
      ∗ bigSep Finset.univ fun j : Dev nD => Φ (.inr (.inr j))) := by
  rw [bigSep_univ_sum, bigSep_univ_sum, bigSep_univ_of_subsingleton ()]; rfl

/-! ## The exchange buffer around one device -/

/-- The exchange buffer, whole at some contents, opened into the device's own slot and its seven peers' slots. -/
theorem open_scr (c : Dev nD) :
    (scrAny (F := F) c : sProp 𝕄) ⊢ iprop(∃ f : (cc0_scratch0 : Ref sig .tc).ty.Contents (Elt F),
      scrPts c (slotSet c) fullShare f ∗ scrPts c (slotSet (peer c 0)) fullShare f
      ∗ scrPts c (slotSet (peer c 1)) fullShare f ∗ scrPts c (slotSet (peer c 2)) fullShare f
      ∗ scrPts c (slotSet (peer c 3)) fullShare f ∗ scrPts c (slotSet (peer c 4)) fullShare f
      ∗ scrPts c (slotSet (peer c 5)) fullShare f ∗ scrPts c (slotSet (peer c 6)) fullShare f) := by
  unfold scrAny
  iintro ⟨%f, H⟩
  iexists f
  have h := scr_split (F := F) c f
  rw [bigSep_devs c] at h
  iapply h
  iexact H

/-- The remainder after seven halvings and the seven halves that went with the copies are the full share again:
    each half rejoins the remainder it was cut from, the last cut first. -/
theorem join_shares (c : Dev nD) (S : Finset ((cc0_scratch0 : Ref sig .tc).ty.Idx))
    (f : (cc0_scratch0 : Ref sig .tc).ty.Contents (Elt F)) :
    iprop(scrPts (F := F) c S (shAfter 7) f ∗ scrPts c S (sendShare 0) f ∗ scrPts c S (sendShare 1) f
      ∗ scrPts c S (sendShare 2) f ∗ scrPts c S (sendShare 3) f ∗ scrPts c S (sendShare 4) f
      ∗ scrPts c S (sendShare 5) f ∗ scrPts c S (sendShare 6) f) ⊢ (scrPts c S fullShare f : sProp 𝕄) := by
  iintro ⟨H, H0, H1, H2, H3, H4, H5, H6⟩
  ihave H := (share_split (F := F) c S f 6 (by decide)).2 $$ [H6 H]
  · isplitl [H6]; · iexact H6
    iexact H
  ihave H := (share_split (F := F) c S f 5 (by decide)).2 $$ [H5 H]
  · isplitl [H5]; · iexact H5
    iexact H
  ihave H := (share_split (F := F) c S f 4 (by decide)).2 $$ [H4 H]
  · isplitl [H4]; · iexact H4
    iexact H
  ihave H := (share_split (F := F) c S f 3 (by decide)).2 $$ [H3 H]
  · isplitl [H3]; · iexact H3
    iexact H
  ihave H := (share_split (F := F) c S f 2 (by decide)).2 $$ [H2 H]
  · isplitl [H2]; · iexact H2
    iexact H
  ihave H := (share_split (F := F) c S f 1 (by decide)).2 $$ [H1 H]
  · isplitl [H1]; · iexact H1
    iexact H
  ihave H := (share_split (F := F) c S f 0 (by decide)).2 $$ [H0 H]
  · isplitl [H0]; · iexact H0
    iexact H
  iexact H

/-! ## The state after the kernel -/

/-- Every slot of a device's exchange buffer at its row and every own semaphore at zero: the assertion after the
    kernel. The eight slots are folded back over the devices and joined into the whole buffer; the receive cells are
    folded back likewise; the own semaphores are the send cells and the receive cells. -/
theorem close_phi1 (c : Dev nD) :
    iprop(scrPts (F := F) c (slotSet c) fullShare (rowBuf m c)
      ∗ (bigSep Finset.univ fun k : Fin 7 => scrPts c (slotSet (peer c k)) fullShare (rowBuf m (peer c k)))
      ∗ (bigSep Finset.univ fun k : Fin 7 => semVal (sendCell c k) 0)
      ∗ semVal (recvCell c c) 0
      ∗ (bigSep Finset.univ fun k : Fin 7 => semVal (recvCell c (peer c k)) 0)) ⊢ (Φ₁ (F := F) c : sProp 𝕄) := by
  have hscr : iprop(scrPts (F := F) c (slotSet c) fullShare (rowBuf m c)
      ∗ (bigSep Finset.univ fun k : Fin 7 => scrPts c (slotSet (peer c k)) fullShare (rowBuf m (peer c k))))
      ⊢ (scrAny (F := F) c : sProp 𝕄) := by
    refine Entails.trans (Entails.of_eq ?_) (scr_join (F := F) c (rowBuf m))
    rw [bigSep_devs c, bigSep_fin7]
  have hrecv : iprop(semVal (recvCell c c) 0
      ∗ (bigSep Finset.univ fun k : Fin 7 => semVal (recvCell c (peer c k)) 0))
      ⊢ (bigSep Finset.univ fun j : Dev nD => semVal (recvCell c j) 0 : sProp 𝕄) := by
    refine Entails.of_eq ?_
    rw [bigSep_devs c, bigSep_fin7]
  unfold Φ₁
  rw [ownSems0_eq]
  iintro ⟨HA, HB, HC, HD, HE⟩
  isplitl [HA HB]
  · iapply hscr
    isplitl [HA]; · iexact HA
    iexact HB
  isplitl [HC]; · iexact HC
  iapply hrecv
  isplitl [HD]; · iexact HD
  iexact HE

end Cert.KernelProof

end
-- ==== Proof.Bits.BodyLemmas.lean ====
/-
  Small facts the phases of a device's body share: the peers in closed form, the cells' invariants and reached rounds
  read off the launch's records, what the barrier's round brings peer by peer, and the whole-buffer loads and stores.
-/
import proofs.«900918_g7700000000000919_dist_max_ax0_shard0_i_m2048_n1024_v7x_i8_bf16_1_alg».proof.Proof.Bits.Steps
import proofs.«900918_g7700000000000919_dist_max_ax0_shard0_i_m2048_n1024_v7x_i8_bf16_1_alg».proof.Proof.Bits.Levels
import proofs.«900918_g7700000000000919_dist_max_ax0_shard0_i_m2048_n1024_v7x_i8_bf16_1_alg».proof.Proof.Bits.Regroup

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem rpeer_0 : ∀ c : Dev nD, rpeer c 0 = peer c 6 := by decide
theorem rpeer_1 : ∀ c : Dev nD, rpeer c 1 = peer c 5 := by decide
theorem rpeer_2 : ∀ c : Dev nD, rpeer c 2 = peer c 4 := by decide
theorem rpeer_3 : ∀ c : Dev nD, rpeer c 3 = peer c 3 := by decide
theorem rpeer_4 : ∀ c : Dev nD, rpeer c 4 = peer c 2 := by decide
theorem rpeer_5 : ∀ c : Dev nD, rpeer c 5 = peer c 1 := by decide
theorem rpeer_6 : ∀ c : Dev nD, rpeer c 6 = peer c 0 := by decide

theorem rec_inv (K : Dev nD × CK → ℕ) (ck : Dev nD × CK) : (records (F := F) m K : sProp 𝕄) ⊢ cellInv ER (sched m) (K ck) (kcell ck) := by
  unfold records; iintro ⟨HI, -⟩; iapply (inv_at m K ck); iexact HI
theorem rec_reached (K : Dev nD × CK → ℕ) (ck : Dev nD × CK) : (records (F := F) m K : sProp 𝕄) ⊢ reached ER (kcell ck) 0 := by
  unfold records; iintro ⟨-, HR⟩; iapply (reached_at (F := F) ck); iexact HR

/-- What peer `k` handed `c` at the barrier: its slot `c`, and that its receive cell `c` has reached round 0. -/
def barGot (c : Dev nD) (k : Fin 7) : sProp 𝕄 :=
  iprop((∃ f, scrPts (peer c k) (slotSet c) fullShare f) ∗ reached ER (recvCell (peer c k) c) 0)

/-- The whole round of the barrier cell, by peer. -/
theorem rest_bar' (c : Dev nD) : bigSep ((sched (F := F) m).duties (barCell c) 0 \ ∅) (fun d => (sched (F := F) m).payload (barCell c) 0 d)
    = iprop(barGot (F := F) c 6 ∗ barGot c 5 ∗ barGot c 4 ∗ barGot c 3 ∗ barGot c 2 ∗ barGot c 1 ∗ barGot c 0) := by
  rw [rest_bar, bigSep_fin7]; unfold barPay barGot
  rw [rpeer_0, rpeer_1, rpeer_2, rpeer_3, rpeer_4, rpeer_5, rpeer_6]

theorem hz2 : (![0, 0] : Fin 2 → Nat) = fun _ => 0 := funext fun a => by fin_cases a <;> rfl
abbrev r0x : Rect S2048x1024 := Rect.unit (s := S2048x1024) ![0, 0] S2048x1024.size inb_S2048x1024_S2048x1024_0_0
abbrev r0o : Rect S1x1024 := Rect.unit (s := S1x1024) ![0, 0] S1x1024.size inb_S1x1024_S1x1024_0_0
theorem read_x (f : (cc0_stg0_0 : Ref sig .tc).ty.Contents (Elt F)) : (xM : Memref sig .tc .vmem S2048x1024 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access r0o : View sig .tc _ _ _).write (Elt F) f w Finset.univ = w :=
  Memref.write_access_unit_zero_univ (Elt F) cc0_stg1_0 hz2 _ f w

theorem scrPts_def (c : Dev nD) (S : Finset ((cc0_scratch0 : Ref sig .tc).ty.Idx)) (q : PosShare TreeShare) (f : (cc0_scratch0 : Ref sig .tc).ty.Contents (Elt F)) :
    scrPts (F := F) c S q f = ((((c : Thread nD τ).loc cc0_scratch0) ↦[S]{q} f) : sProp 𝕄) := rfl

theorem duties_recv_self_all (c : Dev nD) : ∀ r, 0 ≤ r → (sched (F := F) m).duties (recvCell c c) r = ∅ := fun r _ => by
  rcases Nat.eq_zero_or_pos r with rfl | h
  · exact duties_recv_self m c
  · exact duties_later m _ r h

end Cert.KernelProof

end
-- ==== Proof.Bits.PartLemmas.lean ====
/-
  What the parts of a device's body share: the slot a peer handed over at the barrier, the own slot's share halved at
  each literal step, and the two parts of the body that only compute indices.
-/
import proofs.«900918_g7700000000000919_dist_max_ax0_shard0_i_m2048_n1024_v7x_i8_bf16_1_alg».proof.Proof.Bits.BodyLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Peer `k`'s slot `c`, at some contents: what it handed `c` at the barrier, kept until copy `k`. -/
def gotSlot (c : Dev nD) (k : Fin 7) : sProp 𝕄 := iprop(∃ f, scrPts (peer c k) (slotSet c) fullShare f)

theorem split_0 (c : Dev nD) (S : Finset ((cc0_scratch0 : Ref sig .tc).ty.Idx)) (f : (cc0_scratch0 : Ref sig .tc).ty.Contents (Elt F)) :
    (scrPts (F := F) c S (shAfter 0) f : sProp 𝕄) ⊢ iprop(scrPts c S (sendShare 0) f ∗ scrPts c S (shAfter 1) f) :=
  (share_split c S f 0 (by decide)).1
theorem split_1 (c : Dev nD) (S : Finset ((cc0_scratch0 : Ref sig .tc).ty.Idx)) (f : (cc0_scratch0 : Ref sig .tc).ty.Contents (Elt F)) :
    (scrPts (F := F) c S (shAfter 1) f : sProp 𝕄) ⊢ iprop(scrPts c S (sendShare 1) f ∗ scrPts c S (shAfter 2) f) :=
  (share_split c S f 1 (by decide)).1
theorem split_2 (c : Dev nD) (S : Finset ((cc0_scratch0 : Ref sig .tc).ty.Idx)) (f : (cc0_scratch0 : Ref sig .tc).ty.Contents (Elt F)) :
    (scrPts (F := F) c S (shAfter 2) f : sProp 𝕄) ⊢ iprop(scrPts c S (sendShare 2) f ∗ scrPts c S (shAfter 3) f) :=
  (share_split c S f 2 (by decide)).1
theorem split_3 (c : Dev nD) (S : Finset ((cc0_scratch0 : Ref sig .tc).ty.Idx)) (f : (cc0_scratch0 : Ref sig .tc).ty.Contents (Elt F)) :
    (scrPts (F := F) c S (shAfter 3) f : sProp 𝕄) ⊢ iprop(scrPts c S (sendShare 3) f ∗ scrPts c S (shAfter 4) f) :=
  (share_split c S f 3 (by decide)).1
theorem split_4 (c : Dev nD) (S : Finset ((cc0_scratch0 : Ref sig .tc).ty.Idx)) (f : (cc0_scratch0 : Ref sig .tc).ty.Contents (Elt F)) :
    (scrPts (F := F) c S (shAfter 4) f : sProp 𝕄) ⊢ iprop(scrPts c S (sendShare 4) f ∗ scrPts c S (shAfter 5) f) :=
  (share_split c S f 4 (by decide)).1
theorem split_5 (c : Dev nD) (S : Finset ((cc0_scratch0 : Ref sig .tc).ty.Idx)) (f : (cc0_scratch0 : Ref sig .tc).ty.Contents (Elt F)) :
    (scrPts (F := F) c S (shAfter 5) f : sProp 𝕄) ⊢ iprop(scrPts c S (sendShare 5) f ∗ scrPts c S (shAfter 6) f) :=
  (share_split c S f 5 (by decide)).1
theorem split_6 (c : Dev nD) (S : Finset ((cc0_scratch0 : Ref sig .tc).ty.Idx)) (f : (cc0_scratch0 : Ref sig .tc).ty.Contents (Elt F)) :
    (scrPts (F := F) c S (shAfter 6) f : sProp 𝕄) ⊢ iprop(scrPts c S (sendShare 6) f ∗ scrPts c S (shAfter 7) f) :=
  (share_split c S f 6 (by decide)).1

/-- Part 1 only reads the device's position and computes indices: it returns the device and four words. -/
theorem part1_spec (c : Dev nD) {Q : (Σ' (d0 : Dev nD) (v2 : BitVec 32) (v13 : BitVec 32) (v24 : BitVec 32), BitVec 32) → sProp 𝕄} :
    iprop(∀ v2 v13 v24 v35, Q ⟨c, v2, v13, v24, v35⟩) ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) cc0_scratch1 cc0_scratch2) Q := by
  simp only [k0_part1_eq_skeleton]; unfold k0_part1_skel
  simp only [Prog.lift, Prog.bind_op, Prog.bind_ret, Prog.pure_eq_ret, wp_deviceId, wp_ret]
  iintro H
  imodintro
  iapply H

/-- Part 2 computes indices only. -/
theorem part2_spec (c : Dev nD) (v2 : BitVec 32) {Q : (Σ' (v46 : BitVec 32) (v57 : BitVec 32) (v68 : BitVec 32) (v69 : BitVec 32) (c8_i32_36 : BitVec 32) (v70 : BitVec 1), BitVec 32) → sProp 𝕄} :
    iprop(∀ a, Q a) ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) cc0_scratch1 cc0_scratch2 v2) Q := by
  simp only [k0_part2_eq_skeleton]; unfold k0_part2_skel
  simp only [Prog.lift, Prog.bind_op, Prog.bind_ret, Prog.pure_eq_ret, wp_ret]
  iintro H
  imodintro
  iapply H

end Cert.KernelProof

end
-- ==== Proof.Bits.Part3.lean ====
/-
  Part 3 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 3: the seven signals, one unit to each peer's barrier cell with the slot that peer will write its row into; then the block is loaded. -/
theorem part3_spec (K : Dev nD × CK → ℕ) (c : Dev nD) (W : Waits sig Unit) (f0 : (cc0_scratch0 : Ref sig .tc).ty.Contents (Elt F)) (v13 v24 v35 v46 v57 v68 v69 c8 : BitVec 32) (v70 : BitVec 1) (c1 : BitVec 32)
    {Q : (Σ' (v79 : BitVec 32) (v80 : Sems sig S_), FVec F S2048x1024 .f32) → sProp 𝕄} :
    iprop(records m K
        ∗ owes (c : Thread nD τ) (O₀ c) W
        ∗ dutyTok ER (barCell (peer c 0)) 0 0
        ∗ dutyTok ER (barCell (peer c 1)) 0 1
        ∗ dutyTok ER (barCell (peer c 2)) 0 2
        ∗ dutyTok ER (barCell (peer c 3)) 0 3
        ∗ dutyTok ER (barCell (peer c 4)) 0 4
        ∗ dutyTok ER (barCell (peer c 5)) 0 5
        ∗ dutyTok ER (barCell (peer c 6)) 0 6
        ∗ scrPts c (slotSet (peer c 0)) fullShare f0
        ∗ scrPts c (slotSet (peer c 1)) fullShare f0
        ∗ scrPts c (slotSet (peer c 2)) fullShare f0
        ∗ scrPts c (slotSet (peer c 3)) fullShare f0
        ∗ scrPts c (slotSet (peer c 4)) fullShare f0
        ∗ scrPts c (slotSet (peer c 5)) fullShare f0
        ∗ scrPts c (slotSet (peer c 6)) fullShare f0
        ∗ (((c : Thread nD τ).loc cc0_stg0_0) ↦{fullShare} xstg m c)
        ∗ (∀ v79, ((∃ W', owes (c : Thread nD τ) (ORr c 7) W')
            ∗ (((c : Thread nD τ).loc cc0_stg0_0) ↦{fullShare} xstg m c)) -∗ Q ⟨v79, (SemArray.scalar (sig.barrier 0 rfl) : Sems sig S_), k0_pay1 (xstg m c)⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) cc0_scratch1 cc0_scratch2 c v13 v24 v35 v46 v57 v68 v69 c8 v70 c1) Q := by
  simp only [k0_part3_eq_skeleton]; unfold k0_part3_skel
  simp only [semSignalWord, semWaitWord, Prog.lift, Prog.bind_op, Prog.bind_ret, Prog.pure_eq_ret]
  simp only [dev1_eq c, dev2_eq c, dev3_eq c, dev4_eq c, dev5_eq c, dev6_eq c, dev7_eq c]
  iintro ⟨#Hrec, HO, Htb0, Htb1, Htb2, Htb3, Htb4, Htb5, Htb6, Hs0, Hs1, Hs2, Hs3, Hs4, Hs5, Hs6, Hx, Hk⟩
  iapply (sig_step m K c 0 (OBr c 6) (OBr c 7) rfl _ f0) $$ [HO Htb0 Hs0]
  · isplitr; · iexact Hrec
    isplitl [HO]; · iexact HO
    isplitl [Htb0]; · iexact Htb0
    iexact Hs0
  iintro HO
  iapply (sig_step m K c 1 (OBr c 5) (OBr c 6) rfl _ f0) $$ [HO Htb1 Hs1]
  · isplitr; · iexact Hrec
    isplitl [HO]; · iexact HO
    isplitl [Htb1]; · iexact Htb1
    iexact Hs1
  iintro HO
  iapply (sig_step m K c 2 (OBr c 4) (OBr c 5) rfl _ f0) $$ [HO Htb2 Hs2]
  · isplitr; · iexact Hrec
    isplitl [HO]; · iexact HO
    isplitl [Htb2]; · iexact Htb2
    iexact Hs2
  iintro HO
  iapply (sig_step m K c 3 (OBr c 3) (OBr c 4) rfl _ f0) $$ [HO Htb3 Hs3]
  · isplitr; · iexact Hrec
    isplitl [HO]; · iexact HO
    isplitl [Htb3]; · iexact Htb3
    iexact Hs3
  iintro HO
  iapply (sig_step m K c 4 (OBr c 2) (OBr c 3) rfl _ f0) $$ [HO Htb4 Hs4]
  · isplitr; · iexact Hrec
    isplitl [HO]; · iexact HO
    isplitl [Htb4]; · iexact Htb4
    iexact Hs4
  iintro HO
  iapply (sig_step m K c 5 (OBr c 1) (OBr c 2) rfl _ f0) $$ [HO Htb5 Hs5]
  · isplitr; · iexact Hrec
    isplitl [HO]; · iexact HO
    isplitl [Htb5]; · iexact Htb5
    iexact Hs5
  iintro HO
  iapply (sig_step m K c 6 (OBr c 0) (OBr c 1) rfl _ f0) $$ [HO Htb6 Hs6]
  · isplitr; · iexact Hrec
    isplitl [HO]; · iexact HO
    isplitl [Htb6]; · iexact Htb6
    iexact Hs6
  iintro HO
  iapply (wp_load 𝒱₀ (c : Thread nD τ) none Set.univ (m := xM) (Finset.subset_univ _)) $$ Hx; iintro Hx
  rw [read_x]
  rw [wp_ret]
  imodintro
  iapply Hk
  isplitl [HO]; · iexists _; iexact HO
  iexact Hx

end Cert.KernelProof

end
-- ==== Proof.Bits.Part4.lean ====
/-
  Part 4 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 4: the column maxima of the block stored in the own slot; the wait for all seven peers' signals, owing only the copies' credits; the first two copies. -/
theorem part4_spec (K : Dev nD × CK → ℕ) (c : Dev nD) (W : Waits sig Unit) (f0 : (cc0_scratch0 : Ref sig .tc).ty.Contents (Elt F)) (v2 v13 v24 v35 : BitVec 32)
    {Q : (PUnit) → sProp 𝕄} :
    iprop(records m K
        ∗ levAts L lv
        ∗ owes (c : Thread nD τ) (ORr c 7) W
        ∗ cred (tallyAt (barCell c) () 7)
        ∗ atPos ER (barCell c) 0 ∅ 0
        ∗ scrPts c (slotSet c) fullShare f0
        ∗ dutyTok ER (sendCell c 0) 0 0
        ∗ dutyTok ER (recvCell (peer c 0) c) 0 0
        ∗ dutyTok ER (sendCell c 1) 0 0
        ∗ dutyTok ER (recvCell (peer c 1) c) 0 0
        ∗ (((∃ W', owes (c : Thread nD τ) (ORr c 5) W')
            ∗ scrPts c (slotSet c) (shAfter 2) (rowBuf m c)
            ∗ cred (tallyAt (sendCell c 0) () N)
            ∗ cred (tallyAt (sendCell c 1) () N)
            ∗ gotSlot c 2
            ∗ gotSlot c 3
            ∗ gotSlot c 4
            ∗ gotSlot c 5
            ∗ gotSlot c 6) -∗ Q ⟨⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_scratch0) (Memref.isWhole_whole _) cc0_scratch1 cc0_scratch2 c v2 v13 v24 v35 (SemArray.scalar (sig.barrier 0 rfl) : Sems sig S_) (k0_pay1 (xstg m c))) Q := by
  simp only [k0_part4_eq_skeleton]; unfold k0_part4_skel
  simp only [semSignalWord, semWaitWord, Prog.lift, Prog.bind_op, Prog.bind_ret, Prog.pure_eq_ret]
  unfold gotSlot
  iintro ⟨#Hrec, #Hlev, HO, HcB, HatB, Hown, Hts0, Htr0, Hts1, Htr1, Hk⟩
  iapply (wp_load 𝒱₀ (c : Thread nD τ) none Set.univ (m := rM) (load_sub' c _ (k0_off1_eq c) _)) $$ Hown; iintro Hown
  iapply (wp_store 𝒱₀ (c : Thread nD τ) none Set.univ (m := rM) (r := Rect.unit (s := S8x1x1024) (k0_off1 c) S1x1x1024.size (k0_off1_inb c)) (Mk := Finset.univ) (store_sub' c _ (k0_off1_eq c) _)) $$ Hown; iintro Hown
  ihave Hown := (Entails.of_eq (store_row' m c c fullShare f0 _ (k0_off1_eq c) (k0_off1_inb c))) $$ Hown
  ihave #HIb := (rec_inv m K (c, .inl ())) $$ Hrec
  iapply (Rounds.wp_wait_rest_token 𝒱₀ ER (sched m) (c : Thread nD τ) none (κ := K (c, .inl ()))
      (wpE_semWait_eq 𝒱₀ (c : Thread nD τ) none Set.univ) (Set.mem_univ _) () (O := ORr c 7) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar' m c)) $$ Hpay
  unfold barGot
  icases Hp with ⟨⟨⟨%fn6, Hd6⟩, -⟩, ⟨⟨%fn5, Hd5⟩, -⟩, ⟨⟨%fn4, Hd4⟩, -⟩, ⟨⟨%fn3, Hd3⟩, -⟩, ⟨⟨%fn2, Hd2⟩, -⟩, ⟨⟨%fn1, Hd1⟩, -⟩, ⟨⟨%fn0, Hd0⟩, -⟩⟩
  ihave Hown := (Entails.of_eq (show scrPts (F := F) c (slotSet c) fullShare (rowBuf m c) = scrPts c (slotSet c) (shAfter 0) (rowBuf m c) from rfl)) $$ Hown
  ihave Hsp := (split_0 c (slotSet c) (rowBuf m c)) $$ Hown
  icases Hsp with ⟨Hsh0, Hown⟩
  iapply (send_step' m K c 0 _ (dev8_eq c) _ (k0_off3_eq c) _ _ (k0_off2_eq c) _ (ORr c 6) (ORr c 7) rfl _ fn0) $$ [Hsh0 Hd0 HO Hts0 Htr0]
  · isplitr; · iexact Hrec
    isplitl [Hsh0]; · iexact Hsh0
    isplitl [Hd0]; · iexact Hd0
    isplitl [HO]; · iexact HO
    isplitl [Hts0]; · iexact Hts0
    iexact Htr0
  iintro ⟨HcS0, HO⟩
  ihave Hsp := (split_1 c (slotSet c) (rowBuf m c)) $$ Hown
  icases Hsp with ⟨Hsh1, Hown⟩
  iapply (send_step' m K c 1 _ (dev9_eq c) _ (k0_off3_eq c) _ _ (k0_off2_eq c) _ (ORr c 5) (ORr c 6) rfl _ fn1) $$ [Hsh1 Hd1 HO Hts1 Htr1]
  · isplitr; · iexact Hrec
    isplitl [Hsh1]; · iexact Hsh1
    isplitl [Hd1]; · iexact Hd1
    isplitl [HO]; · iexact HO
    isplitl [Hts1]; · iexact Hts1
    iexact Htr1
  iintro ⟨HcS1, HO⟩
  rw [wp_ret]
  imodintro
  iapply Hk
  isplitl [HO]; · iexists _; iexact HO
  isplitl [Hown]; · iexact Hown
  isplitl [HcS0]; · iexact HcS0
  isplitl [HcS1]; · iexact HcS1
  isplitl [Hd2]; · iexists fn2; iexact Hd2
  isplitl [Hd3]; · iexists fn3; iexact Hd3
  isplitl [Hd4]; · iexists fn4; iexact Hd4
  isplitl [Hd5]; · iexists fn5; iexact Hd5
  iexists fn6; iexact Hd6

end Cert.KernelProof

end
-- ==== Proof.Bits.Part5.lean ====
/-
  Part 5 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 5: copies 2 to 5 of the own row. -/
theorem part5_spec (K : Dev nD × CK → ℕ) (c : Dev nD) (W : Waits sig Unit) (v46 v57 v68 : BitVec 32)
    {Q : (PUnit) → sProp 𝕄} :
    iprop(records m K
        ∗ owes (c : Thread nD τ) (ORr c 5) W
        ∗ scrPts c (slotSet c) (shAfter 2) (rowBuf m c)
        ∗ gotSlot c 2
        ∗ gotSlot c 3
        ∗ gotSlot c 4
        ∗ gotSlot c 5
        ∗ dutyTok ER (sendCell c 2) 0 0
        ∗ dutyTok ER (sendCell c 3) 0 0
        ∗ dutyTok ER (sendCell c 4) 0 0
        ∗ dutyTok ER (sendCell c 5) 0 0
        ∗ dutyTok ER (recvCell (peer c 2) c) 0 0
        ∗ dutyTok ER (recvCell (peer c 3) c) 0 0
        ∗ dutyTok ER (recvCell (peer c 4) c) 0 0
        ∗ dutyTok ER (recvCell (peer c 5) c) 0 0
        ∗ (((∃ W', owes (c : Thread nD τ) (ORr c 1) W')
            ∗ scrPts c (slotSet c) (shAfter 6) (rowBuf m c)
            ∗ cred (tallyAt (sendCell c 2) () N)
            ∗ cred (tallyAt (sendCell c 3) () N)
            ∗ cred (tallyAt (sendCell c 4) () N)
            ∗ cred (tallyAt (sendCell c 5) () N)) -∗ Q ⟨⟩))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_scratch0) (Memref.isWhole_whole _) cc0_scratch1 cc0_scratch2 c v46 v57 v68) Q := by
  simp only [k0_part5_eq_skeleton]; unfold k0_part5_skel
  simp only [semSignalWord, semWaitWord, Prog.lift, Prog.bind_op, Prog.bind_ret, Prog.pure_eq_ret]
  unfold gotSlot
  iintro ⟨#Hrec, HO, Hown, ⟨%fn2, Hd2⟩, ⟨%fn3, Hd3⟩, ⟨%fn4, Hd4⟩, ⟨%fn5, Hd5⟩, Hts2, Hts3, Hts4, Hts5, Htr2, Htr3, Htr4, Htr5, Hk⟩
  ihave Hsp := (split_2 c (slotSet c) (rowBuf m c)) $$ Hown
  icases Hsp with ⟨Hsh2, Hown⟩
  iapply (send_step' m K c 2 _ (dev10_eq c) _ (k0_off3_eq c) _ _ (k0_off2_eq c) _ (ORr c 4) (ORr c 5) rfl _ fn2) $$ [Hsh2 Hd2 HO Hts2 Htr2]
  · isplitr; · iexact Hrec
    isplitl [Hsh2]; · iexact Hsh2
    isplitl [Hd2]; · iexact Hd2
    isplitl [HO]; · iexact HO
    isplitl [Hts2]; · iexact Hts2
    iexact Htr2
  iintro ⟨HcS2, HO⟩
  ihave Hsp := (split_3 c (slotSet c) (rowBuf m c)) $$ Hown
  icases Hsp with ⟨Hsh3, Hown⟩
  iapply (send_step' m K c 3 _ (dev11_eq c) _ (k0_off3_eq c) _ _ (k0_off2_eq c) _ (ORr c 3) (ORr c 4) rfl _ fn3) $$ [Hsh3 Hd3 HO Hts3 Htr3]
  · isplitr; · iexact Hrec
    isplitl [Hsh3]; · iexact Hsh3
    isplitl [Hd3]; · iexact Hd3
    isplitl [HO]; · iexact HO
    isplitl [Hts3]; · iexact Hts3
    iexact Htr3
  iintro ⟨HcS3, HO⟩
  ihave Hsp := (split_4 c (slotSet c) (rowBuf m c)) $$ Hown
  icases Hsp with ⟨Hsh4, Hown⟩
  iapply (send_step' m K c 4 _ (dev12_eq c) _ (k0_off3_eq c) _ _ (k0_off2_eq c) _ (ORr c 2) (ORr c 3) rfl _ fn4) $$ [Hsh4 Hd4 HO Hts4 Htr4]
  · isplitr; · iexact Hrec
    isplitl [Hsh4]; · iexact Hsh4
    isplitl [Hd4]; · iexact Hd4
    isplitl [HO]; · iexact HO
    isplitl [Hts4]; · iexact Hts4
    iexact Htr4
  iintro ⟨HcS4, HO⟩
  ihave Hsp := (split_5 c (slotSet c) (rowBuf m c)) $$ Hown
  icases Hsp with ⟨Hsh5, Hown⟩
  iapply (send_step' m K c 5 _ (dev13_eq c) _ (k0_off3_eq c) _ _ (k0_off2_eq c) _ (ORr c 1) (ORr c 2) rfl _ fn5) $$ [Hsh5 Hd5 HO Hts5 Htr5]
  · isplitr; · iexact Hrec
    isplitl [Hsh5]; · iexact Hsh5
    isplitl [Hd5]; · iexact Hd5
    isplitl [HO]; · iexact HO
    isplitl [Hts5]; · iexact Hts5
    iexact Htr5
  iintro ⟨HcS5, HO⟩
  rw [wp_ret]
  imodintro
  iapply Hk
  isplitl [HO]; · iexists _; iexact HO
  isplitl [Hown]; · iexact Hown
  isplitl [HcS2]; · iexact HcS2
  isplitl [HcS3]; · iexact HcS3
  isplitl [HcS4]; · iexact HcS4
  iexact HcS5

end Cert.KernelProof

end
-- ==== Proof.Bits.Part6.lean ====
/-
  Part 6 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 6: the last copy; the own row read back; peer 0's row waited for and read; the first fold. -/
theorem part6_spec (K : Dev nD × CK → ℕ) (c : Dev nD) (W : Waits sig Unit) (v2 v13 v24 v79 : BitVec 32)
    {Q : (FVec F S1x1024 .f32) → sProp 𝕄} :
    iprop(records m K
        ∗ owes (c : Thread nD τ) (ORr c 1) W
        ∗ scrPts c (slotSet c) (shAfter 6) (rowBuf m c)
        ∗ gotSlot c 6
        ∗ dutyTok ER (sendCell c 6) 0 0
        ∗ dutyTok ER (recvCell (peer c 6) c) 0 0
        ∗ cred (tallyAt (recvCell c (peer c 0)) () N)
        ∗ atPos ER (recvCell c (peer c 0)) 0 ∅ 0
        ∗ (((∃ W', owes (c : Thread nD τ) (0) W')
            ∗ scrPts c (slotSet c) (shAfter 7) (rowBuf m c)
            ∗ cred (tallyAt (sendCell c 6) () N)
            ∗ semVal (recvCell c (peer c 0)) 0
            ∗ scrPts c (slotSet (peer c 0)) fullShare (rowBuf m (peer c 0))) -∗ Q (k0_pay3 (row m c) (row m (peer c 0)))))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_scratch0) (Memref.isWhole_whole _) cc0_scratch1 cc0_scratch2 c v2 v13 v24 v79) Q := by
  simp only [k0_part6_eq_skeleton]; unfold k0_part6_skel
  simp only [semSignalWord, semWaitWord, Prog.lift, Prog.bind_op, Prog.bind_ret, Prog.pure_eq_ret]
  unfold gotSlot
  iintro ⟨#Hrec, HO, Hown, ⟨%fn6, Hd6⟩, Hts6, Htr6, HcR0, HatR0, Hk⟩
  ihave Hsp := (split_6 c (slotSet c) (rowBuf m c)) $$ Hown
  icases Hsp with ⟨Hsh6, Hown⟩
  iapply (send_step' m K c 6 _ (dev14_eq c) _ (k0_off3_eq c) _ _ (k0_off2_eq c) _ (ORr c 0) (ORr c 1) rfl _ fn6) $$ [Hsh6 Hd6 HO Hts6 Htr6]
  · isplitr; · iexact Hrec
    isplitl [Hsh6]; · iexact Hsh6
    isplitl [Hd6]; · iexact Hd6
    isplitl [HO]; · iexact HO
    isplitl [Hts6]; · iexact Hts6
    iexact Htr6
  iintro ⟨HcS6, HO⟩
  iapply (wp_load 𝒱₀ (c : Thread nD τ) none Set.univ (m := rM) (load_sub' c _ (k0_off1_eq c) _)) $$ Hown; iintro Hown
  rw [read_row' m c _ (k0_off1_eq c) _]
  iapply (recv_wait_step' m K c 0 _ (off5_1_eq c) _ _ (off4_1_eq c) _ _) $$ [HcR0 HO HatR0]
  · isplitr; · iexact Hrec
    isplitl [HcR0]; · iexact HcR0
    isplitl [HO]; · iexact HO
    iexact HatR0
  iintro ⟨HO, HzR0, Hl0⟩
  iapply (wp_load 𝒱₀ (c : Thread nD τ) none Set.univ (m := rM) (load_sub' (peer c 0) _ (off6_1_eq c) _)) $$ Hl0; iintro Hl0
  rw [read_row' m (peer c 0) _ (off6_1_eq c) _]
  rw [wp_ret]
  imodintro
  iapply Hk
  isplitl [HO]; · iexists _; iexact HO
  isplitl [Hown]; · iexact Hown
  isplitl [HcS6]; · iexact HcS6
  isplitl [HzR0]; · iexact HzR0
  iexact Hl0

end Cert.KernelProof

end
-- ==== Proof.Bits.Part7.lean ====
/-
  Part 7 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 7: the rows of peers 1, 2, 3 waited for, read and folded in. -/
theorem part7_spec (K : Dev nD × CK → ℕ) (c : Dev nD) (W : Waits sig Unit) (v24 v35 v46 v57 : BitVec 32) (v187 : FVec F S1x1024 .f32)
    {Q : (FVec F S1x1024 .f32) → sProp 𝕄} :
    iprop(records m K
        ∗ owes (c : Thread nD τ) (0) W
        ∗ cred (tallyAt (recvCell c (peer c 1)) () N)
        ∗ cred (tallyAt (recvCell c (peer c 2)) () N)
        ∗ cred (tallyAt (recvCell c (peer c 3)) () N)
        ∗ atPos ER (recvCell c (peer c 1)) 0 ∅ 0
        ∗ atPos ER (recvCell c (peer c 2)) 0 ∅ 0
        ∗ atPos ER (recvCell c (peer c 3)) 0 ∅ 0
        ∗ (((∃ W', owes (c : Thread nD τ) (0) W')
            ∗ semVal (recvCell c (peer c 1)) 0
            ∗ semVal (recvCell c (peer c 2)) 0
            ∗ semVal (recvCell c (peer c 3)) 0
            ∗ scrPts c (slotSet (peer c 1)) fullShare (rowBuf m (peer c 1))
            ∗ scrPts c (slotSet (peer c 2)) fullShare (rowBuf m (peer c 2))
            ∗ scrPts c (slotSet (peer c 3)) fullShare (rowBuf m (peer c 3))) -∗ Q (k0_pay4 v187 (row m (peer c 1)) (row m (peer c 2)) (row m (peer c 3)))))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_scratch0) (Memref.isWhole_whole _) cc0_scratch1 cc0_scratch2 c v24 v35 v46 v57 v187) Q := by
  simp only [k0_part7_eq_skeleton]; unfold k0_part7_skel
  simp only [semSignalWord, semWaitWord, Prog.lift, Prog.bind_op, Prog.bind_ret, Prog.pure_eq_ret]
  iintro ⟨#Hrec, HO, HcR1, HcR2, HcR3, HatR1, HatR2, HatR3, Hk⟩
  iapply (recv_wait_step' m K c 1 _ (off5_2_eq c) _ _ (off4_2_eq c) _ _) $$ [HcR1 HO HatR1]
  · isplitr; · iexact Hrec
    isplitl [HcR1]; · iexact HcR1
    isplitl [HO]; · iexact HO
    iexact HatR1
  iintro ⟨HO, HzR1, Hl1⟩
  iapply (wp_load 𝒱₀ (c : Thread nD τ) none Set.univ (m := rM) (load_sub' (peer c 1) _ (off6_2_eq c) _)) $$ Hl1; iintro Hl1
  rw [read_row' m (peer c 1) _ (off6_2_eq c) _]
  iapply (recv_wait_step' m K c 2 _ (off5_3_eq c) _ _ (off4_3_eq c) _ _) $$ [HcR2 HO HatR2]
  · isplitr; · iexact Hrec
    isplitl [HcR2]; · iexact HcR2
    isplitl [HO]; · iexact HO
    iexact HatR2
  iintro ⟨HO, HzR2, Hl2⟩
  iapply (wp_load 𝒱₀ (c : Thread nD τ) none Set.univ (m := rM) (load_sub' (peer c 2) _ (off6_3_eq c) _)) $$ Hl2; iintro Hl2
  rw [read_row' m (peer c 2) _ (off6_3_eq c) _]
  iapply (recv_wait_step' m K c 3 _ (off5_4_eq c) _ _ (off4_4_eq c) _ _) $$ [HcR3 HO HatR3]
  · isplitr; · iexact Hrec
    isplitl [HcR3]; · iexact HcR3
    isplitl [HO]; · iexact HO
    iexact HatR3
  iintro ⟨HO, HzR3, Hl3⟩
  iapply (wp_load 𝒱₀ (c : Thread nD τ) none Set.univ (m := rM) (load_sub' (peer c 3) _ (off6_4_eq c) _)) $$ Hl3; iintro Hl3
  rw [read_row' m (peer c 3) _ (off6_4_eq c) _]
  rw [wp_ret]
  imodintro
  iapply Hk
  isplitl [HO]; · iexists _; iexact HO
  isplitl [HzR1]; · iexact HzR1
  isplitl [HzR2]; · iexact HzR2
  isplitl [HzR3]; · iexact HzR3
  isplitl [Hl1]; · iexact Hl1
  isplitl [Hl2]; · iexact Hl2
  iexact Hl3

end Cert.KernelProof

end
-- ==== Proof.Bits.Part8.lean ====
/-
  Part 8 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 8: the rows of peers 4, 5, 6 waited for, read and folded in; the output staging buffer read (a dead load). -/
theorem part8_spec (K : Dev nD × CK → ℕ) (c : Dev nD) (W : Waits sig Unit) (v57 v68 v79 : BitVec 32) (v223 : FVec F S1x1024 .f32) (g1 : (cc0_stg1_0 : Ref sig .tc).ty.Contents (Elt F))
    {Q : (FVec F S1x1024 .f32) → sProp 𝕄} :
    iprop(records m K
        ∗ owes (c : Thread nD τ) (0) W
        ∗ cred (tallyAt (recvCell c (peer c 4)) () N)
        ∗ cred (tallyAt (recvCell c (peer c 5)) () N)
        ∗ cred (tallyAt (recvCell c (peer c 6)) () N)
        ∗ atPos ER (recvCell c (peer c 4)) 0 ∅ 0
        ∗ atPos ER (recvCell c (peer c 5)) 0 ∅ 0
        ∗ atPos ER (recvCell c (peer c 6)) 0 ∅ 0
        ∗ (((c : Thread nD τ).loc cc0_stg1_0) ↦{fullShare} g1)
        ∗ (((∃ W', owes (c : Thread nD τ) (0) W')
            ∗ semVal (recvCell c (peer c 4)) 0
            ∗ semVal (recvCell c (peer c 5)) 0
            ∗ semVal (recvCell c (peer c 6)) 0
            ∗ scrPts c (slotSet (peer c 4)) fullShare (rowBuf m (peer c 4))
            ∗ scrPts c (slotSet (peer c 5)) fullShare (rowBuf m (peer c 5))
            ∗ scrPts c (slotSet (peer c 6)) fullShare (rowBuf m (peer c 6))
            ∗ (((c : Thread nD τ).loc cc0_stg1_0) ↦{fullShare} g1)) -∗ Q (k0_pay5 v223 (row m (peer c 4)) (row m (peer c 5)) (row m (peer c 6)))))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_scratch0) (Memref.isWhole_whole _) cc0_scratch1 cc0_scratch2 c v57 v68 v79 v223) Q := by
  simp only [k0_part8_eq_skeleton]; unfold k0_part8_skel
  simp only [semSignalWord, semWaitWord, Prog.lift, Prog.bind_op, Prog.bind_ret, Prog.pure_eq_ret]
  iintro ⟨#Hrec, HO, HcR4, HcR5, HcR6, HatR4, HatR5, HatR6, Hout, Hk⟩
  iapply (recv_wait_step' m K c 4 _ (off5_5_eq c) _ _ (off4_5_eq c) _ _) $$ [HcR4 HO HatR4]
  · isplitr; · iexact Hrec
    isplitl [HcR4]; · iexact HcR4
    isplitl [HO]; · iexact HO
    iexact HatR4
  iintro ⟨HO, HzR4, Hl4⟩
  iapply (wp_load 𝒱₀ (c : Thread nD τ) none Set.univ (m := rM) (load_sub' (peer c 4) _ (off6_5_eq c) _)) $$ Hl4; iintro Hl4
  rw [read_row' m (peer c 4) _ (off6_5_eq c) _]
  iapply (recv_wait_step' m K c 5 _ (off5_6_eq c) _ _ (off4_6_eq c) _ _) $$ [HcR5 HO HatR5]
  · isplitr; · iexact Hrec
    isplitl [HcR5]; · iexact HcR5
    isplitl [HO]; · iexact HO
    iexact HatR5
  iintro ⟨HO, HzR5, Hl5⟩
  iapply (wp_load 𝒱₀ (c : Thread nD τ) none Set.univ (m := rM) (load_sub' (peer c 5) _ (off6_6_eq c) _)) $$ Hl5; iintro Hl5
  rw [read_row' m (peer c 5) _ (off6_6_eq c) _]
  iapply (recv_wait_step' m K c 6 _ (off5_7_eq c) _ _ (off4_7_eq c) _ _) $$ [HcR6 HO HatR6]
  · isplitr; · iexact Hrec
    isplitl [HcR6]; · iexact HcR6
    isplitl [HO]; · iexact HO
    iexact HatR6
  iintro ⟨HO, HzR6, Hl6⟩
  iapply (wp_load 𝒱₀ (c : Thread nD τ) none Set.univ (m := rM) (load_sub' (peer c 6) _ (off6_7_eq c) _)) $$ Hl6; iintro Hl6
  rw [read_row' m (peer c 6) _ (off6_7_eq c) _]
  iapply (wp_load 𝒱₀ (c : Thread nD τ) none Set.univ (m := oM) (Finset.subset_univ _)) $$ Hout; iintro Hout
  rw [wp_ret]
  imodintro
  iapply Hk
  isplitl [HO]; · iexists _; iexact HO
  isplitl [HzR4]; · iexact HzR4
  isplitl [HzR5]; · iexact HzR5
  isplitl [HzR6]; · iexact HzR6
  isplitl [Hl4]; · iexact Hl4
  isplitl [Hl5]; · iexact Hl5
  isplitl [Hl6]; · iexact Hl6
  iexact Hout

end Cert.KernelProof

end
-- ==== Proof.Bits.Part9.lean ====
/-
  Part 9 of a device's body. The printed body is cut into parts of sixty statements; each part is run from what it needs to what it leaves,
  against any continuation.
-/
import proofs.«900918_g7700000000000919_dist_max_ax0_shard0_i_m2048_n1024_v7x_i8_bf16_1_alg».proof.Proof.Bits.PartLemmas

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row

/-- Part 9: the folded maximum stored; the ends of the reads of copies 0 to 3 waited for. -/
theorem part9_spec (K : Dev nD × CK → ℕ) (c : Dev nD) (W : Waits sig Unit) (v259 : FVec F S1x1024 .f32) (g1 : (cc0_stg1_0 : Ref sig .tc).ty.Contents (Elt F))
    {Q : (PUnit) → sProp 𝕄} :
    iprop(records m K
        ∗ owes (c : Thread nD τ) (0) W
        ∗ (((c : Thread nD τ).loc cc0_stg1_0) ↦{fullShare} g1)
        ∗ cred (tallyAt (sendCell c 0) () N)
        ∗ cred (tallyAt (sendCell c 1) () N)
        ∗ cred (tallyAt (sendCell c 2) () N)
        ∗ cred (tallyAt (sendCell c 3) () N)
        ∗ atPos ER (sendCell c 0) 0 ∅ 0
        ∗ atPos ER (sendCell c 1) 0 ∅ 0
        ∗ atPos ER (sendCell c 2) 0 ∅ 0
        ∗ atPos ER (sendCell c 3) 0 ∅ 0
        ∗ (((∃ W', owes (c : Thread nD τ) (0) W')
            ∗ (((c : Thread nD τ).loc cc0_stg1_0) ↦{fullShare} v259)
            ∗ semVal (sendCell c 0) 0
            ∗ semVal (sendCell c 1) 0
            ∗ semVal (sendCell c 2) 0
            ∗ semVal (sendCell c 3) 0
            ∗ scrPts c (slotSet c) (sendShare 0) (rowBuf m c)
            ∗ scrPts c (slotSet c) (sendShare 1) (rowBuf m c)
            ∗ scrPts c (slotSet c) (sendShare 2) (rowBuf m c)
            ∗ scrPts c (slotSet c) (sendShare 3) (rowBuf m c)) -∗ Q ⟨⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_scratch0) (Memref.isWhole_whole _) cc0_scratch1 cc0_scratch2 c v259) Q := by
  simp only [k0_part9_eq_skeleton]; unfold k0_part9_skel
  simp only [semSignalWord, semWaitWord, Prog.lift, Prog.bind_op, Prog.bind_ret, Prog.pure_eq_ret]
  iintro ⟨#Hrec, HO, Hout, HcS0, HcS1, HcS2, HcS3, HatS0, HatS1, HatS2, HatS3, Hk⟩
  iapply (wp_store 𝒱₀ (c : Thread nD τ) none Set.univ (m := oM) (r := r0o) (Mk := Finset.univ) (Finset.subset_univ _)) $$ Hout; iintro Hout
  rw [write_out]
  iapply (send_wait_step' m K c 0 _ (k0_off3_eq c) _ _) $$ [HcS0 HO HatS0]
  · isplitr; · iexact Hrec
    isplitl [HcS0]; · iexact HcS0
    isplitl [HO]; · iexact HO
    iexact HatS0
  iintro ⟨HO, HzS0, Hsh0⟩
  iapply (send_wait_step' m K c 1 _ (k0_off3_eq c) _ _) $$ [HcS1 HO HatS1]
  · isplitr; · iexact Hrec
    isplitl [HcS1]; · iexact HcS1
    isplitl [HO]; · iexact HO
    iexact HatS1
  iintro ⟨HO, HzS1, Hsh1⟩
  iapply (send_wait_step' m K c 2 _ (k0_off3_eq c) _ _) $$ [HcS2 HO HatS2]
  · isplitr; · iexact Hrec
    isplitl [HcS2]; · iexact HcS2
    isplitl [HO]; · iexact HO
    iexact HatS2
  iintro ⟨HO, HzS2, Hsh2⟩
  iapply (send_wait_step' m K c 3 _ (k0_off3_eq c) _ _) $$ [HcS3 HO HatS3]
  · isplitr; · iexact Hrec
    isplitl [HcS3]; · iexact HcS3
    isplitl [HO]; · iexact HO
    iexact HatS3
  iintro ⟨HO, HzS3, Hsh3⟩
  rw [wp_ret]
  imodintro
  iapply Hk
  isplitl [HO]; · iexists _; iexact HO
  isplitl [Hout]; · iexact Hout
  isplitl [HzS0]; · iexact HzS0
  isplitl [HzS1]; · iexact HzS1
  isplitl [HzS2]; · iexact HzS2
  isplitl [HzS3]; · iexact HzS3
  isplitl [Hsh0]; · iexact Hsh0
  isplitl [Hsh1]; · iexact Hsh1
  isplitl [Hsh2]; · iexact Hsh2
  iexact Hsh3

end Cert.KernelProof

end
-- ==== Proof.Bits.Body.lean ====
/-
  One device's body under the protocol, composed along the printed body's root sequence of parts: from the ghost state,
  credit and buffers the launch deals it — through the seven signals, the column maxima of its block stored in its own
  slot, the wait for all seven peers, the seven copies of its row, the seven peers' rows folded in by `max`, the store
  of the result and the seven waits for its copies' reads — to the exchange buffer whole again, every own cell closed
  at zero, and the result in the output staging buffer. Then the same as the library's body obligation.
-/
import proofs.«900918_g7700000000000919_dist_max_ax0_shard0_i_m2048_n1024_v7x_i8_bf16_1_alg».proof.Proof.Bits.Part3
import proofs.«900918_g7700000000000919_dist_max_ax0_shard0_i_m2048_n1024_v7x_i8_bf16_1_alg».proof.Proof.Bits.Part4
import proofs.«900918_g7700000000000919_dist_max_ax0_shard0_i_m2048_n1024_v7x_i8_bf16_1_alg».proof.Proof.Bits.Part5
import proofs.«900918_g7700000000000919_dist_max_ax0_shard0_i_m2048_n1024_v7x_i8_bf16_1_alg».proof.Proof.Bits.Part6
import proofs.«900918_g7700000000000919_dist_max_ax0_shard0_i_m2048_n1024_v7x_i8_bf16_1_alg».proof.Proof.Bits.Part7
import proofs.«900918_g7700000000000919_dist_max_ax0_shard0_i_m2048_n1024_v7x_i8_bf16_1_alg».proof.Proof.Bits.Part8
import proofs.«900918_g7700000000000919_dist_max_ax0_shard0_i_m2048_n1024_v7x_i8_bf16_1_alg».proof.Proof.Bits.Part9

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option allowUnsafeReducibility true in
attribute [local reducible] scrPts row
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (K : Dev nD × CK → ℕ) (c : Dev nD) : sProp 𝕄 :=
  iprop((ghost m K c ∗ creds c ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m c) ∗ stg c cc0_stg1_0 (outAt m c))

set_option maxHeartbeats 6400000 in
set_option maxRecDepth 8000 in
/-- The body on device `c`, from `bodyPre` to `bodyPost`, one rule per effect in program order. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  unfold bodyPre ghost linear payToks creds
  rw [bigSep_CK]; simp only [bigSep_fin7]; rw [bigSep_devs c]
  iintro ⟨⟨⟨⟨#Hrec, ⟨HatB, ⟨HatS0, HatS1, HatS2, HatS3, HatS4, HatS5, HatS6⟩, ⟨HatRc, HatR0, HatR1, HatR2, HatR3, HatR4, HatR5, HatR6⟩⟩, ⟨⟨Htb0, Htr0, Hts0⟩, ⟨Htb1, Htr1, Hts1⟩, ⟨Htb2, Htr2, Hts2⟩, ⟨Htb3, Htr3, Hts3⟩, ⟨Htb4, Htr4, Hts4⟩, ⟨Htb5, Htr5, Hts5⟩, ⟨Htb6, Htr6, Hts6⟩⟩⟩, ⟨HcB, HcR0, HcR1, HcR2, HcR3, HcR4, HcR5, HcR6⟩, #Hlev, Hscr⟩,
    Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hs := (open_scr c) $$ Hscr
  icases Hs with ⟨%f0, Hown, Hs0, Hs1, Hs2, Hs3, Hs4, Hs5, Hs6⟩
  -- parts 1 and 2 compute indices only
  rw [wp_bind]
  iapply (part1_spec c)
  iintro %v2 %v13 %v24 %v35
  dsimp only
  rw [wp_bind]
  iapply (part2_spec c v2)
  iintro %a2
  obtain ⟨v46, v57, v68, v69, c8, v70, c1⟩ := a2
  dsimp only
  -- part 3: the signals, the block loaded
  rw [wp_bind]
  iapply (part3_spec m K c W f0 v13 v24 v35 v46 v57 v68 v69 c8 v70 c1)
  isplitr; · iexact Hrec
  isplitl [HO]; · iexact HO
  isplitl [Htb0]; · iexact Htb0
  isplitl [Htb1]; · iexact Htb1
  isplitl [Htb2]; · iexact Htb2
  isplitl [Htb3]; · iexact Htb3
  isplitl [Htb4]; · iexact Htb4
  isplitl [Htb5]; · iexact Htb5
  isplitl [Htb6]; · iexact Htb6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hx]; · iexact Hx
  iintro %v79 ⟨⟨%W3, HO⟩, Hx⟩
  dsimp only
  -- part 4: the own row stored, the wait for the peers, copies 0 and 1
  rw [wp_bind]
  iapply (part4_spec m K c W3 f0 v2 v13 v24 v35)
  isplitr; · iexact Hrec
  isplitr; · iexact Hlev
  isplitl [HO]; · iexact HO
  isplitl [HcB]; · iexact HcB
  isplitl [HatB]; · iexact HatB
  isplitl [Hown]; · iexact Hown
  isplitl [Hts0]; · iexact Hts0
  isplitl [Htr0]; · iexact Htr0
  isplitl [Hts1]; · iexact Hts1
  isplitl [Htr1]; · iexact Htr1
  iintro ⟨⟨%W4, HO⟩, Hown, HcS0, HcS1, Hd2, Hd3, Hd4, Hd5, Hd6⟩
  -- part 5: copies 2 to 5
  rw [wp_bind]
  iapply (part5_spec m K c W4 v46 v57 v68)
  isplitr; · iexact Hrec
  isplitl [HO]; · iexact HO
  isplitl [Hown]; · iexact Hown
  isplitl [Hd2]; · iexact Hd2
  isplitl [Hd3]; · iexact Hd3
  isplitl [Hd4]; · iexact Hd4
  isplitl [Hd5]; · iexact Hd5
  isplitl [Hts2]; · iexact Hts2
  isplitl [Hts3]; · iexact Hts3
  isplitl [Hts4]; · iexact Hts4
  isplitl [Hts5]; · iexact Hts5
  isplitl [Htr2]; · iexact Htr2
  isplitl [Htr3]; · iexact Htr3
  isplitl [Htr4]; · iexact Htr4
  isplitl [Htr5]; · iexact Htr5
  iintro ⟨⟨%W5, HO⟩, Hown, HcS2, HcS3, HcS4, HcS5⟩
  -- part 6: copy 6, the own row and peer 0's read
  rw [wp_bind]
  iapply (part6_spec m K c W5 v2 v13 v24 v79)
  isplitr; · iexact Hrec
  isplitl [HO]; · iexact HO
  isplitl [Hown]; · iexact Hown
  isplitl [Hd6]; · iexact Hd6
  isplitl [Hts6]; · iexact Hts6
  isplitl [Htr6]; · iexact Htr6
  isplitl [HcR0]; · iexact HcR0
  isplitl [HatR0]; · iexact HatR0
  iintro ⟨⟨%W6, HO⟩, Hown, HcS6, HzR0, Hl0⟩
  -- part 7: peers 1, 2, 3
  rw [wp_bind]
  iapply (part7_spec m K c W6 v24 v35 v46 v57 _)
  isplitr; · iexact Hrec
  isplitl [HO]; · iexact HO
  isplitl [HcR1]; · iexact HcR1
  isplitl [HcR2]; · iexact HcR2
  isplitl [HcR3]; · iexact HcR3
  isplitl [HatR1]; · iexact HatR1
  isplitl [HatR2]; · iexact HatR2
  isplitl [HatR3]; · iexact HatR3
  iintro ⟨⟨%W7, HO⟩, HzR1, HzR2, HzR3, Hl1, Hl2, Hl3⟩
  -- part 8: peers 4, 5, 6
  rw [wp_bind]
  iapply (part8_spec m K c W7 v57 v68 v79 _ g1)
  isplitr; · iexact Hrec
  isplitl [HO]; · iexact HO
  isplitl [HcR4]; · iexact HcR4
  isplitl [HcR5]; · iexact HcR5
  isplitl [HcR6]; · iexact HcR6
  isplitl [HatR4]; · iexact HatR4
  isplitl [HatR5]; · iexact HatR5
  isplitl [HatR6]; · iexact HatR6
  isplitl [Hout]; · iexact Hout
  iintro ⟨⟨%W8, HO⟩, HzR4, HzR5, HzR6, Hl4, Hl5, Hl6, Hout⟩
  -- part 9: the result stored, the ends of copies 0 to 3
  rw [wp_bind]
  iapply (part9_spec m K c W8 _ g1)
  isplitr; · iexact Hrec
  isplitl [HO]; · iexact HO
  isplitl [Hout]; · iexact Hout
  isplitl [HcS0]; · iexact HcS0
  isplitl [HcS1]; · iexact HcS1
  isplitl [HcS2]; · iexact HcS2
  isplitl [HcS3]; · iexact HcS3
  isplitl [HatS0]; · iexact HatS0
  isplitl [HatS1]; · iexact HatS1
  isplitl [HatS2]; · iexact HatS2
  isplitl [HatS3]; · iexact HatS3
  iintro ⟨⟨%W9, HO⟩, Hout, HzS0, HzS1, HzS2, HzS3, Hsh0, Hsh1, Hsh2, Hsh3⟩
  -- the ends of copies 4, 5, 6
  simp only [Prog.lift, Prog.bind_op, Prog.bind_ret, Prog.pure_eq_ret, wp_ret]
  iapply (send_wait_step' m K c 4 _ (k0_off3_eq c) _ _) $$ [HcS4 HO HatS4]
  · isplitr; · iexact Hrec
    isplitl [HcS4]; · iexact HcS4
    isplitl [HO]; · iexact HO
    iexact HatS4
  iintro ⟨HO, HzS4, Hsh4⟩
  iapply (send_wait_step' m K c 5 _ (k0_off3_eq c) _ _) $$ [HcS5 HO HatS5]
  · isplitr; · iexact Hrec
    isplitl [HcS5]; · iexact HcS5
    isplitl [HO]; · iexact HO
    iexact HatS5
  iintro ⟨HO, HzS5, Hsh5⟩
  iapply (send_wait_step' m K c 6 _ (k0_off3_eq c) _ _) $$ [HcS6 HO HatS6]
  · isplitr; · iexact Hrec
    isplitl [HcS6]; · iexact HcS6
    isplitl [HO]; · iexact HO
    iexact HatS6
  iintro ⟨HO, HzS6, Hsh6⟩
  rw [wp_ret]
  -- the receive cell no peer pays is closed as it stands
  ihave #HIrc := (rec_inv m K (c, .inr (.inr c))) $$ Hrec
  imod (Rounds.cell_close ER (sched m) (Set.mem_univ (K (c, .inr (.inr c)))) (fun h => h) (R := 0) (duties_recv_self_all m c)) $$ [HatRc] with HzRc
  · isplitr; · iexact HIrc
    iexact HatRc
  imodintro
  iapply Hk
  unfold bodyPost Dat.owesAt Pipeline.owesWithin
  rw [show (dats m ρ 0 c).owed t₀.succ = 0 from rfl]
  isplitl [Hown Hsh0 Hsh1 Hsh2 Hsh3 Hsh4 Hsh5 Hsh6 Hl0 Hl1 Hl2 Hl3 Hl4 Hl5 Hl6 HzS0 HzS1 HzS2 HzS3 HzS4 HzS5 HzS6 HzRc HzR0 HzR1 HzR2 HzR3 HzR4 HzR5 HzR6]
  · ihave Hfull := (join_shares c (slotSet c) (rowBuf m c)) $$ [Hown Hsh0 Hsh1 Hsh2 Hsh3 Hsh4 Hsh5 Hsh6]
    · isplitl [Hown]; · iexact Hown
      isplitl [Hsh0]; · iexact Hsh0
      isplitl [Hsh1]; · iexact Hsh1
      isplitl [Hsh2]; · iexact Hsh2
      isplitl [Hsh3]; · iexact Hsh3
      isplitl [Hsh4]; · iexact Hsh4
      isplitl [Hsh5]; · iexact Hsh5
      iexact Hsh6
    iapply (close_phi1 m c)
    isplitl [Hfull]; · iexact Hfull
    isplitl [Hl0 Hl1 Hl2 Hl3 Hl4 Hl5 Hl6]
    · rw [bigSep_fin7]
      isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      iexact Hl6
    isplitl [HzS0 HzS1 HzS2 HzS3 HzS4 HzS5 HzS6]
    · rw [bigSep_fin7]
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzRc]; · iexact HzRc
    rw [bigSep_fin7]
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists (insert (SemLoc.dma (sendSem 6), ()) (insert (SemLoc.dma (sendSem 5), ()) (insert (SemLoc.dma (sendSem 4), ()) W9)))
    isplitr; · ipureintro; exact fun _ _ => Or.inl trivial
    iexact HO
  isplitl [Hx]
  · iexists _; isplitr; · (ipureintro; rfl)
    iexact Hx
  iexists _; isplitr; · (ipureintro; rfl)
  iexact Hout

/-! ## The library's body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.Bits.LaunchGhost.lean ====
/-
  The ghost state of the eight-device column maximum at launch.

  The protocol's cells are every device's sixteen. The launch mints, per device and per offset `k`, the token of
  its barrier cell's duty `k`, of its send cell `k`'s duty and of the duty of its receive cell for its peer `k`. One
  update allocates every cell's invariant, for all devices at once (a barrier cell's invariant is opened by seven other
  devices). Then the tokens are dealt to the devices that pay them: the barrier token `(p, k)` to the device whose
  `k`-th peer is `p`; the token of `p`'s receive cell for `j` to `j`, which is `p`'s peer `k` exactly when `p` is `j`'s peer
  `6 - k`.
-/
import proofs.«900918_g7700000000000919_dist_max_ax0_shard0_i_m2048_n1024_v7x_i8_bf16_1_alg».proof.Proof.Bits.OwnSems

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells and tokens -/

theorem kcell_injective : Function.Injective (kcell : Dev nD × CK → GSem nD τ sig) := by
  rintro ⟨c, x⟩ ⟨c', x'⟩ h
  have h1 : c = c' := congrArg (fun g : GSem nD τ sig => g.1.1) h
  subst h1
  have h2 : x = x' := csem_injective (congrArg Prod.snd h)
  subst h2; rfl

def protoCells : Finset (GSem nD τ sig) := Finset.univ.map ⟨kcell, kcell_injective⟩

/-- The duties minted per device: by offset, the barrier's, the send cell's, the receive cell's. -/
abbrev TK : Type := Fin 7 ⊕ Fin 7 ⊕ Fin 7

/-- A device's own cells' duty tokens as minted. -/
abbrev tokOf : Dev nD × TK → GSem nD τ sig × ℕ × Fin 7
  | (c, .inl k) => (kcell (c, .inl ()), 0, k)
  | (c, .inr (.inl k)) => (kcell (c, .inr (.inl k)), 0, 0)
  | (c, .inr (.inr k)) => (kcell (c, .inr (.inr (peer c k))), 0, 0)

theorem tok_eq {c c' : Dev nD} {x x' : CK} {r r' : ℕ} {d d' : Fin 7}
    (h : ((kcell (c, x), r, d) : GSem nD τ sig × ℕ × Fin 7) = (kcell (c', x'), r', d')) : c = c' ∧ x = x' ∧ d = d' := by
  obtain ⟨h1, h2⟩ := Prod.mk.inj (kcell_injective (congrArg Prod.fst h))
  exact ⟨h1, h2, congrArg (fun y : GSem nD τ sig × ℕ × Fin 7 => y.2.2) h⟩

theorem tokOf_injective : Function.Injective tokOf := by
  rintro ⟨c, k | k | k⟩ ⟨c', k' | k' | k'⟩ h
  · obtain ⟨rfl, -, rfl⟩ := tok_eq (x := .inl ()) (x' := .inl ()) h; rfl
  · obtain ⟨-, hx, -⟩ := tok_eq (x := .inl ()) (x' := .inr (.inl k')) h; cases hx
  · obtain ⟨-, hx, -⟩ := tok_eq (x := .inl ()) (x' := .inr (.inr (peer c' k'))) h; cases hx
  · obtain ⟨-, hx, -⟩ := tok_eq (x := .inr (.inl k)) (x' := .inl ()) h; cases hx
  · obtain ⟨rfl, hx, -⟩ := tok_eq (x := .inr (.inl k)) (x' := .inr (.inl k')) h; cases hx; rfl
  · obtain ⟨-, hx, -⟩ := tok_eq (x := .inr (.inl k)) (x' := .inr (.inr (peer c' k'))) h; cases hx
  · obtain ⟨-, hx, -⟩ := tok_eq (x := .inr (.inr (peer c k))) (x' := .inl ()) h; cases hx
  · obtain ⟨-, hx, -⟩ := tok_eq (x := .inr (.inr (peer c k))) (x' := .inr (.inl k')) h; cases hx
  · obtain ⟨rfl, hx, -⟩ := tok_eq (x := .inr (.inr (peer c k))) (x' := .inr (.inr (peer c' k'))) h
    have hk : k = k' := peer_inj c (Sum.inr.inj (Sum.inr.inj hx))
    subst hk; rfl

def protoToks : Finset (GSem nD τ sig × ℕ × Fin 7) := Finset.univ.map ⟨tokOf, tokOf_injective⟩

/-- The launch element: the pipeline library's, and the protocol's. -/
def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ bigSep Finset.univ fun k : Fin 7 => dutyTok ER (recvCell c (peer c k)) 0 0)

/-- What the launch element deals device `c`. -/
def G (c : Dev nD) : sProp 𝕄 :=
  iprop((bigSep Finset.univ fun x : CK => roundState ER (sched m) (kcell (c, x)) 0)
    ∗ (bigSep Finset.univ fun x : CK => iprop(atPos ER (kcell (c, x)) 0 ∅ 0 ∗ reached ER (kcell (c, x)) 0)) ∗ toks c)

/-- What the global step makes of it. -/
def G' (c : Dev nD) : sProp 𝕄 := iprop(∃ K, ghost m K c)

omit [FloatOps F] in
theorem bigSep_kinds (Φ : CK → sProp 𝕄) :
    bigSep Finset.univ Φ = iprop(Φ (.inl ()) ∗ (bigSep Finset.univ fun k : Fin 7 => Φ (.inr (.inl k))) ∗ bigSep Finset.univ fun j : Dev nD => Φ (.inr (.inr j))) := by
  rw [bigSep_univ_sum, bigSep_univ_sum, bigSep_univ_of_subsingleton ()]; rfl

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun x : CK => Φ (kcell (c, x)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, cell by cell -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_kinds]
  iintro ⟨⟨HS, HV⟩, HB⟩
  isplitl [HB]; · iexact HB
  isplitl [HS] <;> iassumption

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (sched m) (kcell (c, x)) 0)
      ⊢ (|={Set.univ}=> bigSep Finset.univ fun x : CK => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- Offset `k` as a permutation of the devices. -/
def peerE (k : Fin 7) : Dev nD ≃ Dev nD := ⟨fun c => peer c k, fun p => rpeer p k, fun c => rpeer_peer c k, fun p => peer_rpeer p k⟩

/-- The offset from the other end: device `c` is the peer `6 - k` of its peer `k`. -/
def rev (k : Fin 7) : Fin 7 := ⟨6 - k.val, by omega⟩
theorem peer_peer_rev (c : Dev nD) (k : Fin 7) : peer (peer c k) (rev k) = c := by revert c k; decide
theorem rev_rev (k : Fin 7) : rev (rev k) = k := by revert k; decide
theorem peer_rev (c : Dev nD) (k : Fin 7) : peer c (rev k) = rpeer c k := by revert c k; decide

/-- A device and an offset, seen from the peer's end. -/
def swapE : Dev nD × Fin 7 ≃ Dev nD × Fin 7 :=
  ⟨fun x => (peer x.1 x.2, rev x.2), fun x => (peer x.1 x.2, rev x.2),
    fun x => by obtain ⟨c, k⟩ := x; show (peer (peer c k) (rev k), rev (rev k)) = (c, k); rw [peer_peer_rev, rev_rev],
    fun x => by obtain ⟨c, k⟩ := x; show (peer (peer c k) (rev k), rev (rev k)) = (c, k); rw [peer_peer_rev, rev_rev]⟩

omit [FloatOps F] in
/-- A product over devices and offsets, reindexed by the device the offset leads to. -/
theorem bar_around (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [bigSep_univ_comm Φ, bigSep_univ_comm fun (c : Dev nD) (k : Fin 7) => Φ (peer c k) k]
  exact bigSep_congr fun k _ => bigSep_univ_equiv (peerE k) fun p => Φ p k

omit [FloatOps F] in
/-- A product over ordered pairs (device, one of its peers), reindexed from the peer's end. -/
theorem recv_around (Ψ : Dev nD → Dev nD → sProp 𝕄) :
    (bigSep Finset.univ fun c : Dev nD => bigSep Finset.univ fun k : Fin 7 => Ψ c (peer c k))
      = bigSep Finset.univ fun c : Dev nD => bigSep Finset.univ fun k : Fin 7 => Ψ (peer c k) c :=
  calc (bigSep Finset.univ fun c : Dev nD => bigSep Finset.univ fun k : Fin 7 => Ψ c (peer c k))
      = bigSep Finset.univ fun x : Dev nD × Fin 7 => Ψ x.1 (peer x.1 x.2) := (bigSep_univ_prod fun x : Dev nD × Fin 7 => Ψ x.1 (peer x.1 x.2)).symm
    _ = bigSep Finset.univ fun x : Dev nD × Fin 7 => Ψ (swapE x).1 (peer (swapE x).1 (swapE x).2) := bigSep_univ_equiv swapE _
    _ = bigSep Finset.univ fun x : Dev nD × Fin 7 => Ψ (peer x.1 x.2) x.1 :=
        bigSep_congr fun x _ => by
          show Ψ (peer x.1 x.2) (peer (peer x.1 x.2) (rev x.2)) = _
          rw [peer_peer_rev]
    _ = bigSep Finset.univ fun c : Dev nD => bigSep Finset.univ fun k : Fin 7 => Ψ (peer c k) c := bigSep_univ_prod fun x : Dev nD × Fin 7 => Ψ (peer x.1 x.2) x.1

omit [FloatOps F] in
/-- Every minted token reaches the device that pays it. -/
theorem toks_around : (bigSep Finset.univ fun c : Dev nD => (toks c : sProp 𝕄)) ⊢ bigSep Finset.univ fun c : Dev nD => payToks c := by
  unfold toks payToks
  simp only [bigSep_sep']
  rw [bar_around (fun p k => (dutyTok ER (barCell p) 0 k : sProp 𝕄)), recv_around (fun p j => (dutyTok ER (recvCell p j) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun x : CK => iprop(∃ κ : ℕ, cellInv ER (sched m) κ (kcell (c, x))))
          ∗ (bigSep Finset.univ fun x : CK => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelProof

end
-- ==== Proof.Bits.LaunchCred.lean ====
/-
  The credit the launch deals each device of the eight-device column maximum.

  A device owes, per offset `k`, one unit at its peer `k`'s barrier cell and one copy's credit at that peer's receive
  cell for it. Summed over the devices, a barrier cell is owed seven units (one by each other device) and device `c`'s
  receive cell for `j` one copy's credit (by `j`): what `c` waits for.
-/
import proofs.«900918_g7700000000000919_dist_max_ax0_shard0_i_m2048_n1024_v7x_i8_bf16_1_alg».proof.Proof.Bits.LaunchGhost
import Mathlib.Algebra.BigOperators.Fin
import Mathlib.Tactic.Abel

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes, as a sum over the offsets -/

theorem O₀_sum (c : Dev nD) : O₀ c = ∑ k : Fin 7, (rT c k + bT c k) := by
  have h : O₀ c = 0 + rT c 6 + rT c 5 + rT c 4 + rT c 3 + rT c 2 + rT c 1 + rT c 0
      + bT c 6 + bT c 5 + bT c 4 + bT c 3 + bT c 2 + bT c 1 + bT c 0 := rfl
  rw [h, Fin.sum_univ_seven, zero_add]
  abel

/-- Seven units at one cell. -/
theorem sum_units (g : GSem nD τ sig) : (∑ _k : Fin 7, tallyAt g () 1 : CellTallies nD τ sig Unit) = tallyAt g () 7 := by
  rw [Fin.sum_univ_seven, tallyAt_add, tallyAt_add, tallyAt_add, tallyAt_add, tallyAt_add, tallyAt_add]

/-! ## The launch credit, offset by offset -/

omit [FloatOps F] in
/-- The units owed at offset `k` reach each device's barrier cell: one, from the device whose peer `k` it is. -/
theorem launchCred_bar (k : Fin 7) (c : Dev nD) :
    (Pipeline.launchCred (fun d : Dev nD => bT d k) c : sProp 𝕄) ⊢ cred (tallyAt (barCell c) () 1) :=
  Pipeline.launchCred_tallyAt (SemLoc.reg barS) (fun d => peer d k) (fun p => rpeer p k) (fun p => peer_rpeer p k) (fun d => rpeer_peer d k) () 1 c

omit [FloatOps F] in
/-- The copy credits owed at offset `k` reach each device's receive cell for the device whose peer `k` it is. -/
theorem launchCred_recv (k : Fin 7) (c : Dev nD) :
    (Pipeline.launchCred (fun d : Dev nD => rT d k) c : sProp 𝕄) ⊢ cred (tallyAt (recvCell c (rpeer c k)) () N) := by
  refine (Pipeline.launchCred_elim _ c (SemLoc.dma (recvSem (rpeer c k)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ rpeer c k → rT d k (recvCell c (rpeer c k)) = 0 := fun d _ hd => by
    unfold rT
    refine tallyAt_ne_cell (fun h => hd ?_) () N
    have h3 : c = peer d k := congrArg (fun g : GSem nD τ sig => g.1.1) h
    rw [h3, rpeer_peer]
  rw [Finset.sum_eq_single (rpeer c k) h0 (fun h => absurd (Finset.mem_univ _) h)]
  unfold rT tallyAt tallyOn
  rw [peer_rpeer, Pi.single_eq_same]

/-! ## The credit a device starts with -/

def revE : Fin 7 ≃ Fin 7 := ⟨rev, rev, rev_rev, rev_rev⟩

omit [FloatOps F] in
theorem creds_intro (c : Dev nD) : (Pipeline.launchCred O₀ c : sProp 𝕄) ⊢ creds c := by
  have hO : (O₀ : Dev nD → CellTallies nD τ sig Unit) = fun d => ∑ k ∈ (Finset.univ : Finset (Fin 7)), (rT d k + bT d k) := funext O₀_sum
  have hk (k : Fin 7) : (Pipeline.launchCred (fun d : Dev nD => rT d k + bT d k) c : sProp 𝕄)
      ⊢ iprop(cred (tallyAt (recvCell c (rpeer c k)) () N) ∗ cred (tallyAt (barCell c) () 1)) := by
    rw [Pipeline.launchCred_add]
    exact BI.sep_mono (launchCred_recv k c) (launchCred_bar k c)
  have hbars : (bigSep Finset.univ fun _ : Fin 7 => (cred (tallyAt (barCell c) () 1) : sProp 𝕄)) = cred (tallyAt (barCell c) () 7) := by
    rw [← Pipeline.cred_finsetSum, sum_units]
  have hrecvs : (bigSep Finset.univ fun k : Fin 7 => (cred (tallyAt (recvCell c (rpeer c k)) () N) : sProp 𝕄))
      = bigSep Finset.univ fun k : Fin 7 => cred (tallyAt (recvCell c (peer c k)) () N) := by
    rw [bigSep_univ_equiv revE fun k : Fin 7 => (cred (tallyAt (recvCell c (peer c k)) () N) : sProp 𝕄)]
    exact bigSep_congr fun k _ => by
      show (cred (tallyAt (recvCell c (rpeer c k)) () N) : sProp 𝕄) = cred (tallyAt (recvCell c (peer c (rev k))) () N)
      rw [peer_rev]
  have hmid : (bigSep Finset.univ fun k : Fin 7 => iprop(cred (tallyAt (recvCell c (rpeer c k)) () N) ∗ cred (tallyAt (barCell c) () 1)) : sProp 𝕄)
      = iprop((bigSep Finset.univ fun k : Fin 7 => cred (tallyAt (recvCell c (peer c k)) () N)) ∗ cred (tallyAt (barCell c) () 7)) := by
    rw [bigSep_sep', hbars, hrecvs]
  have hfin : iprop((bigSep Finset.univ fun k : Fin 7 => cred (tallyAt (recvCell c (peer c k)) () N)) ∗ cred (tallyAt (barCell c) () 7))
      ⊢ (creds c : sProp 𝕄) := by
    unfold creds
    iintro ⟨HR, HB⟩
    isplitl [HB] <;> iassumption
  rw [hO, Pipeline.launchCred_sum Finset.univ (fun (k : Fin 7) (d : Dev nD) => rT d k + bT d k) c]
  exact ((bigSep_mono fun k _ => hk k).trans (Entails.of_eq hmid)).trans hfin

end Cert.KernelProof

end
-- ==== Proof.Bits.Launch.lean ====
/-
  The launch of the eight-device column maximum.

  From any memory with every counter at zero, the eight kernels run to completion under every weakly fair schedule, given
  the one obligation about a single device's body. The launch deals each device its ghost state, its credit and the
  level facts; the body's pre- and postcondition are joined to the pipeline's scoped and unscoped rest; and at the end
  each device's argument array is unchanged and its result array holds the folded row.
-/
import proofs.«900918_g7700000000000919_dist_max_ax0_shard0_i_m2048_n1024_v7x_i8_bf16_1_alg».proof.Proof.Bits.Levels
import proofs.«900918_g7700000000000919_dist_max_ax0_shard0_i_m2048_n1024_v7x_i8_bf16_1_alg».proof.Proof.Bits.LaunchCred

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data's small facts -/

theorem ownSemFacts : Pipeline.OwnSemFacts cfg0.spec osem := by decide

theorem share_eq (c : Dev nD) (w : Fin cfg0.W) : (dats m ρ 0 c).share w = fullShare := by unfold Dat.share; split <;> rfl

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scrAny
  iintro ⟨Hr, Hz⟩
  isplitr; · iempintro
  isplitl [Hz] <;> iassumption

/-- The pipeline's own waits are on the staging semaphores: no protocol cell, so at level 0. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (Or.inl (kind?_none _ (by fin_cases w <;> fin_cases s <;> decide))) _ (by
      rcases t with ⟨_ | _, ht⟩
      · exact Or.inl rfl
      · exact Or.inr rfl)

/-! ## The run -/

/-- Device `c`'s window arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of eight devices, for any float values, from any memory with zero counters: given the obligation about
    one device's body, every weakly fair execution of the program terminates, and every final state has each device's
    window arrays at the computed contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run: the launch contents overwritten, at the one point, by the folded row. -/
theorem finalA_out_eq (c : Dev nD) :
    finalA m ρ c (1 : Fin 2)
      = (win0_1.blk t0_0).view.write (Elt F) (m ((c : Thread nD τ).loc main_v1)) (outAt m c) Finset.univ := by
  have h := (dats (F := F) m ρ 0 c).arrAt_succ (1 : Fin 2) t0_0
  rw [flush0_1 t0_0, if_pos rfl] at h
  exact h

/-- The result array after the run, read as the window's block, is the folded row. -/
theorem finalA_out_read (c : Dev nD) : (win0_1.blk t0_0).view.read (Elt F) (finalA m ρ c (1 : Fin 2)) = outAt m c := by
  rw [finalA_out_eq]
  exact View.read_write_univ _ _

/-- The result array after the run is the folded row: the window's block is the whole array, at offset zero. -/
theorem finalA_out (c : Dev nD) : finalA m ρ c (1 : Fin 2) = outAt m c := by
  rw [finalA_out_eq]
  exact Memref.write_access_unit_zero_univ (Elt F) main_v1 (off := fun a => win0_1.index t0_0 a * win0_1.size a)
    (funext fun a => Nat.zero_mul _) _ _ _

end Cert.KernelProof

end
-- ==== Proof.MaxLaw.lean ====
/-
  The maximum over 16384 rows, block by block.

  Over any linear order: folding `max` from a starting value `b` over all 16384 rows gives the same as folding it
  over each of the eight blocks of 2048 consecutive rows, every fold starting from `b`, and then folding the eight
  results by `max` in any order and grouping that names every block at least once. Only the associativity,
  commutativity and idempotence of `max` are used: `b` may be anything, and no entry need be finite.
-/
import Mathlib.Data.Finset.Fold
import Mathlib.Data.Fintype.Basic
import Mathlib.Order.Lattice

namespace Cert.MaxLaw

variable {α : Type} [LinearOrder α]

/-- The `max` of eight values, folded from the left. -/
def max8 (v0 v1 v2 v3 v4 v5 v6 v7 : α) : α := max (max (max (max (max (max (max v0 v1) v2) v3) v4) v5) v6) v7

/-- Equal values have equal `max`. -/
theorem max8_congr {a0 a1 a2 a3 a4 a5 a6 a7 b0 b1 b2 b3 b4 b5 b6 b7 : α}
    (h0 : a0 = b0) (h1 : a1 = b1) (h2 : a2 = b2) (h3 : a3 = b3) (h4 : a4 = b4) (h5 : a5 = b5) (h6 : a6 = b6)
    (h7 : a7 = b7) : max8 a0 a1 a2 a3 a4 a5 a6 a7 = max8 b0 b1 b2 b3 b4 b5 b6 b7 := by
  rw [h0, h1, h2, h3, h4, h5, h6, h7]

/-- The `max` of eight values is below `c` exactly when each of them is. -/
theorem max8_le_iff (v0 v1 v2 v3 v4 v5 v6 v7 c : α) :
    max8 v0 v1 v2 v3 v4 v5 v6 v7 ≤ c
      ↔ v0 ≤ c ∧ v1 ≤ c ∧ v2 ≤ c ∧ v3 ≤ c ∧ v4 ≤ c ∧ v5 ≤ c ∧ v6 ≤ c ∧ v7 ≤ c := by
  unfold max8
  simp only [max_le_iff, and_assoc]

/-- The column maximum of a block of 2048 rows, from the starting value `b`. -/
def blockMax (b : α) (g : Fin 2048 → α) : α := (Finset.univ : Finset (Fin 2048)).fold max b g

theorem blockMax_le_iff (b : α) (g : Fin 2048 → α) (c : α) :
    blockMax b g ≤ c ↔ b ≤ c ∧ ∀ k : Fin 2048, g k ≤ c := by
  unfold blockMax
  rw [Finset.fold_max_le]
  exact and_congr Iff.rfl ⟨fun h k => h k (Finset.mem_univ k), fun h k _ => h k⟩

/-- The maximum of all 16384 rows from `b` is the `max` of the eight blocks' maxima from `b`, the blocks named in any
    order `d0, …, d7` that leaves none out. Row `2048 p + k` of the whole is row `k` of block `p`. -/
theorem fold_max_rows_eq_blocks (b : α) (f : Fin 16384 → α) (g : Fin 8 → Fin 2048 → α)
    (hg : ∀ (p : Fin 8) (k : Fin 2048) (r : Fin 16384), r.val = p.val * 2048 + k.val → g p k = f r)
    (d0 d1 d2 d3 d4 d5 d6 d7 : Fin 8)
    (hall : ∀ p : Fin 8, p = d0 ∨ p = d1 ∨ p = d2 ∨ p = d3 ∨ p = d4 ∨ p = d5 ∨ p = d6 ∨ p = d7) :
    (Finset.univ : Finset (Fin 16384)).fold max b f
      = max8 (blockMax b (g d0)) (blockMax b (g d1)) (blockMax b (g d2)) (blockMax b (g d3))
          (blockMax b (g d4)) (blockMax b (g d5)) (blockMax b (g d6)) (blockMax b (g d7)) := by
  refine eq_of_forall_ge_iff fun c => ?_
  rw [max8_le_iff, Finset.fold_max_le]
  simp only [blockMax_le_iff]
  constructor
  · rintro ⟨hb, hf⟩
    have key : ∀ p : Fin 8, b ≤ c ∧ ∀ k : Fin 2048, g p k ≤ c := fun p =>
      ⟨hb, fun k => by
        rw [hg p k ⟨p.val * 2048 + k.val, by have := p.isLt; have := k.isLt; omega⟩ rfl]
        exact hf _ (Finset.mem_univ _)⟩
    exact ⟨key d0, key d1, key d2, key d3, key d4, key d5, key d6, key d7⟩
  · rintro ⟨h0, h1, h2, h3, h4, h5, h6, h7⟩
    refine ⟨h0.1, fun r _ => ?_⟩
    have hp : r.val / 2048 < 8 := by have := r.isLt; omega
    have hk : r.val % 2048 < 2048 := Nat.mod_lt _ (by decide)
    have hr : r.val = (⟨r.val / 2048, hp⟩ : Fin 8).val * 2048 + (⟨r.val % 2048, hk⟩ : Fin 2048).val := by
      show r.val = r.val / 2048 * 2048 + r.val % 2048
      omega
    rw [← hg ⟨r.val / 2048, hp⟩ ⟨r.val % 2048, hk⟩ r hr]
    rcases hall ⟨r.val / 2048, hp⟩ with e | e | e | e | e | e | e | e <;> rw [e]
    · exact h0.2 _
    · exact h1.2 _
    · exact h2.2 _
    · exact h3.2 _
    · exact h4.2 _
    · exact h5.2 _
    · exact h6.2 _
    · exact h7.2 _

end Cert.MaxLaw
-- ==== Proof.RefValue.lean ====
/-
  The reference side of the eight-device column maximum, and the value equation.

  The reference takes the maximum of every column of a 16384 x 1024 array, starting from minus infinity, and lays the
  1024 maxima out as one row. Device `c` of the kernel takes the column maxima of its own 2048 rows and folds the
  eight devices' rows by `max`. On the extended reals the two agree: the maximum over all rows is the maximum over the
  eight blocks of the maximum over each block's rows, in any order and grouping of the blocks.
-/
import proofs.«900918_g7700000000000919_dist_max_ax0_shard0_i_m2048_n1024_v7x_i8_bf16_1_alg».proof.Proof.Contents
import proofs.«900918_g7700000000000919_dist_max_ax0_shard0_i_m2048_n1024_v7x_i8_bf16_1_alg».proof.Proof.Gen.ReferenceIdeal.Run
import proofs.«900918_g7700000000000919_dist_max_ax0_shard0_i_m2048_n1024_v7x_i8_bf16_1_alg».proof.Proof.Gen.ReferenceIdeal.Read
import proofs.«900918_g7700000000000919_dist_max_ax0_shard0_i_m2048_n1024_v7x_i8_bf16_1_alg».proof.Proof.Gen.ReferenceIdeal
import proofs.«900918_g7700000000000919_dist_max_ax0_shard0_i_m2048_n1024_v7x_i8_bf16_1_alg».proof.Proof.Gen.Pre_finite_inputs_ReferenceIdeal
import proofs.«900918_g7700000000000919_dist_max_ax0_shard0_i_m2048_n1024_v7x_i8_bf16_1_alg».proof.Defs
import Idealize.ShloMosaic.PureOps.Ideal.Laws
import Idealize.ShloMosaic.Lib.ValueIdx
import Idealize.ShloMosaic.Lib.Layout
import Idealize.ShloMosaic.Lib.Pipeline.Value
import Idealize.ShloMosaic.Lib.ValueLayout
import proofs.«900918_g7700000000000919_dist_max_ax0_shard0_i_m2048_n1024_v7x_i8_bf16_1_alg».proof.Proof.MaxLaw

noncomputable section

namespace Cert.RefValue

open Idealize.ShloMosaic Idealize.ShloMosaic.TcCoe Idealize.SL.Sem

/-- The reference's result as a term of its argument: the column maxima from minus infinity, laid out as one row. -/
def refVal (X : Cert.ReferenceIdeal.S16384x1024.Idx → EReal) : Cert.ReferenceIdeal.S1x1024.Idx → EReal :=
  broadcastInDim Cert.ReferenceIdeal.S1x1024 ![1] Cert.ReferenceIdeal.Gen.bcast_S1024_S1x1024_1
    (Host.reduce (FloatOps.maximumf (F := Ideal) (φ := .f32)) X (constant (F := Ideal) Cert.ReferenceIdeal.S_ .f32 0xFF800000#32)
      Cert.ReferenceIdeal.Gen.reducesTo_S16384x1024_S1024_d0 Cert.ReferenceIdeal.Gen.h_S_)

/-- The reference runs: its result ends at `refVal` of its argument, the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0)
    (Cert.ReferenceIdeal.Value.run (F := Ideal) m' g')

/-- The reference runs and leaves its argument as it found it. -/
theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run (Cert.ReferenceIdeal.defs (F := Ideal)) _ _).mono (fun _ h c => (h c).2)
    (Cert.ReferenceIdeal.Value.run (F := Ideal) m ρ)

/-! ## The value equation -/

open Idealize.ShloMosaic.ValueIdx
open Cert.KernelIdeal Cert.KernelIdeal.Gen Cert.KernelIdealProof

/-- Dropping axis 0 of the whole array leaves its 1024 columns. -/
theorem reduces_whole : Shape.Reduces Cert.ReferenceIdeal.S16384x1024 [0] Cert.ReferenceIdeal.S1024 := by decide

/-- A device's staging buffer holds its argument array: the window is the whole array, at block index zero. -/
theorem xstg_eq (m : (ℓ : Loc Cert.KernelIdeal.nD Cert.KernelIdeal.τ Cert.KernelIdeal.sig) → Buf (Elt Ideal) ℓ)
    (c : Dev Cert.KernelIdeal.nD) :
    xstg (F := Ideal) m c = m ((c.tc : Thread Cert.KernelIdeal.nD Cert.KernelIdeal.τ).loc Cert.KernelIdeal.main_arg0) := by
  unfold xstg
  exact Memref.read_access_unit_zero _ _ (funext fun a => Nat.zero_mul _) _ _

/-- The reference's result at column `q`: the fold of `max` from minus infinity over the 16384 rows of that column. -/
theorem refVal_apply (X : Cert.ReferenceIdeal.S16384x1024.Idx → EReal) (p : Fin 1) (q : Fin 1024) :
    refVal X (ix2 p q)
      = (Finset.univ : Finset (Fin 16384)).fold max (Ideal.ofBits .f32 0xFF800000#32) (fun k => X (ix2 k q)) := by
  show Cert.ReferenceIdeal.Read.val_main_v1 (F := Ideal) X (ix2 p q) = _
  rw [Cert.ReferenceIdeal.Read.val_main_v1_apply]
  unfold Cert.ReferenceIdeal.Read.val_main_v0
  rw [Host.reduce_eq_fold_single (FloatOps.maximumf (F := Ideal) (φ := .f32)) X _ _ reduces_whole]
  have e : (X ∘ reduces_whole.lift (Cert.ReferenceIdeal.Read.idx_main_v1 (ix2 p q))) = (fun k : Fin 16384 => X (ix2 k q)) :=
    funext fun k => congrArg X (funext fun a => match a with | ⟨0, _⟩ => rfl | ⟨1, _⟩ => rfl)
  rw [e]
  rfl

/-- The column maxima of a 2048 x 1024 block from minus infinity, at column `q`: the block's maximum down that column. -/
theorem colmax_apply (src : FVec Ideal S2048x1024 .f32) (hφ : FKind.Formats .f32)
    (hacc : (0xFF800000#32 : BitVec 32) = 0xFF800000#32) (q : Fin 1024) :
    multiReduction (F := Ideal) .maximumf [0] S1024 src 0xFF800000#32 reduces_S2048x1024_S1024 hφ hacc (ix1 q)
      = Cert.MaxLaw.blockMax (Ideal.ofBits .f32 0xFF800000#32) (fun k => src (ix2 k q)) :=
  (Ideal.multiReduction_maximumf_single src _ reduces_S2048x1024_S1024 hφ hacc (ix1 q)).trans
    (congrArg (fun f : Fin 2048 → EReal => Finset.fold max (Ideal.ofBits .f32 0xFF800000#32) f Finset.univ)
      (funext fun k => congrArg src (funext fun a => match a with | ⟨0, _⟩ => rfl | ⟨1, _⟩ => rfl)))

/-- A device's row at column `q`: the maximum from minus infinity down that column of its block. -/
theorem row_apply (m : (ℓ : Loc Cert.KernelIdeal.nD Cert.KernelIdeal.τ Cert.KernelIdeal.sig) → Buf (Elt Ideal) ℓ)
    (d : Dev Cert.KernelIdeal.nD) (a b : Fin 1) (q : Fin 1024) :
    row (F := Ideal) m d (ix3 a b q)
      = Cert.MaxLaw.blockMax (Ideal.ofBits .f32 0xFF800000#32) (fun k => xstg (F := Ideal) m d (ix2 k q)) := by
  unfold row k0_pay2 k0_pay1
  dsimp only
  rw [shapeCast_ab_1ab_apply, shapeCast_a_1a_apply, colmax_apply, shapeCast_self]

/-- Every device is `c` or one of `c`'s seven peers. -/
theorem peers_all (c p : Dev Cert.KernelIdeal.nD) :
    p = c ∨ p = peer c 0 ∨ p = peer c 1 ∨ p = peer c 2 ∨ p = peer c 3 ∨ p = peer c 4 ∨ p = peer c 5 ∨ p = peer c 6 := by
  revert c p; decide

/-- The `max` of eight extended reals folded from the left, as the order's own `max`. -/
theorem max8_eq (v0 v1 v2 v3 v4 v5 v6 v7 : EReal) :
    max (max (max (max (max (max (max v0 v1) v2) v3) v4) v5) v6) v7 = Cert.MaxLaw.max8 v0 v1 v2 v3 v4 v5 v6 v7 := rfl

/-- The fold of eight rows the kernel makes, read at column `q`: the `max` of the eight rows' entries there. -/
theorem fold8_apply (r0 r1 r2 r3 r4 r5 r6 r7 : Vec Ideal S1x1x1024 .f32) (p : Fin 1) (q : Fin 1024) :
    k0_pay5 (F := Ideal) (k0_pay4 (k0_pay3 r0 r1) r2 r3 r4) r5 r6 r7 (ix2 p q)
      = Cert.MaxLaw.max8 (r0 (ix3 (0 : Fin 1) p q)) (r1 (ix3 (0 : Fin 1) p q)) (r2 (ix3 (0 : Fin 1) p q))
          (r3 (ix3 (0 : Fin 1) p q)) (r4 (ix3 (0 : Fin 1) p q)) (r5 (ix3 (0 : Fin 1) p q))
          (r6 (ix3 (0 : Fin 1) p q)) (r7 (ix3 (0 : Fin 1) p q)) := by
  unfold k0_pay5 k0_pay4 k0_pay3
  dsimp only
  simp only [maximumf_apply, shapeCast_1ab_ab_apply]
  exact max8_eq _ _ _ _ _ _ _ _

/-- The kernel's result on device `c` at column `q`: the `max` of the eight devices' column maxima, its own first and
    then its peers' in ring order. -/
theorem outAt_apply (m : (ℓ : Loc Cert.KernelIdeal.nD Cert.KernelIdeal.τ Cert.KernelIdeal.sig) → Buf (Elt Ideal) ℓ)
    (c : Dev Cert.KernelIdeal.nD) (p : Fin 1) (q : Fin 1024) :
    Cert.KernelIdealProof.outAt (F := Ideal) m c (ix2 p q)
      = Cert.MaxLaw.max8
          (Cert.MaxLaw.blockMax (Ideal.ofBits .f32 0xFF800000#32) fun k => xstg (F := Ideal) m c (ix2 k q))
          (Cert.MaxLaw.blockMax (Ideal.ofBits .f32 0xFF800000#32) fun k => xstg (F := Ideal) m (peer c 0) (ix2 k q))
          (Cert.MaxLaw.blockMax (Ideal.ofBits .f32 0xFF800000#32) fun k => xstg (F := Ideal) m (peer c 1) (ix2 k q))
          (Cert.MaxLaw.blockMax (Ideal.ofBits .f32 0xFF800000#32) fun k => xstg (F := Ideal) m (peer c 2) (ix2 k q))
          (Cert.MaxLaw.blockMax (Ideal.ofBits .f32 0xFF800000#32) fun k => xstg (F := Ideal) m (peer c 3) (ix2 k q))
          (Cert.MaxLaw.blockMax (Ideal.ofBits .f32 0xFF800000#32) fun k => xstg (F := Ideal) m (peer c 4) (ix2 k q))
          (Cert.MaxLaw.blockMax (Ideal.ofBits .f32 0xFF800000#32) fun k => xstg (F := Ideal) m (peer c 5) (ix2 k q))
          (Cert.MaxLaw.blockMax (Ideal.ofBits .f32 0xFF800000#32) fun k => xstg (F := Ideal) m (peer c 6) (ix2 k q)) :=
  (fold8_apply (row (F := Ideal) m c) (row (F := Ideal) m (peer c 0)) (row (F := Ideal) m (peer c 1))
      (row (F := Ideal) m (peer c 2)) (row (F := Ideal) m (peer c 3)) (row (F := Ideal) m (peer c 4))
      (row (F := Ideal) m (peer c 5)) (row (F := Ideal) m (peer c 6)) p q).trans
    (Cert.MaxLaw.max8_congr (row_apply m c 0 p q) (row_apply m (peer c 0) 0 p q) (row_apply m (peer c 1) 0 p q)
      (row_apply m (peer c 2) 0 p q) (row_apply m (peer c 3) 0 p q) (row_apply m (peer c 4) 0 p q)
      (row_apply m (peer c 5) 0 p q) (row_apply m (peer c 6) 0 p q))

/-- Row `k`, column `q` of block `d` of the whole array is its row `2048 d + k`, column `q`. -/
theorem block_apply_rows (X : Cert.ReferenceIdeal.S16384x1024.Idx → EReal) (d : Fin 8) (k : Fin 2048) (q : Fin 1024)
    (r : Fin 16384) (hr : r.val = d.val * 2048 + k.val) :
    Layout.block ⟨2, ![2048, 1024]⟩ ⟨2, ![16384, 1024]⟩ 0 8 d X (by decide) (ix2 k q) = X (ix2 r q) := by
  rw [Layout.block_apply]
  refine congrArg X (funext fun a => ?_)
  match a with
  | ⟨0, _⟩ => exact Fin.ext (by show d.val * 2048 + k.val = r.val; omega)
  | ⟨1, _⟩ => rfl

/-- So, when every device holds its block of `X`, device `d`'s staging buffer at (`k`, `q`) is `X` at (`2048 d + k`, `q`). -/
theorem xstg_apply (m : (ℓ : Loc Cert.KernelIdeal.nD Cert.KernelIdeal.τ Cert.KernelIdeal.sig) → Buf (Elt Ideal) ℓ)
    (X : Cert.ReferenceIdeal.S16384x1024.Idx → EReal)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![16384, 1024]⟩ 0 8 c X)
    (d : Fin 8) (k : Fin 2048) (q : Fin 1024) (r : Fin 16384) (hr : r.val = d.val * 2048 + k.val) :
    xstg (F := Ideal) m d (ix2 k q) = X (ix2 r q) := by
  rw [xstg_eq, hblk d]
  exact block_apply_rows X d k q r hr

/-- Column by column: the `max` of the eight blocks' column maxima is the column maximum of the whole array. -/
theorem outAt_eq_refVal_at (m : (ℓ : Loc Cert.KernelIdeal.nD Cert.KernelIdeal.τ Cert.KernelIdeal.sig) → Buf (Elt Ideal) ℓ)
    (X : Cert.ReferenceIdeal.S16384x1024.Idx → EReal)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![16384, 1024]⟩ 0 8 c X)
    (c : Dev Cert.KernelIdeal.nD) (p : Fin 1) (q : Fin 1024) :
    Cert.KernelIdealProof.outAt (F := Ideal) m c (ix2 p q) = refVal X (ix2 p q) := by
  rw [refVal_apply, outAt_apply]
  exact (Cert.MaxLaw.fold_max_rows_eq_blocks (Ideal.ofBits .f32 0xFF800000#32) (fun r => X (ix2 r q))
    (fun d k => xstg (F := Ideal) m d (ix2 k q)) (fun d k r hr => xstg_apply m X hblk d k q r hr)
    c (peer c 0) (peer c 1) (peer c 2) (peer c 3) (peer c 4) (peer c 5) (peer c 6) (peers_all c)).symm

/-- The kernel's result on every device is the reference's result of the whole array of which the devices hold the
    blocks. -/
theorem outAt_eq_refVal (m : (ℓ : Loc Cert.KernelIdeal.nD Cert.KernelIdeal.τ Cert.KernelIdeal.sig) → Buf (Elt Ideal) ℓ)
    (X : Cert.ReferenceIdeal.S16384x1024.Idx → EReal)
    (hblk : ∀ c : Dev Cert.KernelIdeal.nD,
      m ((c.tc : Thread Cert.KernelIdeal.nD Cert.KernelIdeal.τ).loc Cert.KernelIdeal.main_arg0)
        = Layout.block ⟨2, ![2048, 1024]⟩ ⟨2, ![16384, 1024]⟩ 0 8 c X)
    (c : Dev Cert.KernelIdeal.nD) :
    Cert.KernelIdealProof.outAt (F := Ideal) m c = refVal X :=
  funext fun (j : Cert.KernelIdeal.S1x1024.Idx) =>
    (congrArg (Cert.KernelIdealProof.outAt (F := Ideal) m c) (eq_ix2 (n0 := 1) (n1 := 1024) j)).trans
      ((outAt_eq_refVal_at m X hblk c (j 0) (j 1)).trans
        (congrArg (refVal X) (eq_ix2 (n0 := 1) (n1 := 1024) j)).symm)

end Cert.RefValue

end
-- ==== Proof.lean ====
/-
  The column maximum of a 16384 x 1024 array cut into eight blocks of rows, one per device: every device reduces its
  block to one row of column maxima, the eight devices exchange their rows (a handshake on the barrier semaphore, then one
  copy from each device to each other one), and each folds the eight rows by `max`. The reference takes the maximum of
  every column of the whole array on one device. Over the extended reals the maximum of all rows is the maximum, over the
  blocks, of each block's maximum, in any order: that is the algebraic claim. The three frames say that each program runs
  to its end without a fault and leaves its argument unchanged: for the two kernels this is the exchange protocol's
  soundness (no device waits for a signal or a copy nobody will send; every copy's source and destination are held by
  exactly the device that may touch them), proved once for any float instance and read at both.
-/
import proofs.«900918_g7700000000000919_dist_max_ax0_shard0_i_m2048_n1024_v7x_i8_bf16_1_alg».proof.Defs
import proofs.«900918_g7700000000000919_dist_max_ax0_shard0_i_m2048_n1024_v7x_i8_bf16_1_alg».proof.Proof.Gen.Kernel
import proofs.«900918_g7700000000000919_dist_max_ax0_shard0_i_m2048_n1024_v7x_i8_bf16_1_alg».proof.Proof.Gen.KernelIdeal
import proofs.«900918_g7700000000000919_dist_max_ax0_shard0_i_m2048_n1024_v7x_i8_bf16_1_alg».proof.Proof.Gen.ReferenceIdeal
import proofs.«900918_g7700000000000919_dist_max_ax0_shard0_i_m2048_n1024_v7x_i8_bf16_1_alg».proof.Proof.Gen.Pre_finite_inputs_Kernel
import proofs.«900918_g7700000000000919_dist_max_ax0_shard0_i_m2048_n1024_v7x_i8_bf16_1_alg».proof.Proof.Gen.Pre_finite_inputs_ReferenceIdeal
import proofs.«900918_g7700000000000919_dist_max_ax0_shard0_i_m2048_n1024_v7x_i8_bf16_1_alg».proof.Proof.Body
import proofs.«900918_g7700000000000919_dist_max_ax0_shard0_i_m2048_n1024_v7x_i8_bf16_1_alg».proof.Proof.Launch
import proofs.«900918_g7700000000000919_dist_max_ax0_shard0_i_m2048_n1024_v7x_i8_bf16_1_alg».proof.Proof.Bits.Body
import proofs.«900918_g7700000000000919_dist_max_ax0_shard0_i_m2048_n1024_v7x_i8_bf16_1_alg».proof.Proof.Bits.Launch
import proofs.«900918_g7700000000000919_dist_max_ax0_shard0_i_m2048_n1024_v7x_i8_bf16_1_alg».proof.Proof.RefValue
import Idealize.ShloMosaic.Adequacy
import Idealize.ShloMosaic.Init

noncomputable section

namespace Cert.Proof

open Idealize.ShloMosaic Idealize.ShloMosaic.TcCoe Idealize.SL.Sem

/-- The idealized kernel's run: every device's result ends at the fold of the eight rows, its argument unchanged. -/
theorem run_ki (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = Cert.KernelIdealProof.outAt (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run (Cert.KernelIdeal.defs (F := Ideal)) _ _).mono
    (fun r h c => ⟨(h c 1).trans (Cert.KernelIdealProof.finalA_out m g c), (h c 0).trans (Cert.KernelIdealProof.finalA_x m g c)⟩)
    (Cert.KernelIdealProof.run_main_of m g (Cert.KernelIdealProof.body_obligation m g))

theorem frame_ki : Cert.frame_KernelIdeal := fun m g _ =>
  (θ_run (Cert.KernelIdeal.defs (F := Ideal)) _ _).mono (fun _ h c => (h c).2) (run_ki m g)

theorem frame_k : Cert.frame_Kernel := fun m g _ =>
  (θ_run (Cert.Kernel.defs (F := Bits)) _ _).mono (fun r h c => (h c 0).trans (Cert.KernelProof.finalA_x m g c))
    (Cert.KernelProof.run_main_of (F := Bits) m g (Cert.KernelProof.body_obligation m g))

/-- Both programs run; the reference's result is the maximum of every column of the whole array, and each device's result
    is the same: the fold of the eight blocks' column maxima. -/
theorem algebraic : Cert.algebraic_KernelIdeal_ReferenceIdeal := fun m g m' g' _ hagree =>
  ⟨Cert.RefValue.refVal (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun r h c => ⟨(h c).1.trans (Cert.RefValue.outAt_eq_refVal m _ hagree c), (h c).2⟩) (run_ki m g),
    Cert.RefValue.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefValue.frame_ri, trivial, algebraic⟩

end Cert.Proof

end
